-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S31 : Shape := ⟨1, ![31]⟩
abbrev S4194304 : Shape := ⟨1, ![4194304]⟩
abbrev S1048576 : Shape := ⟨1, ![1048576]⟩
abbrev S_ : Shape := ⟨0, ![]⟩
abbrev S4194334 : Shape := ⟨1, ![4194334]⟩
abbrev S1048576x1 : Shape := ⟨2, ![1048576, 1]⟩
abbrev S1x31 : Shape := ⟨2, ![1, 31]⟩
abbrev S1048576x31 : Shape := ⟨2, ![1048576, 31]⟩
abbrev S1048576x31x1 : Shape := ⟨3, ![1048576, 31, 1]⟩

class Facts : Prop where
  bcast_S_S31 : S_.BroadcastsInDim S31 (![] : Fin 0 → Fin S31.rank)
  reducesTo_S31_S_d0 : S31.ReducesTo [0] S_
  h_S_ : 0 < S_.numel
  bcast_S_S4194304 : S_.BroadcastsInDim S4194304 (![] : Fin 0 → Fin S4194304.rank)
  reducesTo_S4194304_S_d0 : S4194304.ReducesTo [0] S_
  bcast_S_S1048576 : S_.BroadcastsInDim S1048576 (![] : Fin 0 → Fin S1048576.rank)
  reducesTo_S1048576_S_d0 : S1048576.ReducesTo [0] S_
  pads_S4194304_S4194334_15150 : S4194304.Pads (![15] : Fin 1 → Nat) ![15] ![0] S4194334
  bcast_S1048576_S1048576x1_0 : S1048576.BroadcastsInDim S1048576x1 (![0] : Fin 1 → Fin S1048576x1.rank)
  bcast_S31_S1x31_1 : S31.BroadcastsInDim S1x31 (![1] : Fin 1 → Fin S1x31.rank)
  bcast_S1048576x1_S1048576x31_0_1 : S1048576x1.BroadcastsInDim S1048576x31 (![0, 1] : Fin 2 → Fin S1048576x31.rank)
  bcast_S1x31_S1048576x31_0_1 : S1x31.BroadcastsInDim S1048576x31 (![0, 1] : Fin 2 → Fin S1048576x31.rank)
  bcast_S_S1048576x31 : S_.BroadcastsInDim S1048576x31 (![] : Fin 0 → Fin S1048576x31.rank)
  bcast_S1048576x31_S1048576x31x1_0_1 : S1048576x31.BroadcastsInDim S1048576x31x1 (![0, 1] : Fin 2 → Fin S1048576x31x1.rank)
  reducesTo_S1048576x31_S1048576_d1 : S1048576x31.ReducesTo [1] S1048576
  gather_S4194334_S1048576x31x1_S1048576x31_n_0_n_n_0_2_1_wf : GatherDims.WF S4194334 S1048576x31x1 S1048576x31 [] [0] [] [0] [] 2 ![1]

variable [Facts]

def gather_S4194334_S1048576x31x1_S1048576x31_n_0_n_n_0_2_1 : GatherDims S4194334 S1048576x31x1 S1048576x31 where
  offsetDims := []
  collapsedSliceDims := [0]
  operandBatchingDims := []
  startIndicesBatchingDims := []
  startIndexMap := [0]
  indexVectorDim := 2
  sliceSizes := ![1]
  wf := gather_S4194334_S1048576x31x1_S1048576x31_n_0_n_n_0_2_1_wf
def fn_part2 {F : FTy → Type} [FloatOps F] (main_v20 : IVec S_ 1) (main_v34 : FVec F S1048576x31 .f32) (main_v35 : FVec F S1x31 .f32) : IVec S_ 1 :=
  let main_v36 : FVec F S1048576x31 .f32 := broadcastInDim S1048576x31 ![0, 1] bcast_S1x31_S1048576x31_0_1 main_v35
  let main_v37 : FVec F S1048576x31 .f32 := mulf main_v34 main_v36
  let main_cst_10 : FVec F S_ .f32 := constant S_ .f32 0x00000000#32
  let main_v38 : FVec F S1048576 .f32 := (fun x v => Host.reduceAdd x v reducesTo_S1048576x31_S1048576_d1 h_S_) main_v37 main_cst_10
  let main_cst_11 : FVec F S_ .f32 := constant S_ .f32 0x00000000#32
  let main_v39 : FVec F S1048576 .f32 := broadcastInDim S1048576 ![] bcast_S_S1048576 main_cst_11
  let main_v40 : IVec S1048576 1 := cmpf .une main_v38 main_v39
  let main_c_12 : IVec S_ 1 := constantI S_ 1 1#1
  let main_v41 : IVec S_ 1 := (fun x v => Host.reduce IntOp.andi x v reducesTo_S1048576_S_d0 h_S_) main_v40 main_c_12
  let main_v42 : IVec S_ 1 := andi main_v20 main_v41
  main_v42

def fn_part1 {F : FTy → Type} [FloatOps F] (main_arg0 : FVec F S31 .f32) (main_arg1 : FVec F S4194304 .f32) (main_arg3 : IVec S1048576 32) (main_v13 : IVec S_ 1) (main_v15 : IVec S1048576 1) (main_c_5 : IVec S_ 32) : IVec S_ 1 :=
  let main_v16 : IVec S1048576 32 := broadcastInDim S1048576 ![] bcast_S_S1048576 main_c_5
  let main_v17 : IVec S1048576 1 := cmpi .slt main_arg3 main_v16
  let main_v18 : IVec S1048576 1 := andi main_v15 main_v17
  let main_c_6 : IVec S_ 1 := constantI S_ 1 1#1
  let main_v19 : IVec S_ 1 := (fun x v => Host.reduce IntOp.andi x v reducesTo_S1048576_S_d0 h_S_) main_v18 main_c_6
  let main_v20 : IVec S_ 1 := andi main_v13 main_v19
  let main_cst_7 : FVec F S_ .f32 := constant S_ .f32 0x00000000#32
  let main_v21 : FVec F S4194334 .f32 := (fun x v => pad S4194334 ![15] ![15] ![0] x v pads_S4194304_S4194334_15150 h_S_) main_arg1 main_cst_7
  let main_v22 : IVec S1048576x1 32 := broadcastInDim S1048576x1 ![0] bcast_S1048576_S1048576x1_0 main_arg3
  let main_v23 : IVec S31 32 := iotaInDim S31 32 0
  let main_v24 : IVec S1x31 32 := broadcastInDim S1x31 ![1] bcast_S31_S1x31_1 main_v23
  let main_v25 : IVec S1048576x31 32 := broadcastInDim S1048576x31 ![0, 1] bcast_S1048576x1_S1048576x31_0_1 main_v22
  let main_v26 : IVec S1048576x31 32 := broadcastInDim S1048576x31 ![0, 1] bcast_S1x31_S1048576x31_0_1 main_v24
  let main_v27 : IVec S1048576x31 32 := addi main_v25 main_v26
  let main_c_8 : IVec S_ 32 := constantI S_ 32 0#32
  let main_v28 : IVec S1048576x31 32 := broadcastInDim S1048576x31 ![] bcast_S_S1048576x31 main_c_8
  let main_v29 : IVec S1048576x31 1 := cmpi .slt main_v27 main_v28
  let main_c_9 : IVec S_ 32 := constantI S_ 32 4194334#32
  let main_v30 : IVec S1048576x31 32 := broadcastInDim S1048576x31 ![] bcast_S_S1048576x31 main_c_9
  let main_v31 : IVec S1048576x31 32 := addi main_v27 main_v30
  let main_v32 : IVec S1048576x31 32 := select main_v29 main_v31 main_v27
  let main_v33 : IVec S1048576x31x1 32 := broadcastInDim S1048576x31x1 ![0, 1] bcast_S1048576x31_S1048576x31x1_0_1 main_v32
  let main_v34 : FVec F S1048576x31 .f32 := (fun x i => Host.gather gather_S4194334_S1048576x31x1_S1048576x31_n_0_n_n_0_2_1 x i) main_v21 main_v33
  let main_v35 : FVec F S1x31 .f32 := broadcastInDim S1x31 ![1] bcast_S31_S1x31_1 main_arg0
  fn_part2 (F := F) main_v20 main_v34 main_v35

def fn {F : FTy → Type} [FloatOps F] (main_arg0 : FVec F S31 .f32) (main_arg1 : FVec F S4194304 .f32) (main_arg2 : FVec F S1048576 .f32) (main_arg3 : IVec S1048576 32) : IVec S_ 1 :=
  let main_v0 : FVec F S31 .f32 := Host.absf main_arg0
  let main_cst : FVec F S_ .f32 := constant S_ .f32 0x7F800000#32
  let main_v1 : FVec F S31 .f32 := broadcastInDim S31 ![] bcast_S_S31 main_cst
  let main_v2 : IVec S31 1 := cmpf .olt main_v0 main_v1
  let main_c : IVec S_ 1 := constantI S_ 1 1#1
  let main_v3 : IVec S_ 1 := (fun x v => Host.reduce IntOp.andi x v reducesTo_S31_S_d0 h_S_) main_v2 main_c
  let main_v4 : FVec F S4194304 .f32 := Host.absf main_arg1
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  let main_c_4 : IVec S_ 32 := constantI S_ 32 0#32
  let main_v14 : IVec S1048576 32 := broadcastInDim S1048576 ![] bcast_S_S1048576 main_c_4
  let main_v15 : IVec S1048576 1 := cmpi .sge main_arg3 main_v14
  let main_c_5 : IVec S_ 32 := constantI S_ 32 4194304#32
  fn_part1 (F := F) main_arg0 main_arg1 main_arg3 main_v13 main_v15 main_c_5
-- ==== Kernel.lean ====
abbrev S31 : Shape := ⟨1, ![31]⟩
abbrev S4194304 : Shape := ⟨1, ![4194304]⟩
abbrev S1048576 : Shape := ⟨1, ![1048576]⟩
abbrev S_ : Shape := ⟨0, ![]⟩
abbrev S4194432 : Shape := ⟨1, ![4194432]⟩
abbrev S1x4194432 : Shape := ⟨2, ![1, 4194432]⟩
abbrev S1x31 : Shape := ⟨2, ![1, 31]⟩
abbrev S1x4194304 : Shape := ⟨2, ![1, 4194304]⟩
abbrev S1x8192 : Shape := ⟨2, ![1, 8192]⟩
abbrev S1x128 : Shape := ⟨2, ![1, 128]⟩
abbrev S1x8320 : Shape := ⟨2, ![1, 8320]⟩
abbrev S1x1 : Shape := ⟨2, ![1, 1]⟩
abbrev S1048576x1 : Shape := ⟨2, ![1048576, 1]⟩

abbrev nBuf : Space → Nat
  | .hbm => 34
  | .vmem => 16
  | .smem => 0
  | _ => 0

abbrev bufTy : (tb : Table) → Fin (tcTables nBuf tb) → BufTy
  | .hbm, ⟨0, _⟩ => ⟨S31, .f32⟩
  | .hbm, ⟨1, _⟩ => ⟨S4194304, .f32⟩
  | .hbm, ⟨2, _⟩ => ⟨S1048576, .f32⟩
  | .hbm, ⟨3, _⟩ => ⟨S1048576, .i32⟩
  | .hbm, ⟨4, _⟩ => ⟨S_, .i32⟩
  | .hbm, ⟨5, _⟩ => ⟨S_, .f32⟩
  | .hbm, ⟨6, _⟩ => ⟨S4194432, .f32⟩
  | .hbm, ⟨7, _⟩ => ⟨S1x4194432, .f32⟩
  | .hbm, ⟨8, _⟩ => ⟨S1x31, .f32⟩
  | .hbm, ⟨9, _⟩ => ⟨S1x4194304, .f32⟩
  | .hbm, ⟨10, _⟩ => ⟨S4194304, .f32⟩
  | .hbm, ⟨11, _⟩ => ⟨S_, .i32⟩
  | .hbm, ⟨12, _⟩ => ⟨S1048576, .i32⟩
  | .hbm, ⟨13, _⟩ => ⟨S1048576, .i1⟩
  | .hbm, ⟨14, _⟩ => ⟨S_, .i32⟩
  | .hbm, ⟨15, _⟩ => ⟨S1048576, .i32⟩
  | .hbm, ⟨16, _⟩ => ⟨S1048576, .i32⟩
  | .hbm, ⟨17, _⟩ => ⟨S1048576, .i32⟩
  | .hbm, ⟨18, _⟩ => ⟨S1048576x1, .i32⟩
  | .hbm, ⟨19, _⟩ => ⟨S1048576, .f32⟩
  | .hbm, ⟨20, _⟩ => ⟨S1048576, .f32⟩
  | .hbm, ⟨21, _⟩ => ⟨S_, .f32⟩
  | .hbm, ⟨22, _⟩ => ⟨S4194304, .f32⟩
  | .hbm, ⟨23, _⟩ => ⟨S1048576x1, .i32⟩
  | .hbm, ⟨24, _⟩ => ⟨S4194304, .f32⟩
  | .hbm, ⟨25, _⟩ => ⟨S_, .i32⟩
  | .hbm, ⟨26, _⟩ => ⟨S_, .f32⟩
  | .hbm, ⟨27, _⟩ => ⟨S4194432, .f32⟩
  | .hbm, ⟨28, _⟩ => ⟨S1x4194432, .f32⟩
  | .hbm, ⟨29, _⟩ => ⟨S31, .f32⟩
  | .hbm, ⟨30, _⟩ => ⟨S1x31, .f32⟩
  | .hbm, ⟨31, _⟩ => ⟨S1x4194304, .f32⟩
  | .hbm, ⟨32, _⟩ => ⟨S1x4194304, .f32⟩
  | .hbm, ⟨33, _⟩ => ⟨S4194304, .f32⟩
  | .local _ .vmem, ⟨0, _⟩ => ⟨S1x8192, .f32⟩
  | .local _ .vmem, ⟨1, _⟩ => ⟨S1x8192, .f32⟩
  | .local _ .vmem, ⟨2, _⟩ => ⟨S1x128, .f32⟩
  | .local _ .vmem, ⟨3, _⟩ => ⟨S1x128, .f32⟩
  | .local _ .vmem, ⟨4, _⟩ => ⟨S1x31, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | .local _ .vmem, ⟨8, _⟩ => ⟨S1x8192, .f32⟩
  | .local _ .vmem, ⟨9, _⟩ => ⟨S1x128, .f32⟩
  | .local _ .vmem, ⟨10, _⟩ => ⟨S1x128, .f32⟩
  | .local _ .vmem, ⟨11, _⟩ => ⟨S1x31, .f32⟩
  | .local _ .vmem, ⟨12, _⟩ => ⟨S1x8192, .f32⟩
  | .local _ .vmem, ⟨13, _⟩ => ⟨S1x8192, .f32⟩
  | .local _ .vmem, ⟨14, _⟩ => ⟨S1x8192, .f32⟩
  | .local _ .vmem, ⟨15, _⟩ => ⟨S1x8192, .f32⟩
  | _, _ => ⟨S31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x31 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x31 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  pads_S4194304_S4194432_151130 : S4194304.Pads (![15] : Fin 1 → Nat) ![113] ![0] S4194432
  h_S_ : 0 < S_.numel
  shapeCasts_S4194432_S1x4194432 : S4194432.ShapeCasts S1x4194432
  shapeCasts_S31_S1x31 : S31.ShapeCasts S1x31
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x31_S1x31_0_0 : ∀ a, (![0, 0] : Fin 2 → Nat) a + S1x31.size a ≤ S1x31.size a
  h_S1x31 : 0 < S1x31.numel
  shapeCasts_S1x31_S1x31 : S1x31.ShapeCasts S1x31
  concatenates_S1x8192_S1x128_S1x8320_d1 : Shape.Concatenates [S1x8192, S1x128] S1x8320 1
  slices_S1x31_o0_0_S1x1 : S1x31.Slices ![0, 0] S1x1
  slices_S1x8320_o0_0_S1x8192 : S1x8320.Slices ![0, 0] S1x8192
  broadcasts_S1x1_S1x8192 : S1x1.Broadcasts S1x8192
  slices_S1x31_o0_1_S1x1 : S1x31.Slices ![0, 1] S1x1
  slices_S1x8320_o0_1_S1x8192 : S1x8320.Slices ![0, 1] S1x8192
  slices_S1x31_o0_2_S1x1 : S1x31.Slices ![0, 2] S1x1
  slices_S1x8320_o0_2_S1x8192 : S1x8320.Slices ![0, 2] S1x8192
  slices_S1x31_o0_3_S1x1 : S1x31.Slices ![0, 3] S1x1
  slices_S1x8320_o0_3_S1x8192 : S1x8320.Slices ![0, 3] S1x8192
  slices_S1x31_o0_4_S1x1 : S1x31.Slices ![0, 4] S1x1
  slices_S1x8320_o0_4_S1x8192 : S1x8320.Slices ![0, 4] S1x8192
  slices_S1x31_o0_5_S1x1 : S1x31.Slices ![0, 5] S1x1
  slices_S1x8320_o0_5_S1x8192 : S1x8320.Slices ![0, 5] S1x8192
  slices_S1x31_o0_6_S1x1 : S1x31.Slices ![0, 6] S1x1
  slices_S1x8320_o0_6_S1x8192 : S1x8320.Slices ![0, 6] S1x8192
  slices_S1x31_o0_7_S1x1 : S1x31.Slices ![0, 7] S1x1
  slices_S1x8320_o0_7_S1x8192 : S1x8320.Slices ![0, 7] S1x8192
  slices_S1x31_o0_8_S1x1 : S1x31.Slices ![0, 8] S1x1
  slices_S1x8320_o0_8_S1x8192 : S1x8320.Slices ![0, 8] S1x8192
  slices_S1x31_o0_9_S1x1 : S1x31.Slices ![0, 9] S1x1
  slices_S1x8320_o0_9_S1x8192 : S1x8320.Slices ![0, 9] S1x8192
  slices_S1x31_o0_10_S1x1 : S1x31.Slices ![0, 10] S1x1
  slices_S1x8320_o0_10_S1x8192 : S1x8320.Slices ![0, 10] S1x8192
  slices_S1x31_o0_11_S1x1 : S1x31.Slices ![0, 11] S1x1
  slices_S1x8320_o0_11_S1x8192 : S1x8320.Slices ![0, 11] S1x8192
  slices_S1x31_o0_12_S1x1 : S1x31.Slices ![0, 12] S1x1
  slices_S1x8320_o0_12_S1x8192 : S1x8320.Slices ![0, 12] S1x8192
  slices_S1x31_o0_13_S1x1 : S1x31.Slices ![0, 13] S1x1
  slices_S1x8320_o0_13_S1x8192 : S1x8320.Slices ![0, 13] S1x8192
  slices_S1x31_o0_14_S1x1 : S1x31.Slices ![0, 14] S1x1
  slices_S1x8320_o0_14_S1x8192 : S1x8320.Slices ![0, 14] S1x8192
  slices_S1x31_o0_15_S1x1 : S1x31.Slices ![0, 15] S1x1
  slices_S1x8320_o0_15_S1x8192 : S1x8320.Slices ![0, 15] S1x8192
  slices_S1x31_o0_16_S1x1 : S1x31.Slices ![0, 16] S1x1
  slices_S1x8320_o0_16_S1x8192 : S1x8320.Slices ![0, 16] S1x8192
  slices_S1x31_o0_17_S1x1 : S1x31.Slices ![0, 17] S1x1
  slices_S1x8320_o0_17_S1x8192 : S1x8320.Slices ![0, 17] S1x8192
  slices_S1x31_o0_18_S1x1 : S1x31.Slices ![0, 18] S1x1
  slices_S1x8320_o0_18_S1x8192 : S1x8320.Slices ![0, 18] S1x8192
  slices_S1x31_o0_19_S1x1 : S1x31.Slices ![0, 19] S1x1
  slices_S1x8320_o0_19_S1x8192 : S1x8320.Slices ![0, 19] S1x8192
  slices_S1x31_o0_20_S1x1 : S1x31.Slices ![0, 20] S1x1
  slices_S1x8320_o0_20_S1x8192 : S1x8320.Slices ![0, 20] S1x8192
  slices_S1x31_o0_21_S1x1 : S1x31.Slices ![0, 21] S1x1
  slices_S1x8320_o0_21_S1x8192 : S1x8320.Slices ![0, 21] S1x8192
  slices_S1x31_o0_22_S1x1 : S1x31.Slices ![0, 22] S1x1
  slices_S1x8320_o0_22_S1x8192 : S1x8320.Slices ![0, 22] S1x8192
  slices_S1x31_o0_23_S1x1 : S1x31.Slices ![0, 23] S1x1
  slices_S1x8320_o0_23_S1x8192 : S1x8320.Slices ![0, 23] S1x8192
  slices_S1x31_o0_24_S1x1 : S1x31.Slices ![0, 24] S1x1
  slices_S1x8320_o0_24_S1x8192 : S1x8320.Slices ![0, 24] S1x8192
  slices_S1x31_o0_25_S1x1 : S1x31.Slices ![0, 25] S1x1
  slices_S1x8320_o0_25_S1x8192 : S1x8320.Slices ![0, 25] S1x8192
  slices_S1x31_o0_26_S1x1 : S1x31.Slices ![0, 26] S1x1
  slices_S1x8320_o0_26_S1x8192 : S1x8320.Slices ![0, 26] S1x8192
  slices_S1x31_o0_27_S1x1 : S1x31.Slices ![0, 27] S1x1
  slices_S1x8320_o0_27_S1x8192 : S1x8320.Slices ![0, 27] S1x8192
  slices_S1x31_o0_28_S1x1 : S1x31.Slices ![0, 28] S1x1
  slices_S1x8320_o0_28_S1x8192 : S1x8320.Slices ![0, 28] S1x8192
  slices_S1x31_o0_29_S1x1 : S1x31.Slices ![0, 29] S1x1
  slices_S1x8320_o0_29_S1x8192 : S1x8320.Slices ![0, 29] S1x8192
  slices_S1x31_o0_30_S1x1 : S1x31.Slices ![0, 30] S1x1
  slices_S1x8320_o0_30_S1x8192 : S1x8320.Slices ![0, 30] S1x8192
  shapeCasts_S1x4194304_S4194304 : S1x4194304.ShapeCasts S4194304
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S4194304 : S_.BroadcastsInDim S4194304 (![] : Fin 0 → Fin S4194304.rank)
  shapeCasts_S4194304_S1x4194304 : S4194304.ShapeCasts S1x4194304
  gather_S4194304_S1048576x1_S1048576_n_0_n_n_0_1_1_wf : GatherDims.WF S4194304 S1048576x1 S1048576 [] [0] [] [0] [] 1 ![1]
  scatter_S4194304_S1048576x1_S1048576_n_0_0_1_wf : ScatterDims.WF S4194304 S1048576x1 S1048576 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x8192.size a < S1x4194432.size a
  hwx0_0 : ∀ i : grid0.Coords, EltTy.bits .f32 = 32 ∨ (Rect.unit (s := S1x4194432) (fun a => cc0_transform_0 i a * S1x8192.size a) (fun a => (Pipeline.Clip.of (cc0_transform_0 i a) (S1x8192.size a) (S1x4194432.size a)).extent (S1x8192.size a)) fun a => Pipeline.Clip.inb (Pipeline.Clip.ok_of (hstart0_0 i a))).WholeWords (EltTy.packing .f32)
  hwxs0_0 : ∀ i : grid0.Coords, EltTy.bits .f32 = 32 ∨ (Rect.unit (s := S1x8192) (fun _ => 0) (fun a => (Pipeline.Clip.of (cc0_transform_0 i a) (S1x8192.size a) (S1x4194432.size a)).extent (S1x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x4194432.size a
  hwx0_1 : ∀ i : grid0.Coords, EltTy.bits .f32 = 32 ∨ (Rect.block (s := S1x4194432) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x31.size a ≤ S1x31.size a
  hwx0_2 : ∀ i : grid0.Coords, EltTy.bits .f32 = 32 ∨ (Rect.block (s := S1x31) S1x31.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x4194304.size a
  hwx0_3 : ∀ i : grid0.Coords, EltTy.bits .f32 = 32 ∨ (Rect.block (s := S1x4194304) S1x8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x8192.size a < S1x4194432.size a
  hwx1_0 : ∀ i : grid1.Coords, EltTy.bits .f32 = 32 ∨ (Rect.unit (s := S1x4194432) (fun a => cc1_transform_0 i a * S1x8192.size a) (fun a => (Pipeline.Clip.of (cc1_transform_0 i a) (S1x8192.size a) (S1x4194432.size a)).extent (S1x8192.size a)) fun a => Pipeline.Clip.inb (Pipeline.Clip.ok_of (hstart1_0 i a))).WholeWords (EltTy.packing .f32)
  hwxs1_0 : ∀ i : grid1.Coords, EltTy.bits .f32 = 32 ∨ (Rect.unit (s := S1x8192) (fun _ => 0) (fun a => (Pipeline.Clip.of (cc1_transform_0 i a) (S1x8192.size a) (S1x4194432.size a)).extent (S1x8192.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x4194432.size a
  hwx1_1 : ∀ i : grid1.Coords, EltTy.bits .f32 = 32 ∨ (Rect.block (s := S1x4194432) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x31.size a ≤ S1x31.size a
  hwx1_2 : ∀ i : grid1.Coords, EltTy.bits .f32 = 32 ∨ (Rect.block (s := S1x31) S1x31.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x4194304.size a
  hwx1_3 : ∀ i : grid1.Coords, EltTy.bits .f32 = 32 ∨ (Rect.block (s := S1x4194304) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8192.size a ≤ S1x4194304.size a
  hwx1_4 : ∀ i : grid1.Coords, EltTy.bits .f32 = 32 ∨ (Rect.block (s := S1x4194304) S1x8192.size (cc1_transform_4 i) (hinb1_4 i)).WholeWords (EltTy.packing .f32)

variable [Facts₀]

def gather_S4194304_S1048576x1_S1048576_n_0_n_n_0_1_1 : GatherDims S4194304 S1048576x1 S1048576 where
  offsetDims := []
  collapsedSliceDims := [0]
  operandBatchingDims := []
  startIndicesBatchingDims := []
  startIndexMap := [0]
  indexVectorDim := 1
  sliceSizes := ![1]
  wf := gather_S4194304_S1048576x1_S1048576_n_0_n_n_0_1_1_wf
def scatter_S4194304_S1048576x1_S1048576_n_0_0_1 : ScatterDims S4194304 S1048576x1 S1048576 where
  updateWindowDims := []
  insertedWindowDims := [0]
  scatterDimsToOperandDims := [0]
  indexVectorDim := 1
  wf := scatter_S4194304_S1048576x1_S1048576_n_0_0_1_wf

abbrev win0_0 : Pipeline.Window sig grid0 :=
  Pipeline.Window.ofSpecClip (Memref.whole main_v1) S1x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x31.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_v17) S1x8192.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v17) S1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x31.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x8192.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x8192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S31 : Shape := ⟨1, ![31]⟩
abbrev S4194304 : Shape := ⟨1, ![4194304]⟩
abbrev S1048576 : Shape := ⟨1, ![1048576]⟩
abbrev S_ : Shape := ⟨0, ![]⟩
abbrev S4194334 : Shape := ⟨1, ![4194334]⟩
abbrev S1048576x1 : Shape := ⟨2, ![1048576, 1]⟩
abbrev S1x31 : Shape := ⟨2, ![1, 31]⟩
abbrev S1048576x31 : Shape := ⟨2, ![1048576, 31]⟩
abbrev S1048576x31x1 : Shape := ⟨3, ![1048576, 31, 1]⟩

abbrev nBuf : Space → Nat
  | .hbm => 43
  | .vmem => 0
  | .smem => 0
  | _ => 0

abbrev bufTy : (tb : Table) → Fin (tcTables nBuf tb) → BufTy
  | .hbm, ⟨0, _⟩ => ⟨S31, .f32⟩
  | .hbm, ⟨1, _⟩ => ⟨S4194304, .f32⟩
  | .hbm, ⟨2, _⟩ => ⟨S1048576, .f32⟩
  | .hbm, ⟨3, _⟩ => ⟨S1048576, .i32⟩
  | .hbm, ⟨4, _⟩ => ⟨S_, .i32⟩
  | .hbm, ⟨5, _⟩ => ⟨S_, .f32⟩
  | .hbm, ⟨6, _⟩ => ⟨S4194334, .f32⟩
  | .hbm, ⟨7, _⟩ => ⟨S1048576x1, .i32⟩
  | .hbm, ⟨8, _⟩ => ⟨S31, .i32⟩
  | .hbm, ⟨9, _⟩ => ⟨S1x31, .i32⟩
  | .hbm, ⟨10, _⟩ => ⟨S1048576x31, .i32⟩
  | .hbm, ⟨11, _⟩ => ⟨S1048576x31, .i32⟩
  | .hbm, ⟨12, _⟩ => ⟨S1048576x31, .i32⟩
  | .hbm, ⟨13, _⟩ => ⟨S_, .i32⟩
  | .hbm, ⟨14, _⟩ => ⟨S1048576x31, .i32⟩
  | .hbm, ⟨15, _⟩ => ⟨S1048576x31, .i1⟩
  | .hbm, ⟨16, _⟩ => ⟨S_, .i32⟩
  | .hbm, ⟨17, _⟩ => ⟨S1048576x31, .i32⟩
  | .hbm, ⟨18, _⟩ => ⟨S1048576x31, .i32⟩
  | .hbm, ⟨19, _⟩ => ⟨S1048576x31, .i32⟩
  | .hbm, ⟨20, _⟩ => ⟨S1048576x31x1, .i32⟩
  | .hbm, ⟨21, _⟩ => ⟨S1048576x31, .f32⟩
  | .hbm, ⟨22, _⟩ => ⟨S1x31, .f32⟩
  | .hbm, ⟨23, _⟩ => ⟨S1048576x31, .f32⟩
  | .hbm, ⟨24, _⟩ => ⟨S1048576x31, .f32⟩
  | .hbm, ⟨25, _⟩ => ⟨S_, .f32⟩
  | .hbm, ⟨26, _⟩ => ⟨S1048576, .f32⟩
  | .hbm, ⟨27, _⟩ => ⟨S1048576, .f32⟩
  | .hbm, ⟨28, _⟩ => ⟨S1048576x1, .f32⟩
  | .hbm, ⟨29, _⟩ => ⟨S1048576x31, .f32⟩
  | .hbm, ⟨30, _⟩ => ⟨S1048576x31, .f32⟩
  | .hbm, ⟨31, _⟩ => ⟨S_, .f32⟩
  | .hbm, ⟨32, _⟩ => ⟨S4194334, .f32⟩
  | .hbm, ⟨33, _⟩ => ⟨S_, .i32⟩
  | .hbm, ⟨34, _⟩ => ⟨S1048576x31, .i32⟩
  | .hbm, ⟨35, _⟩ => ⟨S1048576x31, .i1⟩
  | .hbm, ⟨36, _⟩ => ⟨S_, .i32⟩
  | .hbm, ⟨37, _⟩ => ⟨S1048576x31, .i32⟩
  | .hbm, ⟨38, _⟩ => ⟨S1048576x31, .i32⟩
  | .hbm, ⟨39, _⟩ => ⟨S1048576x31, .i32⟩
  | .hbm, ⟨40, _⟩ => ⟨S1048576x31x1, .i32⟩
  | .hbm, ⟨41, _⟩ => ⟨S4194334, .f32⟩
  | .hbm, ⟨42, _⟩ => ⟨S4194304, .f32⟩
  | _, _ => ⟨S31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  pads_S4194304_S4194334_15150 : S4194304.Pads (![15] : Fin 1 → Nat) ![15] ![0] S4194334
  h_S_ : 0 < S_.numel
  bcast_S1048576_S1048576x1_0 : S1048576.BroadcastsInDim S1048576x1 (![0] : Fin 1 → Fin S1048576x1.rank)
  bcast_S31_S1x31_1 : S31.BroadcastsInDim S1x31 (![1] : Fin 1 → Fin S1x31.rank)
  bcast_S1048576x1_S1048576x31_0_1 : S1048576x1.BroadcastsInDim S1048576x31 (![0, 1] : Fin 2 → Fin S1048576x31.rank)
  bcast_S1x31_S1048576x31_0_1 : S1x31.BroadcastsInDim S1048576x31 (![0, 1] : Fin 2 → Fin S1048576x31.rank)
  bcast_S_S1048576x31 : S_.BroadcastsInDim S1048576x31 (![] : Fin 0 → Fin S1048576x31.rank)
  bcast_S1048576x31_S1048576x31x1_0_1 : S1048576x31.BroadcastsInDim S1048576x31x1 (![0, 1] : Fin 2 → Fin S1048576x31x1.rank)
  reducesTo_S1048576x31_S1048576_d1 : S1048576x31.ReducesTo [1] S1048576
  bcast_S_S4194334 : S_.BroadcastsInDim S4194334 (![] : Fin 0 → Fin S4194334.rank)
  slices_S4194334_S4194304_15 : S4194334.Slices ![15] S4194304
  gather_S4194334_S1048576x31x1_S1048576x31_n_0_n_n_0_2_1_wf : GatherDims.WF S4194334 S1048576x31x1 S1048576x31 [] [0] [] [0] [] 2 ![1]
  scatter_S4194334_S1048576x31x1_S1048576x31_n_0_0_2_wf : ScatterDims.WF S4194334 S1048576x31x1 S1048576x31 [] [0] [0] 2

variable [Facts₀]

def gather_S4194334_S1048576x31x1_S1048576x31_n_0_n_n_0_2_1 : GatherDims S4194334 S1048576x31x1 S1048576x31 where
  offsetDims := []
  collapsedSliceDims := [0]
  operandBatchingDims := []
  startIndicesBatchingDims := []
  startIndexMap := [0]
  indexVectorDim := 2
  sliceSizes := ![1]
  wf := gather_S4194334_S1048576x31x1_S1048576x31_n_0_n_n_0_2_1_wf
def scatter_S4194334_S1048576x31x1_S1048576x31_n_0_0_2 : ScatterDims S4194334 S1048576x31x1 S1048576x31 where
  updateWindowDims := []
  insertedWindowDims := [0]
  scatterDimsToOperandDims := [0]
  indexVectorDim := 2
  wf := scatter_S4194334_S1048576x31x1_S1048576x31_n_0_0_2_wf

class Facts : Prop extends Facts₀ where

variable [Facts]
-- ==== Proof.Kernel.RunCond.lean ====
import proofs.«419612_j53841710022881_3_alg».proof.Proof.Gen.Kernel.Regions
import Idealize.ShloMosaic.Lib.Pipeline.Frame
import Idealize.ShloMosaic.Lib.Pipeline.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

-- the launch memory, declared as Regions.lean declares it
variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN: `frame_cond` with the final memory read at EVERY unscoped buffer — each holds the last
    valuation's contents — instead of at the four argument arrays only. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V9 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, .rfl, .rfl, hpre1 c, hpost1 c, sep_mono .rfl (hE2 c)⟩)
    (hinit := ?_) (QY := fun c s => ∀ b ∈ Pipeline.ucRefs τ sig, s.mem ((c : Thread nD τ).1, b) = V9 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

end Cert.Kernel.Gen

end
-- ==== Proof.Kernel.Region0.lean ====
/-
  Region 0 (the 31-tap weighted window sum over the padded sequence), at the contents `V` the region is entered with.

  Windows 0 and 1 read ONE array, the padded sequence as a 1 × 4194432 row: window 0 its block of 8192 entries at
  grid point t, window 1 the 128 entries that follow it (the halo).  Window 2 is the 1 × 31 weights, window 3 the output
  block of 8192 entries.  The array's length is 512 · 8192 + 128, so window 0's blocks do not tile it; the 512 blocks the
  grid visits lie inside it, which is decided once over the grid (`clip0_0`).
-/
import proofs.«419612_j53841710022881_3_alg».proof.Proof.Gen.Kernel.Launch
import proofs.«419612_j53841710022881_3_alg».proof.Proof.Gen.Kernel.Skeleton
import proofs.«419612_j53841710022881_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- No block of window 0 that the grid visits reaches past the array's end. -/
theorem clip0_0 : ∀ t : Fin cfg0.N, ∀ a, (cfg0.win 0).clip (cfg0.grid.coords t) a = none :=
  (by decide +kernel : ∀ t : Fin grid0.N, ∀ a, win0_0.clip (grid0.coords t) a = none)

/-- What window 0's staging buffer holds once its fetch at point `t` has landed: the whole block (the filler is read nowhere). -/
def x0at (c : Dev nD) (t : Fin cfg0.N) : Vec F S1x8192 .f32 :=
  win0_0.fill (grid0.coords t) (fun _ => Scalar.ofBits .f32 0#32) (iblk0 V c 0 t)

theorem before0_0_of {c : Dev nD} (dat : Dat τ (Elt F) Unit ℕ (UR sig nD τ) ℕ cfg0 c) (hA : dat.A 0 = V c (Pipeline.arrRef spec0 0))
    (t : Fin cfg0.N) (d) : dat.before 0 t d = x0at V c t := by
  rw [dat.before_fetched 0 t (fetch0_0 t) d, dat.fetched_of_clip_none 0 t (clip0_0 t) d (fun _ => Scalar.ofBits .f32 0#32)]
  unfold Dat.fetched Dat.blockOf x0at iblk0; rw [hA]; try rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output window's buffer -/

abbrev rA0 : Rect S1x8192 := Rect.unit (s := S1x8192) ![0, 0] S1x8192.size inb_S1x8192_S1x8192_0_0
abbrev rB0 : Rect S1x128 := Rect.unit (s := S1x128) ![0, 0] S1x128.size inb_S1x128_S1x128_0_0
abbrev rC0 : Rect S1x31 := Rect.unit (s := S1x31) ![0, 0] S1x31.size inb_S1x31_S1x31_0_0

/-- The body's one store, as a function of the three input buffers: the 31-tap sum the payloads spell. -/
def pay0 (x0 : Vec F S1x8192 .f32) (x1 : Vec F S1x128 .f32) (x2 : Vec F S1x31 .f32) : FVec F S1x8192 .f32 :=
  k0_pay1 (k0_pay2 (View.ld x2 rC0)) (k0_pay3 (View.ld x0 rA0) (View.ld x1 rB0))
    (k0_pay6 (k0_pay2 (View.ld x2 rC0)) (k0_pay3 (View.ld x0 rA0) (View.ld x1 rB0)) (k0_pay4 (View.ld x0 rA0) (View.ld x1 rB0) (View.ld x2 rC0)) (k0_pay5 (View.ld x0 rA0) (View.ld x1 rB0) (View.ld x2 rC0)))
    (k0_pay7 (k0_pay2 (View.ld x2 rC0)) (k0_pay3 (View.ld x0 rA0) (View.ld x1 rB0)))

/-- The output window's buffer after the body. -/
def out0_3 (x0 : Vec F S1x8192 .f32) (x1 : Vec F S1x128 .f32) (x2 : Vec F S1x31 .f32) : Vec F S1x8192 .f32 :=
  View.canon [⟨rA0, pay0 x0 x1 x2⟩]

theorem cover0_3 (p0 : Vec F S1x8192 .f32) (y : S1x8192.Idx) :
    ∃ pc ∈ ([⟨rA0, p0⟩] : List (View.Piece (Elt F) S1x8192 .f32)), y ∈ pc.1.set :=
  View.cover_of_tiled [⟨rA0, p0⟩] S1x8192.size (by rfl) y

set_option maxHeartbeats 1000000 in
theorem sound_kernel0 (c : Dev nD) (E : Set ℕ) (i : grid0.Coords)
    (arg0 : Memref sig .tc .vmem S1x8192 .f32) (harg0 : arg0.IsWhole) (arg1 : Memref sig .tc .vmem S1x128 .f32) (harg1 : arg1.IsWhole)
    (arg2 : Memref sig .tc .vmem S1x31 .f32) (harg2 : arg2.IsWhole) (arg3 : Memref sig .tc .vmem S1x8192 .f32) (harg3 : arg3.IsWhole)
    (x0 : Vec F S1x8192 .f32) (x1 : Vec F S1x128 .f32) (x2 : Vec F S1x31 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__corr_kernel i arg0 harg0 arg1 harg1 arg2 harg2 arg3 harg3) K := by
  simp only [cc0__corr_kernel_eq_skeleton]; unfold cc0__corr_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _)]
  unfold out0_3 pay0
  sl_unfold_words
  rfl

/-! ## The pipeline's proof data -/

/-- The proof data of region 0 on core `c`: the arrays as the region finds them; after the body at point `t` each
    input's buffer as fetched and the output's at `out0_3` of them; nothing owed.  Windows 0 and 1 read the same array
    and hold one half of it each; the weights and the output are held whole. -/
def dat0 (c : Dev nD) : Dat τ (Elt F) Unit ℕ (UR sig nD τ) ℕ cfg0 c where
  A w := V c (Pipeline.arrRef spec0 w)
  after w t := match w with
    | ⟨0, _⟩ => x0at V c t
    | ⟨1, _⟩ => iblk0 V c 1 t
    | ⟨2, _⟩ => iblk0 V c 2 t
    | ⟨3, _⟩ => out0_3 (x0at V c t) (iblk0 V c 1 t) (iblk0 V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = x0at V c t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (x0at V c t) (iblk0 V c 1 t) (iblk0 V c 2 t) := by dsimp only [dat0]

theorem before0_0 (c : Dev nD) (t : Fin cfg0.N) (d) : (dat0 V c).before 0 t d = x0at V c t :=
  before0_0_of V (dat0 V c) (A_eq0 V c 0) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (x0at V c t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
/-
  Region 1 (the 31-tap weighted window sum over the padded segment sums, times the sequence), at the contents `V` the
  region is entered with.

  Windows 0 and 1 read ONE array, the padded segment sums as a 1 × 4194432 row: window 0 its block of 8192 entries at
  grid point t, window 1 the 128 entries that follow it.  Window 2 is the 1 × 31 reversed weights, window 3 the block of
  the sequence itself, window 4 the output block.  As in region 0, window 0's blocks do not tile its array, and the 512
  blocks the grid visits lie inside it (`clip1_0`).
-/
import proofs.«419612_j53841710022881_3_alg».proof.Proof.Gen.Kernel.Launch
import proofs.«419612_j53841710022881_3_alg».proof.Proof.Gen.Kernel.Skeleton
import proofs.«419612_j53841710022881_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- No block of window 0 that the grid visits reaches past the array's end. -/
theorem clip1_0 : ∀ t : Fin cfg1.N, ∀ a, (cfg1.win 0).clip (cfg1.grid.coords t) a = none :=
  (by decide +kernel : ∀ t : Fin grid1.N, ∀ a, win1_0.clip (grid1.coords t) a = none)

/-- What window 0's staging buffer holds once its fetch at point `t` has landed: the whole block (the filler is read nowhere). -/
def y0at (c : Dev nD) (t : Fin cfg1.N) : Vec F S1x8192 .f32 :=
  win1_0.fill (grid1.coords t) (fun _ => Scalar.ofBits .f32 0#32) (iblk1 V c 0 t)

theorem before1_0_of {c : Dev nD} (dat : Dat τ (Elt F) Unit ℕ (UR sig nD τ) ℕ cfg1 c) (hA : dat.A 0 = V c (Pipeline.arrRef spec1 0))
    (t : Fin cfg1.N) (d) : dat.before 0 t d = y0at V c t := by
  rw [dat.before_fetched 0 t (fetch1_0 t) d, dat.fetched_of_clip_none 0 t (clip1_0 t) d (fun _ => Scalar.ofBits .f32 0#32)]
  unfold Dat.fetched Dat.blockOf y0at iblk1; rw [hA]; try rfl

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output window's buffer -/

abbrev rA1 : Rect S1x8192 := Rect.unit (s := S1x8192) ![0, 0] S1x8192.size inb_S1x8192_S1x8192_0_0
abbrev rB1 : Rect S1x128 := Rect.unit (s := S1x128) ![0, 0] S1x128.size inb_S1x128_S1x128_0_0
abbrev rC1 : Rect S1x31 := Rect.unit (s := S1x31) ![0, 0] S1x31.size inb_S1x31_S1x31_0_0

/-- The body's one store, as a function of the four input buffers: the 31-tap sum the payloads spell, times the multiplier. -/
def pay1 (x0 : Vec F S1x8192 .f32) (x1 : Vec F S1x128 .f32) (x2 : Vec F S1x31 .f32) (x3 : Vec F S1x8192 .f32) : FVec F S1x8192 .f32 :=
  k1_pay7 (k1_pay1 (View.ld x2 rC1)) (k1_pay2 (View.ld x0 rA1) (View.ld x1 rB1))
    (k1_pay5 (k1_pay1 (View.ld x2 rC1)) (k1_pay2 (View.ld x0 rA1) (View.ld x1 rB1)) (k1_pay3 (View.ld x0 rA1) (View.ld x1 rB1) (View.ld x2 rC1)) (k1_pay4 (View.ld x0 rA1) (View.ld x1 rB1) (View.ld x2 rC1)))
    (k1_pay6 (k1_pay1 (View.ld x2 rC1)) (k1_pay2 (View.ld x0 rA1) (View.ld x1 rB1)))
    (View.ld x3 rA1)

/-- The output window's buffer after the body. -/
def out1_4 (x0 : Vec F S1x8192 .f32) (x1 : Vec F S1x128 .f32) (x2 : Vec F S1x31 .f32) (x3 : Vec F S1x8192 .f32) : Vec F S1x8192 .f32 :=
  View.canon [⟨rA1, pay1 x0 x1 x2 x3⟩]

theorem cover1_4 (p0 : Vec F S1x8192 .f32) (y : S1x8192.Idx) :
    ∃ pc ∈ ([⟨rA1, p0⟩] : List (View.Piece (Elt F) S1x8192 .f32)), y ∈ pc.1.set :=
  View.cover_of_tiled [⟨rA1, p0⟩] S1x8192.size (by rfl) y

set_option maxHeartbeats 1000000 in
theorem sound_kernel1 (c : Dev nD) (E : Set ℕ) (i : grid1.Coords)
    (arg0 : Memref sig .tc .vmem S1x8192 .f32) (harg0 : arg0.IsWhole) (arg1 : Memref sig .tc .vmem S1x128 .f32) (harg1 : arg1.IsWhole)
    (arg2 : Memref sig .tc .vmem S1x31 .f32) (harg2 : arg2.IsWhole) (arg3 : Memref sig .tc .vmem S1x8192 .f32) (harg3 : arg3.IsWhole)
    (arg4 : Memref sig .tc .vmem S1x8192 .f32) (harg4 : arg4.IsWhole)
    (x0 : Vec F S1x8192 .f32) (x1 : Vec F S1x128 .f32) (x2 : Vec F S1x31 .f32) (x3 : Vec F S1x8192 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3
            ∗ owns (c : Thread nD τ) arg4 fullShare (out1_4 x0 x1 x2 x3)) -∗ K ⟨⟩))
      ⊢ wp frame (wpE (defs₀ (F := F)) Variants.none c none) E (cc1__conv_mul_kernel i arg0 harg0 arg1 harg1 arg2 harg2 arg3 harg3 arg4 harg4) K := by
  simp only [cc1__conv_mul_kernel_eq_skeleton]; unfold cc1__conv_mul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover1_4 _)]
  unfold out1_4 pay1
  sl_unfold_words
  rfl

/-! ## The pipeline's proof data -/

/-- The proof data of region 1 on core `c`: the arrays as the region finds them; after the body at point `t` each
    input's buffer as fetched and the output's at `out1_4` of them; nothing owed.  Windows 0 and 1 read the same array
    and hold one half of it each; the others are held whole. -/
def dat1 (c : Dev nD) : Dat τ (Elt F) Unit ℕ (UR sig nD τ) ℕ cfg1 c where
  A w := V c (Pipeline.arrRef spec1 w)
  after w t := match w with
    | ⟨0, _⟩ => y0at V c t
    | ⟨1, _⟩ => iblk1 V c 1 t
    | ⟨2, _⟩ => iblk1 V c 2 t
    | ⟨3, _⟩ => iblk1 V c 3 t
    | ⟨4, _⟩ => out1_4 (y0at V c t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = y0at V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (y0at V c t) (iblk1 V c 1 t) (iblk1 V c 2 t) (iblk1 V c 3 t) := by dsimp only [dat1]

theorem before1_0 (c : Dev nD) (t : Fin cfg1.N) (d) : (dat1 V c).before 0 t d = y0at V c t :=
  before1_0_of V (dat1 V c) (A_eq1 V c 0) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (y0at V c t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The run of the whole program, region by region.

  Each region reads one row through two windows (its block and the halo after it), so the row's buffer, held whole
  between the regions, is split in two halves at the region's entry — one for each window — and put together again at
  its exit; the other arrays go in and come out whole.  Between the regions the unscoped buffers are held at the
  valuations the host stretches compute, the regions' output rows at what their write-backs leave.
-/
import proofs.«419612_j53841710022881_3_alg».proof.Proof.Kernel.RunCond
import proofs.«419612_j53841710022881_3_alg».proof.Proof.Kernel.Region0
import proofs.«419612_j53841710022881_3_alg».proof.Proof.Kernel.Region1

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## A region's arrays out of, and back among, the core's unscoped buffers -/

/-- The unscoped buffers outside a region's arrays, at two valuations that agree there. -/
theorem unscopedRest_congr {gr W : Nat} (win : Fin W → Pipeline.WinSpec sig gr) (c : Dev nD)
    (V V' : (b : Ref sig .tc) → Buf (Elt F) ((c : Thread nD τ).loc b))
    (h : ∀ b, b ∉ Finset.univ.image (Pipeline.arrRef win) → V' b = V b) :
    (Pipeline.unscopedRest (Ix := Unit) (Name := ℕ) (U := UR sig nD τ) (Lvl := ℕ) win c V : sProp 𝕄)
      = Pipeline.unscopedRest win c V' := by
  unfold Pipeline.unscopedRest
  exact bigSep_congr fun b hb => by rw [h b (Finset.mem_sdiff.mp hb).2]

/-- Region 0's windows read three buffers: the padded row (twice), the weights, the output row. -/
theorem arrImage0 : Finset.univ.image (Pipeline.arrRef spec0) = ({main_v1, main_v2, main_v3} : Finset (Ref sig .tc)) := by decide

/-- ENTRY: the three buffers behind region 0's arrays, whole at contents `V`, are its four arrays at their entry
    contents — the padded row's buffer split in its two halves, one per window. -/
theorem arrays_entry0 (c : Dev nD) (V : (b : Ref sig .tc) → Buf (Elt F) ((c : Thread nD τ).loc b))
    (dat : Dat τ (Elt F) Unit ℕ (UR sig nD τ) ℕ cfg0 c) (hA : ∀ w, dat.A w = V (Pipeline.arrRef spec0 w))
    (hq0 : dat.q 0 = fullShare.left) (hq1 : dat.q 1 = fullShare.right) (hq2 : dat.q 2 = fullShare) :
    (Pipeline.arrBufs (Ix := Unit) (Name := ℕ) (U := UR sig nD τ) (Lvl := ℕ) spec0 c V : sProp 𝕄) ⊢ dat.arrays (dat.arrAt · 0) := by
  unfold Pipeline.arrBufs Dat.arrays
  rw [arrImage0, bigSep_insert (by decide), bigSep_insert (by decide), bigSep_singleton, bigSep_W0]
  have e0 : (View.loc c.tc (cfg0.win 0).arr.view ↦[(cfg0.win 0).arr.view.set]{dat.share 0} (fun x => dat.arrAt x 0) 0 : sProp 𝕄)
      = (c.tc.loc main_v1 ↦{fullShare.left} V main_v1) := by
    rw [(arr_whole0 0).set_eq_univ, show dat.share 0 = fullShare.left from hq0, show (fun x => dat.arrAt x 0) 0 = V main_v1 from hA 0]
  have e1 : (View.loc c.tc (cfg0.win 1).arr.view ↦[(cfg0.win 1).arr.view.set]{dat.share 1} (fun x => dat.arrAt x 0) 1 : sProp 𝕄)
      = (c.tc.loc main_v1 ↦{fullShare.right} V main_v1) := by
    rw [(arr_whole0 1).set_eq_univ, show dat.share 1 = fullShare.right from hq1, show (fun x => dat.arrAt x 0) 1 = V main_v1 from hA 1]
  have e2 : (View.loc c.tc (cfg0.win 2).arr.view ↦[(cfg0.win 2).arr.view.set]{dat.share 2} (fun x => dat.arrAt x 0) 2 : sProp 𝕄)
      = (c.tc.loc main_v2 ↦{fullShare} V main_v2) := by
    rw [(arr_whole0 2).set_eq_univ, show dat.share 2 = fullShare from hq2, show (fun x => dat.arrAt x 0) 2 = V main_v2 from hA 2]
  have e3 : (View.loc c.tc (cfg0.win 3).arr.view ↦[(cfg0.win 3).arr.view.set]{dat.share 3} (fun x => dat.arrAt x 0) 3 : sProp 𝕄)
      = (c.tc.loc main_v3 ↦{fullShare} V main_v3) := by
    rw [(arr_whole0 3).set_eq_univ, show dat.share 3 = fullShare from rfl, show (fun x => dat.arrAt x 0) 3 = V main_v3 from hA 3]
  rw [e0, e1, e2, e3]
  exact (sep_mono (pointsTo_share (PosShare.mem_left_op_right fullShare)).1 .rfl).trans sep_assoc.1

/-- EXIT: region 0's four arrays at contents `G` — the two windows on the padded row holding the same contents — are the
    three buffers behind them, whole, at any valuation `V'` that has those contents: the row's two halves put together. -/
theorem arrays_exit0 (c : Dev nD) (V' : (b : Ref sig .tc) → Buf (Elt F) ((c : Thread nD τ).loc b))
    (dat : Dat τ (Elt F) Unit ℕ (UR sig nD τ) ℕ cfg0 c)
    (G : (w : Fin cfg0.W) → Buf (Elt F) ((cfg0.win w).arr.view.loc (c.tc : Thread nD τ)))
    (hq0 : dat.q 0 = fullShare.left) (hq1 : dat.q 1 = fullShare.right) (hq2 : dat.q 2 = fullShare)
    (hG0 : G 0 = V' main_v1) (hG1 : G 1 = V' main_v1) (hG2 : G 2 = V' main_v2) (hG3 : G 3 = V' main_v3) :
    dat.arrays G ⊢ (Pipeline.arrBufs (Ix := Unit) (Name := ℕ) (U := UR sig nD τ) (Lvl := ℕ) spec0 c V' : sProp 𝕄) := by
  unfold Pipeline.arrBufs Dat.arrays
  rw [arrImage0, bigSep_insert (by decide), bigSep_insert (by decide), bigSep_singleton, bigSep_W0]
  have e0 : (View.loc c.tc (cfg0.win 0).arr.view ↦[(cfg0.win 0).arr.view.set]{dat.share 0} G 0 : sProp 𝕄)
      = (c.tc.loc main_v1 ↦{fullShare.left} V' main_v1) := by
    rw [(arr_whole0 0).set_eq_univ, show dat.share 0 = fullShare.left from hq0, hG0]
  have e1 : (View.loc c.tc (cfg0.win 1).arr.view ↦[(cfg0.win 1).arr.view.set]{dat.share 1} G 1 : sProp 𝕄)
      = (c.tc.loc main_v1 ↦{fullShare.right} V' main_v1) := by
    rw [(arr_whole0 1).set_eq_univ, show dat.share 1 = fullShare.right from hq1, hG1]
  have e2 : (View.loc c.tc (cfg0.win 2).arr.view ↦[(cfg0.win 2).arr.view.set]{dat.share 2} G 2 : sProp 𝕄)
      = (c.tc.loc main_v2 ↦{fullShare} V' main_v2) := by
    rw [(arr_whole0 2).set_eq_univ, show dat.share 2 = fullShare from hq2, hG2]
  have e3 : (View.loc c.tc (cfg0.win 3).arr.view ↦[(cfg0.win 3).arr.view.set]{dat.share 3} G 3 : sProp 𝕄)
      = (c.tc.loc main_v3 ↦{fullShare} V' main_v3) := by
    rw [(arr_whole0 3).set_eq_univ, show dat.share 3 = fullShare from rfl, hG3]
  rw [e0, e1, e2, e3]
  exact sep_assoc.2.trans (sep_mono (pointsTo_share (PosShare.mem_left_op_right fullShare)).2 .rfl)

/-- Region 1's windows read four buffers: the padded row (twice), the reversed weights, the multiplier row, the output row. -/
theorem arrImage1 : Finset.univ.image (Pipeline.arrRef spec1) = ({main_v17, main_v19, main_v20, main_v21} : Finset (Ref sig .tc)) := by decide

/-- ENTRY, region 1: as for region 0, the padded row's buffer split in its two halves. -/
theorem arrays_entry1 (c : Dev nD) (V : (b : Ref sig .tc) → Buf (Elt F) ((c : Thread nD τ).loc b))
    (dat : Dat τ (Elt F) Unit ℕ (UR sig nD τ) ℕ cfg1 c) (hA : ∀ w, dat.A w = V (Pipeline.arrRef spec1 w))
    (hq0 : dat.q 0 = fullShare.left) (hq1 : dat.q 1 = fullShare.right) (hq2 : dat.q 2 = fullShare) (hq3 : dat.q 3 = fullShare) :
    (Pipeline.arrBufs (Ix := Unit) (Name := ℕ) (U := UR sig nD τ) (Lvl := ℕ) spec1 c V : sProp 𝕄) ⊢ dat.arrays (dat.arrAt · 0) := by
  unfold Pipeline.arrBufs Dat.arrays
  rw [arrImage1, bigSep_insert (by decide), bigSep_insert (by decide), bigSep_insert (by decide), bigSep_singleton, bigSep_W1]
  have e0 : (View.loc c.tc (cfg1.win 0).arr.view ↦[(cfg1.win 0).arr.view.set]{dat.share 0} (fun x => dat.arrAt x 0) 0 : sProp 𝕄)
      = (c.tc.loc main_v17 ↦{fullShare.left} V main_v17) := by
    rw [(arr_whole1 0).set_eq_univ, show dat.share 0 = fullShare.left from hq0, show (fun x => dat.arrAt x 0) 0 = V main_v17 from hA 0]
  have e1 : (View.loc c.tc (cfg1.win 1).arr.view ↦[(cfg1.win 1).arr.view.set]{dat.share 1} (fun x => dat.arrAt x 0) 1 : sProp 𝕄)
      = (c.tc.loc main_v17 ↦{fullShare.right} V main_v17) := by
    rw [(arr_whole1 1).set_eq_univ, show dat.share 1 = fullShare.right from hq1, show (fun x => dat.arrAt x 0) 1 = V main_v17 from hA 1]
  have e2 : (View.loc c.tc (cfg1.win 2).arr.view ↦[(cfg1.win 2).arr.view.set]{dat.share 2} (fun x => dat.arrAt x 0) 2 : sProp 𝕄)
      = (c.tc.loc main_v19 ↦{fullShare} V main_v19) := by
    rw [(arr_whole1 2).set_eq_univ, show dat.share 2 = fullShare from hq2, show (fun x => dat.arrAt x 0) 2 = V main_v19 from hA 2]
  have e3 : (View.loc c.tc (cfg1.win 3).arr.view ↦[(cfg1.win 3).arr.view.set]{dat.share 3} (fun x => dat.arrAt x 0) 3 : sProp 𝕄)
      = (c.tc.loc main_v20 ↦{fullShare} V main_v20) := by
    rw [(arr_whole1 3).set_eq_univ, show dat.share 3 = fullShare from hq3, show (fun x => dat.arrAt x 0) 3 = V main_v20 from hA 3]
  have e4 : (View.loc c.tc (cfg1.win 4).arr.view ↦[(cfg1.win 4).arr.view.set]{dat.share 4} (fun x => dat.arrAt x 0) 4 : sProp 𝕄)
      = (c.tc.loc main_v21 ↦{fullShare} V main_v21) := by
    rw [(arr_whole1 4).set_eq_univ, show dat.share 4 = fullShare from rfl, show (fun x => dat.arrAt x 0) 4 = V main_v21 from hA 4]
  rw [e0, e1, e2, e3, e4]
  exact (sep_mono (pointsTo_share (PosShare.mem_left_op_right fullShare)).1 .rfl).trans sep_assoc.1

/-- EXIT, region 1: the row's two halves put together. -/
theorem arrays_exit1 (c : Dev nD) (V' : (b : Ref sig .tc) → Buf (Elt F) ((c : Thread nD τ).loc b))
    (dat : Dat τ (Elt F) Unit ℕ (UR sig nD τ) ℕ cfg1 c)
    (G : (w : Fin cfg1.W) → Buf (Elt F) ((cfg1.win w).arr.view.loc (c.tc : Thread nD τ)))
    (hq0 : dat.q 0 = fullShare.left) (hq1 : dat.q 1 = fullShare.right) (hq2 : dat.q 2 = fullShare) (hq3 : dat.q 3 = fullShare)
    (hG0 : G 0 = V' main_v17) (hG1 : G 1 = V' main_v17) (hG2 : G 2 = V' main_v19) (hG3 : G 3 = V' main_v20) (hG4 : G 4 = V' main_v21) :
    dat.arrays G ⊢ (Pipeline.arrBufs (Ix := Unit) (Name := ℕ) (U := UR sig nD τ) (Lvl := ℕ) spec1 c V' : sProp 𝕄) := by
  unfold Pipeline.arrBufs Dat.arrays
  rw [arrImage1, bigSep_insert (by decide), bigSep_insert (by decide), bigSep_insert (by decide), bigSep_singleton, bigSep_W1]
  have e0 : (View.loc c.tc (cfg1.win 0).arr.view ↦[(cfg1.win 0).arr.view.set]{dat.share 0} G 0 : sProp 𝕄)
      = (c.tc.loc main_v17 ↦{fullShare.left} V' main_v17) := by
    rw [(arr_whole1 0).set_eq_univ, show dat.share 0 = fullShare.left from hq0, hG0]
  have e1 : (View.loc c.tc (cfg1.win 1).arr.view ↦[(cfg1.win 1).arr.view.set]{dat.share 1} G 1 : sProp 𝕄)
      = (c.tc.loc main_v17 ↦{fullShare.right} V' main_v17) := by
    rw [(arr_whole1 1).set_eq_univ, show dat.share 1 = fullShare.right from hq1, hG1]
  have e2 : (View.loc c.tc (cfg1.win 2).arr.view ↦[(cfg1.win 2).arr.view.set]{dat.share 2} G 2 : sProp 𝕄)
      = (c.tc.loc main_v19 ↦{fullShare} V' main_v19) := by
    rw [(arr_whole1 2).set_eq_univ, show dat.share 2 = fullShare from hq2, hG2]
  have e3 : (View.loc c.tc (cfg1.win 3).arr.view ↦[(cfg1.win 3).arr.view.set]{dat.share 3} G 3 : sProp 𝕄)
      = (c.tc.loc main_v20 ↦{fullShare} V' main_v20) := by
    rw [(arr_whole1 3).set_eq_univ, show dat.share 3 = fullShare from hq3, hG3]
  have e4 : (View.loc c.tc (cfg1.win 4).arr.view ↦[(cfg1.win 4).arr.view.set]{dat.share 4} G 4 : sProp 𝕄)
      = (c.tc.loc main_v21 ↦{fullShare} V' main_v21) := by
    rw [(arr_whole1 4).set_eq_univ, show dat.share 4 = fullShare from rfl, hG4]
  rw [e0, e1, e2, e3, e4]
  exact sep_assoc.2.trans (sep_mono (pointsTo_share (PosShare.mem_left_op_right fullShare)).2 .rfl)

/-! ## What the regions leave in their output rows -/

variable (m : (ℓ : Loc nD τ sig) → Buf (Elt F) ℓ) (ρ : Dev nD → PrngReg)

/-- Region 0's entry contents, at the TensorCore's references. -/
abbrev Ve0 : (c : Dev nD) → (b : Ref sig .tc) → Buf (Elt F) ((c : Thread nD τ).loc b) := fun c b => V3 m c b

/-- What region 0's write-backs leave in its output row. -/
def o0 (c : Dev nD) : Buf (Elt F) ((c : Thread nD τ).loc main_v3) := (dat0 (Ve0 m) c).arrAt 3 cfg0.N

/-- The regions' results as far as region 1's entry needs them: region 0's row. -/
def outsA : Outs (F := F) := fun _ r c => if h : r = main_v3 then h ▸ o0 m c else V3 m c r

/-- Region 1's entry contents, at the TensorCore's references. -/
abbrev Ve1 : (c : Dev nD) → (b : Ref sig .tc) → Buf (Elt F) ((c : Thread nD τ).loc b) := fun c b => V7 m (outsA m) c b

/-- What region 1's write-backs leave in its output row. -/
def o1 (c : Dev nD) : Buf (Elt F) ((c : Thread nD τ).loc main_v21) := (dat1 (Ve1 m) c).arrAt 4 cfg1.N

/-- What the two regions leave in the buffers they may change. -/
def outs : Outs (F := F) := fun _ r c =>
  if h : r = main_v3 then h ▸ o0 m c else if h' : r = main_v21 then h' ▸ o1 m c else V3 m c r

theorem outsA_v3 (n : ℕ) (c : Dev nD) : outsA m n main_v3 c = o0 m c := by unfold outsA; rw [dif_pos rfl]
theorem outs_v3 (n : ℕ) (c : Dev nD) : outs m n main_v3 c = o0 m c := by unfold outs; rw [dif_pos rfl]
theorem outs_v21 (n : ℕ) (c : Dev nD) : outs m n main_v21 c = o1 m c := by
  unfold outs; rw [dif_neg (by decide), dif_pos rfl]

/-- Region 1 is entered from the same contents whichever of the two families names region 0's row. -/
theorem V7_outs (c : Dev nD) : V7 m (outs m) c = V7 m (outsA m) c := by
  show StableHlo.after hostOps1_2 (StableHlo.after hostOps1_1 (StableHlo.after hostOps1
      (Function.update (V3 m c) main_v3 (outs m 4 main_v3 c)))) = StableHlo.after hostOps1_2 (StableHlo.after hostOps1_1 (StableHlo.after hostOps1
      (Function.update (V3 m c) main_v3 (outsA m 4 main_v3 c))))
  rw [outs_v3, outsA_v3]

/-- Region 0's row, in the terms the value lemmas are stated in. -/
theorem outs_v3_eq (c : Dev nD) : outs m 4 main_v3 c = (dat0 (fun c b => V3 m c b) c).arrAt 3 cfg0.N := outs_v3 m 4 c

/-- Region 1's row, in the terms the value lemmas are stated in. -/
theorem outs_v21_eq (c : Dev nD) : outs m 8 main_v21 c = (dat1 (fun c b => V7 m (outs m) c b) c).arrAt 4 cfg1.N := by
  rw [outs_v21]; unfold o1
  rw [show (fun (c : Dev nD) (b : Ref sig .tc) => V7 m (outs m) c b) = Ve1 m from funext fun c => by rw [V7_outs]]

/-! ## The proof data family and the thread state -/

/-- Every region's proof data, each at its region's entry contents — a literal match on the region's number. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 0 over the thread state "every unscoped buffer at the boundary's contents, the generator register at some state,
    nothing owed": its arrays split out of the unscoped buffers at the entry (the shared row in halves) and put back at
    the exit contents; the generator register into the region's invariant and out; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit : (unscopedBufs (Ix := Unit) (Name := ℕ) (U := UR sig nD τ) (Lvl := ℕ) c (Ve0 m c) : sProp 𝕄)
        ⊢ iprop((pdats m 0 c).arrays ((pdats m 0 c).arrAt · 0) ∗ Pipeline.unscopedRest spec0 c (Ve0 m c)) := by
      rw [Pipeline.unscopedBufs_split₀ cfgs 0 (by decide) c (Ve0 m c)]
      exact sep_mono (arrays_entry0 c (Ve0 m c) (pdats m 0 c) (A_eq0 (Ve0 m) c) rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Ve0 m c))
        ⊢ (unscopedBufs (Ix := Unit) (Name := ℕ) (U := UR sig nD τ) (Lvl := ℕ) c (fun b => V4 m (outs m) c b) : sProp 𝕄) := by
      rw [Pipeline.unscopedBufs_split₀ cfgs 0 (by decide) c (fun b => V4 m (outs m) c b)]
      refine sep_mono (arrays_exit0 c (fun b => V4 m (outs m) c b) (pdats m 0 c) ((pdats m 0 c).arrAt · cfg0.N) rfl rfl rfl ?_ ?_ ?_ ?_) (Entails.of_eq ?_)
      · exact ((pdats m 0 c).arrAt_in 0 rfl _).trans ((A_eq0 (Ve0 m) c 0).trans (V4_of m (outs m) c main_v1 (by decide)).symm)
      · exact ((pdats m 0 c).arrAt_in 1 rfl _).trans ((A_eq0 (Ve0 m) c 1).trans (V4_of m (outs m) c main_v1 (by decide)).symm)
      · exact ((pdats m 0 c).arrAt_in 2 rfl _).trans ((A_eq0 (Ve0 m) c 2).trans (V4_of m (outs m) c main_v2 (by decide)).symm)
      · show (dat0 (Ve0 m) c).arrAt 3 cfg0.N = Function.update (V3 m c) main_v3 (outs m 4 main_v3 c) main_v3
        rw [Function.update_self]; exact (outs_v3 m 4 c).symm
      · exact unscopedRest_congr spec0 c (Ve0 m c) (fun b => V4 m (outs m) c b) fun b hb =>
          V4_of m (outs m) c b fun h => hb (Finset.mem_image.mpr ⟨3, Finset.mem_univ _, (List.mem_singleton.mp h).symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state "every unscoped buffer at the boundary's contents, the generator register at some state,
    nothing owed": its arrays split out of the unscoped buffers at the entry (the shared row in halves) and put back at
    the exit contents; the generator register into the region's invariant and out; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V7 m (outsA m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit : (unscopedBufs (Ix := Unit) (Name := ℕ) (U := UR sig nD τ) (Lvl := ℕ) c (Ve1 m c) : sProp 𝕄)
        ⊢ iprop((pdats m 1 c).arrays ((pdats m 1 c).arrAt · 0) ∗ Pipeline.unscopedRest spec1 c (Ve1 m c)) := by
      rw [Pipeline.unscopedBufs_split₀ cfgs 1 (by decide) c (Ve1 m c)]
      exact sep_mono (arrays_entry1 c (Ve1 m c) (pdats m 1 c) (A_eq1 (Ve1 m) c) rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Ve1 m c))
        ⊢ (unscopedBufs (Ix := Unit) (Name := ℕ) (U := UR sig nD τ) (Lvl := ℕ) c (fun b => V8 m (outs m) c b) : sProp 𝕄) := by
      rw [Pipeline.unscopedBufs_split₀ cfgs 1 (by decide) c (fun b => V8 m (outs m) c b)]
      refine sep_mono (arrays_exit1 c (fun b => V8 m (outs m) c b) (pdats m 1 c) ((pdats m 1 c).arrAt · cfg1.N) rfl rfl rfl rfl ?_ ?_ ?_ ?_ ?_) (Entails.of_eq ?_)
      · exact ((pdats m 1 c).arrAt_in 0 rfl _).trans ((A_eq1 (Ve1 m) c 0).trans ((congrFun (V7_outs m c) main_v17).symm.trans (V8_of m (outs m) c main_v17 (by decide)).symm))
      · exact ((pdats m 1 c).arrAt_in 1 rfl _).trans ((A_eq1 (Ve1 m) c 1).trans ((congrFun (V7_outs m c) main_v17).symm.trans (V8_of m (outs m) c main_v17 (by decide)).symm))
      · exact ((pdats m 1 c).arrAt_in 2 rfl _).trans ((A_eq1 (Ve1 m) c 2).trans ((congrFun (V7_outs m c) main_v19).symm.trans (V8_of m (outs m) c main_v19 (by decide)).symm))
      · exact ((pdats m 1 c).arrAt_in 3 rfl _).trans ((A_eq1 (Ve1 m) c 3).trans ((congrFun (V7_outs m c) main_v20).symm.trans (V8_of m (outs m) c main_v20 (by decide)).symm))
      · show (dat1 (Ve1 m) c).arrAt 4 cfg1.N = Function.update (V7 m (outs m) c) main_v21 (outs m 8 main_v21 c) main_v21
        rw [Function.update_self]; exact (outs_v21 m 8 c).symm
      · exact unscopedRest_congr spec1 c (Ve1 m c) (fun b => V8 m (outs m) c b) fun b hb =>
          (V8_of m (outs m) c b fun h => hb (Finset.mem_image.mpr ⟨4, Finset.mem_univ _, (List.mem_singleton.mp h).symm⟩)).trans
            (congrFun (V7_outs m c) b)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of the program from memory `m` with zero counters terminates, nothing faulting, and
    every final memory holds every unscoped buffer at the last valuation: the conditional run at this module's proof
    data, region records and rest states — the generator register and the (empty) debts ride along through every item. -/
theorem run_all : θ_run defs (onTc (τ := τ) (main (F := F))) ⟨m, fun _ => 0, ρ⟩
    (fun r => ∀ c : Dev nD, ∀ b ∈ Pipeline.ucRefs τ sig, r.2.mem ((c : Thread nD τ).1, b) = V9 m (outs m) c b) := by
  have hu₀ : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  have hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
    refine Pipeline.initEach L lv fun c => ?_
    iintro ⟨⟨-, HO, -, Hp, -⟩, -⟩
    imodintro
    isplitl [Hp]; · iexists _; iexact Hp
    iexists ∅; iexact HO
  have hE2 : ∀ c : Dev nD, R (F := F) c ⊢ (iprop(∃ W, owes (c : Thread nD τ) (0 : CellTallies nD τ sig Unit) W) : sProp 𝕄) := fun c => by
    iintro ⟨-, H⟩; iexact H
  have hpre0 : ∀ c : Dev nD, iprop(StableHlo.held (c : Thread nD τ) (Pipeline.ucRefs τ sig) (V3 m c) ∗ R c) ⊢ (reg0 m).pre c :=
    fun c => .rfl
  have hpost0 : ∀ c : Dev nD, (reg0 m).post c ⊢ iprop(StableHlo.held (c : Thread nD τ) (Pipeline.ucRefs τ sig) (V4 m (outs m) c) ∗ R c) :=
    fun c => .rfl
  have hpre1 : ∀ c : Dev nD, iprop(StableHlo.held (c : Thread nD τ) (Pipeline.ucRefs τ sig) (V7 m (outs m) c) ∗ R c) ⊢ (reg1 m).pre c :=
    fun c => by rw [V7_outs]; exact .rfl
  have hpost1 : ∀ c : Dev nD, (reg1 m).post c ⊢ iprop(StableHlo.held (c : Thread nD τ) (Pipeline.ucRefs τ sig) (V8 m (outs m) c) ∗ R c) :=
    fun c => .rfl
  exact run_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀ (fun _ c => R c) hE0 hE2
    (reg0 m) hpre0 hpost0 (reg1 m) hpre1 hpost1

/-- Every weakly fair execution of the program terminates, nothing faulting, with the result row at what the last
    reshape makes of region 1's row and the arguments as launched. -/
theorem run_value : θ_run defs (onTc (τ := τ) (main (F := F))) ⟨m, fun _ => 0, ρ⟩ (fun r => ∀ c : Dev nD,
      r.2.mem ((c.tc : Thread nD τ).loc main_v22) = V9 m (outs m) c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v22 (by decide)),
     (h c _ (mem_uc main_arg0 (by decide))).trans (V9_main_arg0 m (outs m) c),
     (h c _ (mem_uc main_arg1 (by decide))).trans (V9_main_arg1 m (outs m) c),
     (h c _ (mem_uc main_arg2 (by decide))).trans (V9_main_arg2 m (outs m) c),
     (h c _ (mem_uc main_arg3 (by decide))).trans (V9_main_arg3 m (outs m) c)⟩) (run_all m ρ)

/-- The frame: the program runs to the end and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.Kernel.Hand

end
-- ==== Proof.KernelIdeal.RunCond.lean ====
import proofs.«419612_j53841710022881_3_alg».proof.Proof.Gen.KernelIdeal.Regions
import Idealize.ShloMosaic.Lib.Pipeline.Frame
import Idealize.ShloMosaic.Lib.Pipeline.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

-- the launch memory, declared as Regions.lean declares it
variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN: `frame_cond` with the final memory read at EVERY unscoped buffer — each holds the last
    valuation's contents — instead of at the four argument arrays only. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V9 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, hpre0 c, hpost0 c, .rfl, .rfl, hpre1 c, hpost1 c, sep_mono .rfl (hE2 c)⟩)
    (hinit := ?_) (QY := fun c s => ∀ b ∈ Pipeline.ucRefs τ sig, s.mem ((c : Thread nD τ).1, b) = V9 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

end Cert.KernelIdeal.Gen

end
-- ==== Proof.KernelIdeal.Region0.lean ====
/-
  Region 0 (the 31-tap weighted window sum over the padded sequence), at the contents `V` the region is entered with.

  Windows 0 and 1 read ONE array, the padded sequence as a 1 × 4194432 row: window 0 its block of 8192 entries at
  grid point t, window 1 the 128 entries that follow it (the halo).  Window 2 is the 1 × 31 weights, window 3 the output
  block of 8192 entries.  The array's length is 512 · 8192 + 128, so window 0's blocks do not tile it; the 512 blocks the
  grid visits lie inside it, which is decided once over the grid (`clip0_0`).
-/
import proofs.«419612_j53841710022881_3_alg».proof.Proof.Gen.KernelIdeal.Launch
import proofs.«419612_j53841710022881_3_alg».proof.Proof.Gen.KernelIdeal.Skeleton
import proofs.«419612_j53841710022881_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- No block of window 0 that the grid visits reaches past the array's end. -/
theorem clip0_0 : ∀ t : Fin cfg0.N, ∀ a, (cfg0.win 0).clip (cfg0.grid.coords t) a = none :=
  (by decide +kernel : ∀ t : Fin grid0.N, ∀ a, win0_0.clip (grid0.coords t) a = none)

/-- What window 0's staging buffer holds once its fetch at point `t` has landed: the whole block (the filler is read nowhere). -/
def x0at (c : Dev nD) (t : Fin cfg0.N) : Vec F S1x8192 .f32 :=
  win0_0.fill (grid0.coords t) (fun _ => Scalar.ofBits .f32 0#32) (iblk0 V c 0 t)

theorem before0_0_of {c : Dev nD} (dat : Dat τ (Elt F) Unit ℕ (UR sig nD τ) ℕ cfg0 c) (hA : dat.A 0 = V c (Pipeline.arrRef spec0 0))
    (t : Fin cfg0.N) (d) : dat.before 0 t d = x0at V c t := by
  rw [dat.before_fetched 0 t (fetch0_0 t) d, dat.fetched_of_clip_none 0 t (clip0_0 t) d (fun _ => Scalar.ofBits .f32 0#32)]
  unfold Dat.fetched Dat.blockOf x0at iblk0; rw [hA]; try rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in the output window's buffer -/

abbrev rA0 : Rect S1x8192 := Rect.unit (s := S1x8192) ![0, 0] S1x8192.size inb_S1x8192_S1x8192_0_0
abbrev rB0 : Rect S1x128 := Rect.unit (s := S1x128) ![0, 0] S1x128.size inb_S1x128_S1x128_0_0
abbrev rC0 : Rect S1x31 := Rect.unit (s := S1x31) ![0, 0] S1x31.size inb_S1x31_S1x31_0_0

/-- The body's one store, as a function of the three input buffers: the 31-tap sum the payloads spell. -/
def pay0 (x0 : Vec F S1x8192 .f32) (x1 : Vec F S1x128 .f32) (x2 : Vec F S1x31 .f32) : FVec F S1x8192 .f32 :=
  k0_pay1 (k0_pay2 (View.ld x2 rC0)) (k0_pay3 (View.ld x0 rA0) (View.ld x1 rB0))
    (k0_pay6 (k0_pay2 (View.ld x2 rC0)) (k0_pay3 (View.ld x0 rA0) (View.ld x1 rB0)) (k0_pay4 (View.ld x0 rA0) (View.ld x1 rB0) (View.ld x2 rC0)) (k0_pay5 (View.ld x0 rA0) (View.ld x1 rB0) (View.ld x2 rC0)))
    (k0_pay7 (k0_pay2 (View.ld x2 rC0)) (k0_pay3 (View.ld x0 rA0) (View.ld x1 rB0)))

/-- The output window's buffer after the body. -/
def out0_3 (x0 : Vec F S1x8192 .f32) (x1 : Vec F S1x128 .f32) (x2 : Vec F S1x31 .f32) : Vec F S1x8192 .f32 :=
  View.canon [⟨rA0, pay0 x0 x1 x2⟩]

theorem cover0_3 (p0 : Vec F S1x8192 .f32) (y : S1x8192.Idx) :
    ∃ pc ∈ ([⟨rA0, p0⟩] : List (View.Piece (Elt F) S1x8192 .f32)), y ∈ pc.1.set :=
  View.cover_of_tiled [⟨rA0, p0⟩] S1x8192.size (by rfl) y

set_option maxHeartbeats 1000000 in
theorem sound_kernel0 (c : Dev nD) (E : Set ℕ) (i : grid0.Coords)
    (arg0 : Memref sig .tc .vmem S1x8192 .f32) (harg0 : arg0.IsWhole) (arg1 : Memref sig .tc .vmem S1x128 .f32) (harg1 : arg1.IsWhole)
    (arg2 : Memref sig .tc .vmem S1x31 .f32) (harg2 : arg2.IsWhole) (arg3 : Memref sig .tc .vmem S1x8192 .f32) (harg3 : arg3.IsWhole)
    (x0 : Vec F S1x8192 .f32) (x1 : Vec F S1x128 .f32) (x2 : Vec F S1x31 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__corr_kernel i arg0 harg0 arg1 harg1 arg2 harg2 arg3 harg3) K := by
  simp only [cc0__corr_kernel_eq_skeleton]; unfold cc0__corr_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover0_3 _)]
  unfold out0_3 pay0
  sl_unfold_words
  rfl

/-! ## The pipeline's proof data -/

/-- The proof data of region 0 on core `c`: the arrays as the region finds them; after the body at point `t` each
    input's buffer as fetched and the output's at `out0_3` of them; nothing owed.  Windows 0 and 1 read the same array
    and hold one half of it each; the weights and the output are held whole. -/
def dat0 (c : Dev nD) : Dat τ (Elt F) Unit ℕ (UR sig nD τ) ℕ cfg0 c where
  A w := V c (Pipeline.arrRef spec0 w)
  after w t := match w with
    | ⟨0, _⟩ => x0at V c t
    | ⟨1, _⟩ => iblk0 V c 1 t
    | ⟨2, _⟩ => iblk0 V c 2 t
    | ⟨3, _⟩ => out0_3 (x0at V c t) (iblk0 V c 1 t) (iblk0 V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = x0at V c t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (x0at V c t) (iblk0 V c 1 t) (iblk0 V c 2 t) := by dsimp only [dat0]

theorem before0_0 (c : Dev nD) (t : Fin cfg0.N) (d) : (dat0 V c).before 0 t d = x0at V c t :=
  before0_0_of V (dat0 V c) (A_eq0 V c 0) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (x0at V c t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
/-
  Region 1 (the 31-tap weighted window sum over the padded segment sums, times the sequence), at the contents `V` the
  region is entered with.

  Windows 0 and 1 read ONE array, the padded segment sums as a 1 × 4194432 row: window 0 its block of 8192 entries at
  grid point t, window 1 the 128 entries that follow it.  Window 2 is the 1 × 31 reversed weights, window 3 the block of
  the sequence itself, window 4 the output block.  As in region 0, window 0's blocks do not tile its array, and the 512
  blocks the grid visits lie inside it (`clip1_0`).
-/
import proofs.«419612_j53841710022881_3_alg».proof.Proof.Gen.KernelIdeal.Launch
import proofs.«419612_j53841710022881_3_alg».proof.Proof.Gen.KernelIdeal.Skeleton
import proofs.«419612_j53841710022881_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- No block of window 0 that the grid visits reaches past the array's end. -/
theorem clip1_0 : ∀ t : Fin cfg1.N, ∀ a, (cfg1.win 0).clip (cfg1.grid.coords t) a = none :=
  (by decide +kernel : ∀ t : Fin grid1.N, ∀ a, win1_0.clip (grid1.coords t) a = none)

/-- What window 0's staging buffer holds once its fetch at point `t` has landed: the whole block (the filler is read nowhere). -/
def y0at (c : Dev nD) (t : Fin cfg1.N) : Vec F S1x8192 .f32 :=
  win1_0.fill (grid1.coords t) (fun _ => Scalar.ofBits .f32 0#32) (iblk1 V c 0 t)

theorem before1_0_of {c : Dev nD} (dat : Dat τ (Elt F) Unit ℕ (UR sig nD τ) ℕ cfg1 c) (hA : dat.A 0 = V c (Pipeline.arrRef spec1 0))
    (t : Fin cfg1.N) (d) : dat.before 0 t d = y0at V c t := by
  rw [dat.before_fetched 0 t (fetch1_0 t) d, dat.fetched_of_clip_none 0 t (clip1_0 t) d (fun _ => Scalar.ofBits .f32 0#32)]
  unfold Dat.fetched Dat.blockOf y0at iblk1; rw [hA]; try rfl

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output window's buffer -/

abbrev rA1 : Rect S1x8192 := Rect.unit (s := S1x8192) ![0, 0] S1x8192.size inb_S1x8192_S1x8192_0_0
abbrev rB1 : Rect S1x128 := Rect.unit (s := S1x128) ![0, 0] S1x128.size inb_S1x128_S1x128_0_0
abbrev rC1 : Rect S1x31 := Rect.unit (s := S1x31) ![0, 0] S1x31.size inb_S1x31_S1x31_0_0

/-- The body's one store, as a function of the four input buffers: the 31-tap sum the payloads spell, times the multiplier. -/
def pay1 (x0 : Vec F S1x8192 .f32) (x1 : Vec F S1x128 .f32) (x2 : Vec F S1x31 .f32) (x3 : Vec F S1x8192 .f32) : FVec F S1x8192 .f32 :=
  k1_pay7 (k1_pay1 (View.ld x2 rC1)) (k1_pay2 (View.ld x0 rA1) (View.ld x1 rB1))
    (k1_pay5 (k1_pay1 (View.ld x2 rC1)) (k1_pay2 (View.ld x0 rA1) (View.ld x1 rB1)) (k1_pay3 (View.ld x0 rA1) (View.ld x1 rB1) (View.ld x2 rC1)) (k1_pay4 (View.ld x0 rA1) (View.ld x1 rB1) (View.ld x2 rC1)))
    (k1_pay6 (k1_pay1 (View.ld x2 rC1)) (k1_pay2 (View.ld x0 rA1) (View.ld x1 rB1)))
    (View.ld x3 rA1)

/-- The output window's buffer after the body. -/
def out1_4 (x0 : Vec F S1x8192 .f32) (x1 : Vec F S1x128 .f32) (x2 : Vec F S1x31 .f32) (x3 : Vec F S1x8192 .f32) : Vec F S1x8192 .f32 :=
  View.canon [⟨rA1, pay1 x0 x1 x2 x3⟩]

theorem cover1_4 (p0 : Vec F S1x8192 .f32) (y : S1x8192.Idx) :
    ∃ pc ∈ ([⟨rA1, p0⟩] : List (View.Piece (Elt F) S1x8192 .f32)), y ∈ pc.1.set :=
  View.cover_of_tiled [⟨rA1, p0⟩] S1x8192.size (by rfl) y

set_option maxHeartbeats 1000000 in
theorem sound_kernel1 (c : Dev nD) (E : Set ℕ) (i : grid1.Coords)
    (arg0 : Memref sig .tc .vmem S1x8192 .f32) (harg0 : arg0.IsWhole) (arg1 : Memref sig .tc .vmem S1x128 .f32) (harg1 : arg1.IsWhole)
    (arg2 : Memref sig .tc .vmem S1x31 .f32) (harg2 : arg2.IsWhole) (arg3 : Memref sig .tc .vmem S1x8192 .f32) (harg3 : arg3.IsWhole)
    (arg4 : Memref sig .tc .vmem S1x8192 .f32) (harg4 : arg4.IsWhole)
    (x0 : Vec F S1x8192 .f32) (x1 : Vec F S1x128 .f32) (x2 : Vec F S1x31 .f32) (x3 : Vec F S1x8192 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3
            ∗ owns (c : Thread nD τ) arg4 fullShare (out1_4 x0 x1 x2 x3)) -∗ K ⟨⟩))
      ⊢ wp frame (wpE (defs₀ (F := F)) Variants.none c none) E (cc1__conv_mul_kernel i arg0 harg0 arg1 harg1 arg2 harg2 arg3 harg3 arg4 harg4) K := by
  simp only [cc1__conv_mul_kernel_eq_skeleton]; unfold cc1__conv_mul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover1_4 _)]
  unfold out1_4 pay1
  sl_unfold_words
  rfl

/-! ## The pipeline's proof data -/

/-- The proof data of region 1 on core `c`: the arrays as the region finds them; after the body at point `t` each
    input's buffer as fetched and the output's at `out1_4` of them; nothing owed.  Windows 0 and 1 read the same array
    and hold one half of it each; the others are held whole. -/
def dat1 (c : Dev nD) : Dat τ (Elt F) Unit ℕ (UR sig nD τ) ℕ cfg1 c where
  A w := V c (Pipeline.arrRef spec1 w)
  after w t := match w with
    | ⟨0, _⟩ => y0at V c t
    | ⟨1, _⟩ => iblk1 V c 1 t
    | ⟨2, _⟩ => iblk1 V c 2 t
    | ⟨3, _⟩ => iblk1 V c 3 t
    | ⟨4, _⟩ => out1_4 (y0at V c t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = y0at V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (y0at V c t) (iblk1 V c 1 t) (iblk1 V c 2 t) (iblk1 V c 3 t) := by dsimp only [dat1]

theorem before1_0 (c : Dev nD) (t : Fin cfg1.N) (d) : (dat1 V c).before 0 t d = y0at V c t :=
  before1_0_of V (dat1 V c) (A_eq1 V c 0) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (y0at V c t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The run of the whole program, region by region.

  Each region reads one row through two windows (its block and the halo after it), so the row's buffer, held whole
  between the regions, is split in two halves at the region's entry — one for each window — and put together again at
  its exit; the other arrays go in and come out whole.  Between the regions the unscoped buffers are held at the
  valuations the host stretches compute, the regions' output rows at what their write-backs leave.
-/
import proofs.«419612_j53841710022881_3_alg».proof.Proof.KernelIdeal.RunCond
import proofs.«419612_j53841710022881_3_alg».proof.Proof.KernelIdeal.Region0
import proofs.«419612_j53841710022881_3_alg».proof.Proof.KernelIdeal.Region1

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## A region's arrays out of, and back among, the core's unscoped buffers -/

/-- The unscoped buffers outside a region's arrays, at two valuations that agree there. -/
theorem unscopedRest_congr {gr W : Nat} (win : Fin W → Pipeline.WinSpec sig gr) (c : Dev nD)
    (V V' : (b : Ref sig .tc) → Buf (Elt F) ((c : Thread nD τ).loc b))
    (h : ∀ b, b ∉ Finset.univ.image (Pipeline.arrRef win) → V' b = V b) :
    (Pipeline.unscopedRest (Ix := Unit) (Name := ℕ) (U := UR sig nD τ) (Lvl := ℕ) win c V : sProp 𝕄)
      = Pipeline.unscopedRest win c V' := by
  unfold Pipeline.unscopedRest
  exact bigSep_congr fun b hb => by rw [h b (Finset.mem_sdiff.mp hb).2]

/-- Region 0's windows read three buffers: the padded row (twice), the weights, the output row. -/
theorem arrImage0 : Finset.univ.image (Pipeline.arrRef spec0) = ({main_v1, main_v2, main_v3} : Finset (Ref sig .tc)) := by decide

/-- ENTRY: the three buffers behind region 0's arrays, whole at contents `V`, are its four arrays at their entry
    contents — the padded row's buffer split in its two halves, one per window. -/
theorem arrays_entry0 (c : Dev nD) (V : (b : Ref sig .tc) → Buf (Elt F) ((c : Thread nD τ).loc b))
    (dat : Dat τ (Elt F) Unit ℕ (UR sig nD τ) ℕ cfg0 c) (hA : ∀ w, dat.A w = V (Pipeline.arrRef spec0 w))
    (hq0 : dat.q 0 = fullShare.left) (hq1 : dat.q 1 = fullShare.right) (hq2 : dat.q 2 = fullShare) :
    (Pipeline.arrBufs (Ix := Unit) (Name := ℕ) (U := UR sig nD τ) (Lvl := ℕ) spec0 c V : sProp 𝕄) ⊢ dat.arrays (dat.arrAt · 0) := by
  unfold Pipeline.arrBufs Dat.arrays
  rw [arrImage0, bigSep_insert (by decide), bigSep_insert (by decide), bigSep_singleton, bigSep_W0]
  have e0 : (View.loc c.tc (cfg0.win 0).arr.view ↦[(cfg0.win 0).arr.view.set]{dat.share 0} (fun x => dat.arrAt x 0) 0 : sProp 𝕄)
      = (c.tc.loc main_v1 ↦{fullShare.left} V main_v1) := by
    rw [(arr_whole0 0).set_eq_univ, show dat.share 0 = fullShare.left from hq0, show (fun x => dat.arrAt x 0) 0 = V main_v1 from hA 0]
  have e1 : (View.loc c.tc (cfg0.win 1).arr.view ↦[(cfg0.win 1).arr.view.set]{dat.share 1} (fun x => dat.arrAt x 0) 1 : sProp 𝕄)
      = (c.tc.loc main_v1 ↦{fullShare.right} V main_v1) := by
    rw [(arr_whole0 1).set_eq_univ, show dat.share 1 = fullShare.right from hq1, show (fun x => dat.arrAt x 0) 1 = V main_v1 from hA 1]
  have e2 : (View.loc c.tc (cfg0.win 2).arr.view ↦[(cfg0.win 2).arr.view.set]{dat.share 2} (fun x => dat.arrAt x 0) 2 : sProp 𝕄)
      = (c.tc.loc main_v2 ↦{fullShare} V main_v2) := by
    rw [(arr_whole0 2).set_eq_univ, show dat.share 2 = fullShare from hq2, show (fun x => dat.arrAt x 0) 2 = V main_v2 from hA 2]
  have e3 : (View.loc c.tc (cfg0.win 3).arr.view ↦[(cfg0.win 3).arr.view.set]{dat.share 3} (fun x => dat.arrAt x 0) 3 : sProp 𝕄)
      = (c.tc.loc main_v3 ↦{fullShare} V main_v3) := by
    rw [(arr_whole0 3).set_eq_univ, show dat.share 3 = fullShare from rfl, show (fun x => dat.arrAt x 0) 3 = V main_v3 from hA 3]
  rw [e0, e1, e2, e3]
  exact (sep_mono (pointsTo_share (PosShare.mem_left_op_right fullShare)).1 .rfl).trans sep_assoc.1

/-- EXIT: region 0's four arrays at contents `G` — the two windows on the padded row holding the same contents — are the
    three buffers behind them, whole, at any valuation `V'` that has those contents: the row's two halves put together. -/
theorem arrays_exit0 (c : Dev nD) (V' : (b : Ref sig .tc) → Buf (Elt F) ((c : Thread nD τ).loc b))
    (dat : Dat τ (Elt F) Unit ℕ (UR sig nD τ) ℕ cfg0 c)
    (G : (w : Fin cfg0.W) → Buf (Elt F) ((cfg0.win w).arr.view.loc (c.tc : Thread nD τ)))
    (hq0 : dat.q 0 = fullShare.left) (hq1 : dat.q 1 = fullShare.right) (hq2 : dat.q 2 = fullShare)
    (hG0 : G 0 = V' main_v1) (hG1 : G 1 = V' main_v1) (hG2 : G 2 = V' main_v2) (hG3 : G 3 = V' main_v3) :
    dat.arrays G ⊢ (Pipeline.arrBufs (Ix := Unit) (Name := ℕ) (U := UR sig nD τ) (Lvl := ℕ) spec0 c V' : sProp 𝕄) := by
  unfold Pipeline.arrBufs Dat.arrays
  rw [arrImage0, bigSep_insert (by decide), bigSep_insert (by decide), bigSep_singleton, bigSep_W0]
  have e0 : (View.loc c.tc (cfg0.win 0).arr.view ↦[(cfg0.win 0).arr.view.set]{dat.share 0} G 0 : sProp 𝕄)
      = (c.tc.loc main_v1 ↦{fullShare.left} V' main_v1) := by
    rw [(arr_whole0 0).set_eq_univ, show dat.share 0 = fullShare.left from hq0, hG0]
  have e1 : (View.loc c.tc (cfg0.win 1).arr.view ↦[(cfg0.win 1).arr.view.set]{dat.share 1} G 1 : sProp 𝕄)
      = (c.tc.loc main_v1 ↦{fullShare.right} V' main_v1) := by
    rw [(arr_whole0 1).set_eq_univ, show dat.share 1 = fullShare.right from hq1, hG1]
  have e2 : (View.loc c.tc (cfg0.win 2).arr.view ↦[(cfg0.win 2).arr.view.set]{dat.share 2} G 2 : sProp 𝕄)
      = (c.tc.loc main_v2 ↦{fullShare} V' main_v2) := by
    rw [(arr_whole0 2).set_eq_univ, show dat.share 2 = fullShare from hq2, hG2]
  have e3 : (View.loc c.tc (cfg0.win 3).arr.view ↦[(cfg0.win 3).arr.view.set]{dat.share 3} G 3 : sProp 𝕄)
      = (c.tc.loc main_v3 ↦{fullShare} V' main_v3) := by
    rw [(arr_whole0 3).set_eq_univ, show dat.share 3 = fullShare from rfl, hG3]
  rw [e0, e1, e2, e3]
  exact sep_assoc.2.trans (sep_mono (pointsTo_share (PosShare.mem_left_op_right fullShare)).2 .rfl)

/-- Region 1's windows read four buffers: the padded row (twice), the reversed weights, the multiplier row, the output row. -/
theorem arrImage1 : Finset.univ.image (Pipeline.arrRef spec1) = ({main_v17, main_v19, main_v20, main_v21} : Finset (Ref sig .tc)) := by decide

/-- ENTRY, region 1: as for region 0, the padded row's buffer split in its two halves. -/
theorem arrays_entry1 (c : Dev nD) (V : (b : Ref sig .tc) → Buf (Elt F) ((c : Thread nD τ).loc b))
    (dat : Dat τ (Elt F) Unit ℕ (UR sig nD τ) ℕ cfg1 c) (hA : ∀ w, dat.A w = V (Pipeline.arrRef spec1 w))
    (hq0 : dat.q 0 = fullShare.left) (hq1 : dat.q 1 = fullShare.right) (hq2 : dat.q 2 = fullShare) (hq3 : dat.q 3 = fullShare) :
    (Pipeline.arrBufs (Ix := Unit) (Name := ℕ) (U := UR sig nD τ) (Lvl := ℕ) spec1 c V : sProp 𝕄) ⊢ dat.arrays (dat.arrAt · 0) := by
  unfold Pipeline.arrBufs Dat.arrays
  rw [arrImage1, bigSep_insert (by decide), bigSep_insert (by decide), bigSep_insert (by decide), bigSep_singleton, bigSep_W1]
  have e0 : (View.loc c.tc (cfg1.win 0).arr.view ↦[(cfg1.win 0).arr.view.set]{dat.share 0} (fun x => dat.arrAt x 0) 0 : sProp 𝕄)
      = (c.tc.loc main_v17 ↦{fullShare.left} V main_v17) := by
    rw [(arr_whole1 0).set_eq_univ, show dat.share 0 = fullShare.left from hq0, show (fun x => dat.arrAt x 0) 0 = V main_v17 from hA 0]
  have e1 : (View.loc c.tc (cfg1.win 1).arr.view ↦[(cfg1.win 1).arr.view.set]{dat.share 1} (fun x => dat.arrAt x 0) 1 : sProp 𝕄)
      = (c.tc.loc main_v17 ↦{fullShare.right} V main_v17) := by
    rw [(arr_whole1 1).set_eq_univ, show dat.share 1 = fullShare.right from hq1, show (fun x => dat.arrAt x 0) 1 = V main_v17 from hA 1]
  have e2 : (View.loc c.tc (cfg1.win 2).arr.view ↦[(cfg1.win 2).arr.view.set]{dat.share 2} (fun x => dat.arrAt x 0) 2 : sProp 𝕄)
      = (c.tc.loc main_v19 ↦{fullShare} V main_v19) := by
    rw [(arr_whole1 2).set_eq_univ, show dat.share 2 = fullShare from hq2, show (fun x => dat.arrAt x 0) 2 = V main_v19 from hA 2]
  have e3 : (View.loc c.tc (cfg1.win 3).arr.view ↦[(cfg1.win 3).arr.view.set]{dat.share 3} (fun x => dat.arrAt x 0) 3 : sProp 𝕄)
      = (c.tc.loc main_v20 ↦{fullShare} V main_v20) := by
    rw [(arr_whole1 3).set_eq_univ, show dat.share 3 = fullShare from hq3, show (fun x => dat.arrAt x 0) 3 = V main_v20 from hA 3]
  have e4 : (View.loc c.tc (cfg1.win 4).arr.view ↦[(cfg1.win 4).arr.view.set]{dat.share 4} (fun x => dat.arrAt x 0) 4 : sProp 𝕄)
      = (c.tc.loc main_v21 ↦{fullShare} V main_v21) := by
    rw [(arr_whole1 4).set_eq_univ, show dat.share 4 = fullShare from rfl, show (fun x => dat.arrAt x 0) 4 = V main_v21 from hA 4]
  rw [e0, e1, e2, e3, e4]
  exact (sep_mono (pointsTo_share (PosShare.mem_left_op_right fullShare)).1 .rfl).trans sep_assoc.1

/-- EXIT, region 1: the row's two halves put together. -/
theorem arrays_exit1 (c : Dev nD) (V' : (b : Ref sig .tc) → Buf (Elt F) ((c : Thread nD τ).loc b))
    (dat : Dat τ (Elt F) Unit ℕ (UR sig nD τ) ℕ cfg1 c)
    (G : (w : Fin cfg1.W) → Buf (Elt F) ((cfg1.win w).arr.view.loc (c.tc : Thread nD τ)))
    (hq0 : dat.q 0 = fullShare.left) (hq1 : dat.q 1 = fullShare.right) (hq2 : dat.q 2 = fullShare) (hq3 : dat.q 3 = fullShare)
    (hG0 : G 0 = V' main_v17) (hG1 : G 1 = V' main_v17) (hG2 : G 2 = V' main_v19) (hG3 : G 3 = V' main_v20) (hG4 : G 4 = V' main_v21) :
    dat.arrays G ⊢ (Pipeline.arrBufs (Ix := Unit) (Name := ℕ) (U := UR sig nD τ) (Lvl := ℕ) spec1 c V' : sProp 𝕄) := by
  unfold Pipeline.arrBufs Dat.arrays
  rw [arrImage1, bigSep_insert (by decide), bigSep_insert (by decide), bigSep_insert (by decide), bigSep_singleton, bigSep_W1]
  have e0 : (View.loc c.tc (cfg1.win 0).arr.view ↦[(cfg1.win 0).arr.view.set]{dat.share 0} G 0 : sProp 𝕄)
      = (c.tc.loc main_v17 ↦{fullShare.left} V' main_v17) := by
    rw [(arr_whole1 0).set_eq_univ, show dat.share 0 = fullShare.left from hq0, hG0]
  have e1 : (View.loc c.tc (cfg1.win 1).arr.view ↦[(cfg1.win 1).arr.view.set]{dat.share 1} G 1 : sProp 𝕄)
      = (c.tc.loc main_v17 ↦{fullShare.right} V' main_v17) := by
    rw [(arr_whole1 1).set_eq_univ, show dat.share 1 = fullShare.right from hq1, hG1]
  have e2 : (View.loc c.tc (cfg1.win 2).arr.view ↦[(cfg1.win 2).arr.view.set]{dat.share 2} G 2 : sProp 𝕄)
      = (c.tc.loc main_v19 ↦{fullShare} V' main_v19) := by
    rw [(arr_whole1 2).set_eq_univ, show dat.share 2 = fullShare from hq2, hG2]
  have e3 : (View.loc c.tc (cfg1.win 3).arr.view ↦[(cfg1.win 3).arr.view.set]{dat.share 3} G 3 : sProp 𝕄)
      = (c.tc.loc main_v20 ↦{fullShare} V' main_v20) := by
    rw [(arr_whole1 3).set_eq_univ, show dat.share 3 = fullShare from hq3, hG3]
  have e4 : (View.loc c.tc (cfg1.win 4).arr.view ↦[(cfg1.win 4).arr.view.set]{dat.share 4} G 4 : sProp 𝕄)
      = (c.tc.loc main_v21 ↦{fullShare} V' main_v21) := by
    rw [(arr_whole1 4).set_eq_univ, show dat.share 4 = fullShare from rfl, hG4]
  rw [e0, e1, e2, e3, e4]
  exact sep_assoc.2.trans (sep_mono (pointsTo_share (PosShare.mem_left_op_right fullShare)).2 .rfl)

/-! ## What the regions leave in their output rows -/

variable (m : (ℓ : Loc nD τ sig) → Buf (Elt F) ℓ) (ρ : Dev nD → PrngReg)

/-- Region 0's entry contents, at the TensorCore's references. -/
abbrev Ve0 : (c : Dev nD) → (b : Ref sig .tc) → Buf (Elt F) ((c : Thread nD τ).loc b) := fun c b => V3 m c b

/-- What region 0's write-backs leave in its output row. -/
def o0 (c : Dev nD) : Buf (Elt F) ((c : Thread nD τ).loc main_v3) := (dat0 (Ve0 m) c).arrAt 3 cfg0.N

/-- The regions' results as far as region 1's entry needs them: region 0's row. -/
def outsA : Outs (F := F) := fun _ r c => if h : r = main_v3 then h ▸ o0 m c else V3 m c r

/-- Region 1's entry contents, at the TensorCore's references. -/
abbrev Ve1 : (c : Dev nD) → (b : Ref sig .tc) → Buf (Elt F) ((c : Thread nD τ).loc b) := fun c b => V7 m (outsA m) c b

/-- What region 1's write-backs leave in its output row. -/
def o1 (c : Dev nD) : Buf (Elt F) ((c : Thread nD τ).loc main_v21) := (dat1 (Ve1 m) c).arrAt 4 cfg1.N

/-- What the two regions leave in the buffers they may change. -/
def outs : Outs (F := F) := fun _ r c =>
  if h : r = main_v3 then h ▸ o0 m c else if h' : r = main_v21 then h' ▸ o1 m c else V3 m c r

theorem outsA_v3 (n : ℕ) (c : Dev nD) : outsA m n main_v3 c = o0 m c := by unfold outsA; rw [dif_pos rfl]
theorem outs_v3 (n : ℕ) (c : Dev nD) : outs m n main_v3 c = o0 m c := by unfold outs; rw [dif_pos rfl]
theorem outs_v21 (n : ℕ) (c : Dev nD) : outs m n main_v21 c = o1 m c := by
  unfold outs; rw [dif_neg (by decide), dif_pos rfl]

/-- Region 1 is entered from the same contents whichever of the two families names region 0's row. -/
theorem V7_outs (c : Dev nD) : V7 m (outs m) c = V7 m (outsA m) c := by
  show StableHlo.after hostOps1_2 (StableHlo.after hostOps1_1 (StableHlo.after hostOps1
      (Function.update (V3 m c) main_v3 (outs m 4 main_v3 c)))) = StableHlo.after hostOps1_2 (StableHlo.after hostOps1_1 (StableHlo.after hostOps1
      (Function.update (V3 m c) main_v3 (outsA m 4 main_v3 c))))
  rw [outs_v3, outsA_v3]

/-- Region 0's row, in the terms the value lemmas are stated in. -/
theorem outs_v3_eq (c : Dev nD) : outs m 4 main_v3 c = (dat0 (fun c b => V3 m c b) c).arrAt 3 cfg0.N := outs_v3 m 4 c

/-- Region 1's row, in the terms the value lemmas are stated in. -/
theorem outs_v21_eq (c : Dev nD) : outs m 8 main_v21 c = (dat1 (fun c b => V7 m (outs m) c b) c).arrAt 4 cfg1.N := by
  rw [outs_v21]; unfold o1
  rw [show (fun (c : Dev nD) (b : Ref sig .tc) => V7 m (outs m) c b) = Ve1 m from funext fun c => by rw [V7_outs]]

/-! ## The proof data family and the thread state -/

/-- Every region's proof data, each at its region's entry contents — a literal match on the region's number. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- REGION 0 over the thread state "every unscoped buffer at the boundary's contents, the generator register at some state,
    nothing owed": its arrays split out of the unscoped buffers at the entry (the shared row in halves) and put back at
    the exit contents; the generator register into the region's invariant and out; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit : (unscopedBufs (Ix := Unit) (Name := ℕ) (U := UR sig nD τ) (Lvl := ℕ) c (Ve0 m c) : sProp 𝕄)
        ⊢ iprop((pdats m 0 c).arrays ((pdats m 0 c).arrAt · 0) ∗ Pipeline.unscopedRest spec0 c (Ve0 m c)) := by
      rw [Pipeline.unscopedBufs_split₀ cfgs 0 (by decide) c (Ve0 m c)]
      exact sep_mono (arrays_entry0 c (Ve0 m c) (pdats m 0 c) (A_eq0 (Ve0 m) c) rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (Ve0 m c))
        ⊢ (unscopedBufs (Ix := Unit) (Name := ℕ) (U := UR sig nD τ) (Lvl := ℕ) c (fun b => V4 m (outs m) c b) : sProp 𝕄) := by
      rw [Pipeline.unscopedBufs_split₀ cfgs 0 (by decide) c (fun b => V4 m (outs m) c b)]
      refine sep_mono (arrays_exit0 c (fun b => V4 m (outs m) c b) (pdats m 0 c) ((pdats m 0 c).arrAt · cfg0.N) rfl rfl rfl ?_ ?_ ?_ ?_) (Entails.of_eq ?_)
      · exact ((pdats m 0 c).arrAt_in 0 rfl _).trans ((A_eq0 (Ve0 m) c 0).trans (V4_of m (outs m) c main_v1 (by decide)).symm)
      · exact ((pdats m 0 c).arrAt_in 1 rfl _).trans ((A_eq0 (Ve0 m) c 1).trans (V4_of m (outs m) c main_v1 (by decide)).symm)
      · exact ((pdats m 0 c).arrAt_in 2 rfl _).trans ((A_eq0 (Ve0 m) c 2).trans (V4_of m (outs m) c main_v2 (by decide)).symm)
      · show (dat0 (Ve0 m) c).arrAt 3 cfg0.N = Function.update (V3 m c) main_v3 (outs m 4 main_v3 c) main_v3
        rw [Function.update_self]; exact (outs_v3 m 4 c).symm
      · exact unscopedRest_congr spec0 c (Ve0 m c) (fun b => V4 m (outs m) c b) fun b hb =>
          V4_of m (outs m) c b fun h => hb (Finset.mem_image.mpr ⟨3, Finset.mem_univ _, (List.mem_singleton.mp h).symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state "every unscoped buffer at the boundary's contents, the generator register at some state,
    nothing owed": its arrays split out of the unscoped buffers at the entry (the shared row in halves) and put back at
    the exit contents; the generator register into the region's invariant and out; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (V7 m (outsA m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit : (unscopedBufs (Ix := Unit) (Name := ℕ) (U := UR sig nD τ) (Lvl := ℕ) c (Ve1 m c) : sProp 𝕄)
        ⊢ iprop((pdats m 1 c).arrays ((pdats m 1 c).arrAt · 0) ∗ Pipeline.unscopedRest spec1 c (Ve1 m c)) := by
      rw [Pipeline.unscopedBufs_split₀ cfgs 1 (by decide) c (Ve1 m c)]
      exact sep_mono (arrays_entry1 c (Ve1 m c) (pdats m 1 c) (A_eq1 (Ve1 m) c) rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Ve1 m c))
        ⊢ (unscopedBufs (Ix := Unit) (Name := ℕ) (U := UR sig nD τ) (Lvl := ℕ) c (fun b => V8 m (outs m) c b) : sProp 𝕄) := by
      rw [Pipeline.unscopedBufs_split₀ cfgs 1 (by decide) c (fun b => V8 m (outs m) c b)]
      refine sep_mono (arrays_exit1 c (fun b => V8 m (outs m) c b) (pdats m 1 c) ((pdats m 1 c).arrAt · cfg1.N) rfl rfl rfl rfl ?_ ?_ ?_ ?_ ?_) (Entails.of_eq ?_)
      · exact ((pdats m 1 c).arrAt_in 0 rfl _).trans ((A_eq1 (Ve1 m) c 0).trans ((congrFun (V7_outs m c) main_v17).symm.trans (V8_of m (outs m) c main_v17 (by decide)).symm))
      · exact ((pdats m 1 c).arrAt_in 1 rfl _).trans ((A_eq1 (Ve1 m) c 1).trans ((congrFun (V7_outs m c) main_v17).symm.trans (V8_of m (outs m) c main_v17 (by decide)).symm))
      · exact ((pdats m 1 c).arrAt_in 2 rfl _).trans ((A_eq1 (Ve1 m) c 2).trans ((congrFun (V7_outs m c) main_v19).symm.trans (V8_of m (outs m) c main_v19 (by decide)).symm))
      · exact ((pdats m 1 c).arrAt_in 3 rfl _).trans ((A_eq1 (Ve1 m) c 3).trans ((congrFun (V7_outs m c) main_v20).symm.trans (V8_of m (outs m) c main_v20 (by decide)).symm))
      · show (dat1 (Ve1 m) c).arrAt 4 cfg1.N = Function.update (V7 m (outs m) c) main_v21 (outs m 8 main_v21 c) main_v21
        rw [Function.update_self]; exact (outs_v21 m 8 c).symm
      · exact unscopedRest_congr spec1 c (Ve1 m c) (fun b => V8 m (outs m) c b) fun b hb =>
          (V8_of m (outs m) c b fun h => hb (Finset.mem_image.mpr ⟨4, Finset.mem_univ _, (List.mem_singleton.mp h).symm⟩)).trans
            (congrFun (V7_outs m c) b)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of the program from memory `m` with zero counters terminates, nothing faulting, and
    every final memory holds every unscoped buffer at the last valuation: the conditional run at this module's proof
    data, region records and rest states — the generator register and the (empty) debts ride along through every item. -/
theorem run_all : θ_run defs (onTc (τ := τ) (main (F := F))) ⟨m, fun _ => 0, ρ⟩
    (fun r => ∀ c : Dev nD, ∀ b ∈ Pipeline.ucRefs τ sig, r.2.mem ((c : Thread nD τ).1, b) = V9 m (outs m) c b) := by
  have hu₀ : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  have hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
    refine Pipeline.initEach L lv fun c => ?_
    iintro ⟨⟨-, HO, -, Hp, -⟩, -⟩
    imodintro
    isplitl [Hp]; · iexists _; iexact Hp
    iexists ∅; iexact HO
  have hE2 : ∀ c : Dev nD, R (F := F) c ⊢ (iprop(∃ W, owes (c : Thread nD τ) (0 : CellTallies nD τ sig Unit) W) : sProp 𝕄) := fun c => by
    iintro ⟨-, H⟩; iexact H
  have hpre0 : ∀ c : Dev nD, iprop(StableHlo.held (c : Thread nD τ) (Pipeline.ucRefs τ sig) (V3 m c) ∗ R c) ⊢ (reg0 m).pre c :=
    fun c => .rfl
  have hpost0 : ∀ c : Dev nD, (reg0 m).post c ⊢ iprop(StableHlo.held (c : Thread nD τ) (Pipeline.ucRefs τ sig) (V4 m (outs m) c) ∗ R c) :=
    fun c => .rfl
  have hpre1 : ∀ c : Dev nD, iprop(StableHlo.held (c : Thread nD τ) (Pipeline.ucRefs τ sig) (V7 m (outs m) c) ∗ R c) ⊢ (reg1 m).pre c :=
    fun c => by rw [V7_outs]; exact .rfl
  have hpost1 : ∀ c : Dev nD, (reg1 m).post c ⊢ iprop(StableHlo.held (c : Thread nD τ) (Pipeline.ucRefs τ sig) (V8 m (outs m) c) ∗ R c) :=
    fun c => .rfl
  exact run_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀ (fun _ c => R c) hE0 hE2
    (reg0 m) hpre0 hpost0 (reg1 m) hpre1 hpost1

/-- Every weakly fair execution of the program terminates, nothing faulting, with the result row at what the last
    reshape makes of region 1's row and the arguments as launched. -/
theorem run_value : θ_run defs (onTc (τ := τ) (main (F := F))) ⟨m, fun _ => 0, ρ⟩ (fun r => ∀ c : Dev nD,
      r.2.mem ((c.tc : Thread nD τ).loc main_v22) = V9 m (outs m) c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v22 (by decide)),
     (h c _ (mem_uc main_arg0 (by decide))).trans (V9_main_arg0 m (outs m) c),
     (h c _ (mem_uc main_arg1 (by decide))).trans (V9_main_arg1 m (outs m) c),
     (h c _ (mem_uc main_arg2 (by decide))).trans (V9_main_arg2 m (outs m) c),
     (h c _ (mem_uc main_arg3 (by decide))).trans (V9_main_arg3 m (outs m) c)⟩) (run_all m ρ)

/-- The frame: the program runs to the end and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.KernelIdeal.Hand

end
-- ==== Proof.Spec.lean ====
/-
  The mathematics of the certificate, with no program in sight.

  A sequence `mp` of length `L = 4194304`, a profile `p` of 31 taps, `C = 1048576` centres, centre `c` sitting at
  position `ci c < L` with weight `cp c`.  Write `pad15 x` for `x` with 15 zeros put in front (and zeros behind), so
  that `pad15 mp (j + k)`, `k < 31`, is the window of 31 entries centred at `j`.

  * `corr j`  : the profile-weighted sum of the window at `j`;
  * `quot c`  : `cp c / corr (ci c)`, the centre's weight over its window sum;
  * `seg j`   : the sum of `quot c` over the centres sitting at `j`;
  * `outK i`  : `mp i` times the window sum of `seg` at `i` against the reversed profile — one product per position;
  * `outR i`  : the sum, over every (centre, tap) pair landing on padded position `i + 15`, of that tap's weighted
                window entry times the centre's quotient — one product per pair.

  `outK = outR` is the distributive law, regrouped by tap: a pair `(c, k)` lands on `i + 15` exactly when centre `c`
  sits at `i + 15 - k`, its window entry there is `mp i`, and `mp i` comes out of the sum.  On the extended reals the
  distributive law needs every term finite, which is what finite inputs and nonzero window sums at the centres give.
-/
import Idealize.ShloMosaic.PureOps.Ideal
import Mathlib.Algebra.BigOperators.Intervals

noncomputable section

namespace Cert.Spec

open Idealize.ShloMosaic

/-- The sequence length. -/
abbrev L : ℕ := 4194304
/-- The number of centres. -/
abbrev C : ℕ := 1048576

/-- `x` with 15 zeros in front and zeros behind: entry `q` is `x (q - 15)` for `15 ≤ q < L + 15`, zero elsewhere. -/
def pad15 (x : ℕ → EReal) (q : ℕ) : EReal := if 15 ≤ q ∧ q < L + 15 then x (q - 15) else 0

/-- The profile-weighted sum of the 31 padded entries from `j` on. -/
def corr (p mp : ℕ → EReal) (j : ℕ) : EReal := ∑ k ∈ Finset.range 31, pad15 mp (j + k) * p k

/-- Centre `c`'s weight over the window sum at its position. -/
def quot (p mp cp : ℕ → EReal) (ci : ℕ → ℕ) (c : ℕ) : EReal := Ideal.div (cp c) (corr p mp (ci c))

/-- The quotients of the centres sitting at `j`, summed. -/
def seg (p mp cp : ℕ → EReal) (ci : ℕ → ℕ) (j : ℕ) : EReal :=
  ∑ c ∈ Finset.range C, if ci c = j then quot p mp cp ci c else 0

/-- One product per position: the window sum of `seg` against the reversed profile, times `mp i`. -/
def outK (p mp cp : ℕ → EReal) (ci : ℕ → ℕ) (i : ℕ) : EReal :=
  (∑ k ∈ Finset.range 31, pad15 (seg p mp cp ci) (i + k) * p (30 - k)) * mp i

/-- One product per (centre, tap) pair landing on padded position `i + 15`. -/
def outR (p mp cp : ℕ → EReal) (ci : ℕ → ℕ) (i : ℕ) : EReal :=
  ∑ c ∈ Finset.range C, ∑ k ∈ Finset.range 31,
    if ci c + k = i + 15 then (pad15 mp (ci c + k) * p k) * quot p mp cp ci c else 0

/-! ### The same quantities over the reals

Every quantity above, fed real inputs, is the coercion of the same expression computed in `ℝ`; the regrouping is
then an identity of finite real sums. -/

/-- The coercion `ℝ → EReal` commutes with finite sums. -/
theorem coe_sum {ι : Type*} (s : Finset ι) (f : ι → ℝ) :
    ((∑ a ∈ s, f a : ℝ) : EReal) = ∑ a ∈ s, (f a : EReal) := by
  classical
  refine Finset.induction_on s (by simp) ?_
  intro a s ha ih
  rw [Finset.sum_insert ha, Finset.sum_insert ha, EReal.coe_add, ih]

/-- `pad15` over the reals. -/
def pad15R (x : ℕ → ℝ) (q : ℕ) : ℝ := if 15 ≤ q ∧ q < L + 15 then x (q - 15) else 0

/-- `corr` over the reals. -/
def corrR (p mp : ℕ → ℝ) (j : ℕ) : ℝ := ∑ k ∈ Finset.range 31, pad15R mp (j + k) * p k

/-- `quot` over the reals. -/
def quotR (p mp cp : ℕ → ℝ) (ci : ℕ → ℕ) (c : ℕ) : ℝ := cp c * (1 / corrR p mp (ci c))

/-- `seg` over the reals. -/
def segR (p mp cp : ℕ → ℝ) (ci : ℕ → ℕ) (j : ℕ) : ℝ :=
  ∑ c ∈ Finset.range C, if ci c = j then quotR p mp cp ci c else 0

theorem pad15_coe (x : ℕ → ℝ) (q : ℕ) :
    pad15 (fun n => (x n : EReal)) q = (pad15R x q : EReal) := by
  unfold pad15 pad15R
  split_ifs <;> simp

theorem corr_coe (p mp : ℕ → ℝ) (j : ℕ) :
    corr (fun k => (p k : EReal)) (fun n => (mp n : EReal)) j = (corrR p mp j : EReal) := by
  unfold corr corrR
  rw [coe_sum]
  refine Finset.sum_congr rfl fun k _ => ?_
  rw [pad15_coe, EReal.coe_mul]

/-- Dividing by a nonzero real window sum stays real. -/
theorem quot_coe (p mp cp : ℕ → ℝ) (ci : ℕ → ℕ) (c : ℕ) (h : corrR p mp (ci c) ≠ 0) :
    quot (fun k => (p k : EReal)) (fun n => (mp n : EReal)) (fun n => (cp n : EReal)) ci c
      = (quotR p mp cp ci c : EReal) := by
  unfold quot quotR
  rw [corr_coe, Ideal.div_coe h, EReal.coe_mul]

theorem seg_coe (p mp cp : ℕ → ℝ) (ci : ℕ → ℕ) (h : ∀ c, c < C → corrR p mp (ci c) ≠ 0) (j : ℕ) :
    seg (fun k => (p k : EReal)) (fun n => (mp n : EReal)) (fun n => (cp n : EReal)) ci j
      = (segR p mp cp ci j : EReal) := by
  unfold seg segR
  rw [coe_sum]
  refine Finset.sum_congr rfl fun c hc => ?_
  have hc' := Finset.mem_range.mp hc
  split_ifs
  · exact quot_coe p mp cp ci c (h c hc')
  · simp

theorem outK_coe (p mp cp : ℕ → ℝ) (ci : ℕ → ℕ) (h : ∀ c, c < C → corrR p mp (ci c) ≠ 0) (i : ℕ) :
    outK (fun k => (p k : EReal)) (fun n => (mp n : EReal)) (fun n => (cp n : EReal)) ci i
      = (((∑ k ∈ Finset.range 31, pad15R (segR p mp cp ci) (i + k) * p (30 - k)) * mp i : ℝ) : EReal) := by
  have hs : seg (fun k => (p k : EReal)) (fun n => (mp n : EReal)) (fun n => (cp n : EReal)) ci
      = fun j => (segR p mp cp ci j : EReal) := funext (seg_coe p mp cp ci h)
  unfold outK
  rw [hs, EReal.coe_mul, coe_sum]
  congr 1
  refine Finset.sum_congr rfl fun k _ => ?_
  rw [pad15_coe, EReal.coe_mul]

theorem outR_coe (p mp cp : ℕ → ℝ) (ci : ℕ → ℕ) (h : ∀ c, c < C → corrR p mp (ci c) ≠ 0) (i : ℕ) :
    outR (fun k => (p k : EReal)) (fun n => (mp n : EReal)) (fun n => (cp n : EReal)) ci i
      = ((∑ c ∈ Finset.range C, ∑ k ∈ Finset.range 31,
          if ci c + k = i + 15 then (pad15R mp (ci c + k) * p k) * quotR p mp cp ci c else 0 : ℝ) : EReal) := by
  unfold outR
  rw [coe_sum]
  refine Finset.sum_congr rfl fun c hc => ?_
  have hc' := Finset.mem_range.mp hc
  rw [coe_sum]
  refine Finset.sum_congr rfl fun k _ => ?_
  split_ifs
  · rw [pad15_coe, quot_coe p mp cp ci c (h c hc'), EReal.coe_mul, EReal.coe_mul]
  · simp

/-- A pair `(c, k)` landing on padded position `i + 15` reads the entry `mp i`. -/
theorem pad15R_hit (mp : ℕ → ℝ) {a k i : ℕ} (h : a + k = i + 15) (hi : i < L) :
    pad15R mp (a + k) = mp i := by
  unfold pad15R
  rw [h, if_pos ⟨by omega, by omega⟩, Nat.add_sub_cancel]

/-- The padded, segment-summed quotients read at `i + (30 - k)`: the centres `c` with `ci c + k = i + 15`. -/
theorem pad15R_seg (q : ℕ → ℝ) (ci : ℕ → ℕ) (hci : ∀ c, c < C → ci c < L) (i k : ℕ) (hk : k < 31) :
    pad15R (fun j => ∑ c ∈ Finset.range C, if ci c = j then q c else 0) (i + (30 - k))
      = ∑ c ∈ Finset.range C, if ci c + k = i + 15 then q c else 0 := by
  unfold pad15R
  split_ifs with hq
  · refine Finset.sum_congr rfl fun c _ => ?_
    refine if_congr ?_ rfl rfl
    omega
  · symm
    refine Finset.sum_eq_zero fun c hc => ?_
    have hc' := hci c (Finset.mem_range.mp hc)
    rw [if_neg]
    unfold L at hq hc'
    omega

/-- The regrouping over the reals: the distributive law, tap by tap. -/
theorem real_regroup (p mp q : ℕ → ℝ) (ci : ℕ → ℕ) (hci : ∀ c, c < C → ci c < L) (i : ℕ) (hi : i < L) :
    (∑ k ∈ Finset.range 31,
        pad15R (fun j => ∑ c ∈ Finset.range C, if ci c = j then q c else 0) (i + k) * p (30 - k)) * mp i
      = ∑ c ∈ Finset.range C, ∑ k ∈ Finset.range 31,
          if ci c + k = i + 15 then (pad15R mp (ci c + k) * p k) * q c else 0 := by
  rw [← Finset.sum_range_reflect
      (fun k => pad15R (fun j => ∑ c ∈ Finset.range C, if ci c = j then q c else 0) (i + k) * p (30 - k)) 31,
    Finset.sum_mul]
  conv_rhs => rw [Finset.sum_comm]
  refine Finset.sum_congr rfl fun k hk => ?_
  have hk' := Finset.mem_range.mp hk
  have e1 : 31 - 1 - k = 30 - k := by omega
  have e2 : 30 - (30 - k) = k := by omega
  beta_reduce
  rw [e1, e2, pad15R_seg q ci hci i k hk', Finset.sum_mul, Finset.sum_mul]
  refine Finset.sum_congr rfl fun c _ => ?_
  split_ifs with h
  · rw [pad15R_hit mp h hi]; ring
  · simp

/-- The two groupings agree wherever every term is a real number: finite inputs, every centre inside the sequence,
    and a nonzero window sum at every centre. -/
theorem outK_eq_outR (p mp cp : ℕ → EReal) (ci : ℕ → ℕ)
    (hp : ∀ k, ∃ r : ℝ, p k = (r : EReal)) (hmp : ∀ i, ∃ r : ℝ, mp i = (r : EReal)) (hcp : ∀ c, ∃ r : ℝ, cp c = (r : EReal))
    (hci : ∀ c, c < C → ci c < L) (hne : ∀ c, c < C → corr p mp (ci c) ≠ 0)
    (i : ℕ) (hi : i < L) : outK p mp cp ci i = outR p mp cp ci i := by
  choose pR hpR using hp
  choose mpR hmpR using hmp
  choose cpR hcpR using hcp
  obtain rfl : p = fun k => (pR k : EReal) := funext hpR
  obtain rfl : mp = fun n => (mpR n : EReal) := funext hmpR
  obtain rfl : cp = fun n => (cpR n : EReal) := funext hcpR
  have hneR : ∀ c, c < C → corrR pR mpR (ci c) ≠ 0 := by
    intro c hc
    have h := hne c hc
    rw [corr_coe] at h
    exact EReal.coe_ne_zero.mp h
  rw [outK_coe pR mpR cpR ci hneR i, outR_coe pR mpR cpR ci hneR i, EReal.coe_eq_coe_iff]
  exact real_regroup pR mpR (quotR pR mpR cpR ci) ci hci i hi

end Cert.Spec

end
-- ==== Proof.Bridge.lean ====
/-
  From the programs' arrays to the sequences the specification speaks of: a rank-1 array read as a sequence over the
  naturals (zero past its end), a rank-1 array of 32-bit words read as naturals, and the two facts about the inputs
  that the specification's hypotheses ask for — every entry a real number, every centre inside the sequence.
-/
import Idealize.ShloMosaic.Lib.ValueIdx
import proofs.«419612_j53841710022881_3_alg».proof.Proof.Spec

noncomputable section

namespace Cert.Bridge

open Idealize.ShloMosaic Idealize.ShloMosaic.ValueIdx

/-- A rank-1 array of extended reals as a sequence over the naturals, zero past its end. -/
def seq {n : ℕ} (x : (⟨1, ![n]⟩ : Shape).Idx → EReal) (i : ℕ) : EReal := if h : i < n then x (ix1 ⟨i, h⟩) else 0

/-- A rank-1 array of 32-bit words as a sequence of naturals (the word read unsigned), zero past its end. -/
def nseq {n : ℕ} (x : (⟨1, ![n]⟩ : Shape).Idx → BitVec 32) (c : ℕ) : ℕ := if h : c < n then (x (ix1 ⟨c, h⟩)).toNat else 0

/-- A 1 × n row of extended reals as a sequence over the naturals, zero past its end. -/
def seq2 {n : ℕ} (x : (⟨2, ![1, n]⟩ : Shape).Idx → EReal) (i : ℕ) : EReal := if h : i < n then x (ix2 0 ⟨i, h⟩) else 0

theorem seq2_of_lt {n : ℕ} (x : (⟨2, ![1, n]⟩ : Shape).Idx → EReal) (i : Fin n) : seq2 x i.val = x (ix2 0 i) := by
  unfold seq2; rw [dif_pos i.isLt]

/-- Every entry is a real number. -/
def Finite {n : ℕ} (x : (⟨1, ![n]⟩ : Shape).Idx → EReal) : Prop := ∀ i, ∃ r : ℝ, x i = (r : EReal)

/-- Every centre, read as a signed word, lies inside the sequence. -/
def InRange (x : (⟨1, ![1048576]⟩ : Shape).Idx → BitVec 32) : Prop :=
  ∀ c : Fin 1048576, 0 ≤ (x (ix1 c)).toInt ∧ (x (ix1 c)).toInt < 4194304

theorem seq_of_lt {n : ℕ} (x : (⟨1, ![n]⟩ : Shape).Idx → EReal) (i : Fin n) : seq x i.val = x (ix1 i) := by
  unfold seq; rw [dif_pos i.isLt]

theorem nseq_of_lt {n : ℕ} (x : (⟨1, ![n]⟩ : Shape).Idx → BitVec 32) (c : Fin n) : nseq x c.val = (x (ix1 c)).toNat := by
  unfold nseq; rw [dif_pos c.isLt]

theorem seq_finite {n : ℕ} (x : (⟨1, ![n]⟩ : Shape).Idx → EReal) (h : Finite x) (i : ℕ) : ∃ r : ℝ, seq x i = (r : EReal) := by
  unfold seq; split
  · exact h _
  · exact ⟨0, rfl⟩

/-- A word in range reads the same signed and unsigned. -/
theorem toNat_of_inRange (x : (⟨1, ![1048576]⟩ : Shape).Idx → BitVec 32) (h : InRange x) (c : Fin 1048576) :
    ((x (ix1 c)).toNat : Int) = (x (ix1 c)).toInt := by
  have h0 := (h c).1
  rw [BitVec.toInt_eq_toNat_cond] at h0 ⊢
  split at h0 <;> rename_i hlt
  · rw [if_pos hlt]
  · exfalso; have := (x (ix1 c)).isLt; omega

theorem nseq_lt (x : (⟨1, ![1048576]⟩ : Shape).Idx → BitVec 32) (h : InRange x) (c : ℕ) (hc : c < Cert.Spec.C) :
    nseq x c < Cert.Spec.L := by
  have e := nseq_of_lt x ⟨c, hc⟩
  have h1 := (h ⟨c, hc⟩).2
  have h2 := toNat_of_inRange x h ⟨c, hc⟩
  simp only at e; rw [e]; unfold Cert.Spec.L; omega

end Cert.Bridge

end
-- ==== Proof.KernelIdeal.Value0.lean ====
/-
  What region 0 leaves in its output array, at the ideal instance: entry `i` of the 1 × 4194304 row is the sum over the
  31 taps of the padded row's entry `i + k` times weight `k`.  Point `t` writes block `t` (entries 8192·t … 8192·t + 8191),
  the 512 blocks tile the row, and inside a block the body's 31 shifted slices of the block-and-halo concatenation are
  the padded row's entries `i + k`: below 8192 from the block, from 8192 on from the halo, which starts where the block ends.
-/
import proofs.«419612_j53841710022881_3_alg».proof.Proof.KernelIdeal.Region0
import proofs.«419612_j53841710022881_3_alg».proof.Proof.Bridge
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal.Gen Cert.Bridge
open Idealize.ShloMosaic Idealize.ShloMosaic.TcCoe Idealize.ShloMosaic.ValueIdx
open Idealize.SL Idealize.SL.Sem
open Idealize.ShloMosaic.Pipeline (Dat)

namespace Corr

/-! ## The body's payload at an index -/

/-- The block followed by its halo, read as one sequence: the block's entries below 8192, the halo's from there on. -/
def cat (x0 : Vec Ideal S1x8192 .f32) (x1 : Vec Ideal S1x128 .f32) (p : ℕ) : EReal :=
  if p < 8192 then seq2 x0 p else seq2 x1 (p - 8192)

/-- The concatenation of block and halo along the row is that sequence. -/
theorem concat_apply (x0 : Vec Ideal S1x8192 .f32) (x1 : Vec Ideal S1x128 .f32) (p : Fin 8320) :
    concatenate S1x8320 1 [⟨S1x8192, x0⟩, ⟨S1x128, x1⟩] concatenates_S1x8192_S1x128_S1x8320_d1 (ix2 0 p) = cat x0 x1 p.val := by
  unfold cat
  by_cases hp : p.val < 8192
  · rw [if_pos hp]
    refine (concatenate_pair_apply_left (1 : Fin S1x8320.rank) x0 x1 _ (ix2 0 p) rfl (ix2 0 ⟨p.val, hp⟩) fun b => ?_).trans
      (seq2_of_lt x0 ⟨p.val, hp⟩).symm
    match b with
    | ⟨0, _⟩ => rfl
    | ⟨1, _⟩ => rfl
  · rw [if_neg hp]
    have hp' : p.val - 8192 < 128 := by have := p.isLt; omega
    refine (concatenate_pair_apply_right (1 : Fin S1x8320.rank) x0 x1 _ (ix2 0 p) rfl rfl (ix2 0 ⟨p.val - 8192, hp'⟩) (fun b hb => ?_) ?_).trans
      (seq2_of_lt x1 ⟨p.val - 8192, hp'⟩).symm
    · rcases b with ⟨b, hb'⟩
      have hb2 : b < 2 := hb'
      have hb0 : b = 0 := by
        rcases Nat.lt_or_ge b 1 with h | h
        · omega
        · exact absurd (Fin.ext (show b = 1 by omega)) hb
      subst hb0; rfl
    · show p.val - 8192 + 8192 = p.val
      omega

/-- A slice of 8192 entries of the concatenation, at an offset along the row, read at `q`: the sequence at `q` plus the offset. -/
theorem tap_apply (x0 : Vec Ideal S1x8192 .f32) (x1 : Vec Ideal S1x128 .f32) (off : Fin 2 → ℕ) (h : S1x8320.Slices off S1x8192)
    (q : Fin 8192) :
    extractStridedSlice S1x8192 off (k0_pay3 x0 x1) h (ix2 0 q) = cat x0 x1 (q.val + off 1) := by
  have h0 : off 0 + 1 ≤ 1 := h.2 0
  have h1 : off 1 + 8192 ≤ 8320 := h.2 1
  show extractStridedSlice S1x8192 off (concatenate S1x8320 1 [⟨S1x8192, shapeCast S1x8192 x0 shapeCasts_S1x8192_S1x8192⟩,
    ⟨S1x128, shapeCast S1x128 x1 shapeCasts_S1x128_S1x128⟩] concatenates_S1x8192_S1x128_S1x8320_d1) h (ix2 0 q) = _
  rw [shapeCast_self, shapeCast_self]
  have hq := q.isLt
  refine (extractStridedSlice_apply off _ h (ix2 0 q) (ix2 0 ⟨q.val + off 1, by omega⟩) fun a => ?_).trans (concat_apply x0 x1 _)
  match a with
  | ⟨0, _⟩ => show 0 = off 0 + 0; omega
  | ⟨1, _⟩ => show q.val + off 1 = off 1 + q.val; omega

/-- One entry of the weights, sliced out and spread along the row: the weight at the slice's offset, everywhere. -/
theorem weight_apply (x2 : Vec Ideal S1x31 .f32) (off : Fin 2 → ℕ) (h : S1x31.Slices off S1x1) (q : Fin 8192) :
    broadcastTo S1x8192 (extractStridedSlice S1x1 off (k0_pay2 x2) h) broadcasts_S1x1_S1x8192 (ix2 0 q) = seq2 x2 (off 1) := by
  have h0 : off 0 + 1 ≤ 1 := h.2 0
  have h1 : off 1 + 1 ≤ 31 := h.2 1
  show broadcastTo S1x8192 (extractStridedSlice S1x1 off (shapeCast S1x31 x2 shapeCasts_S1x31_S1x31) h) broadcasts_S1x1_S1x8192 (ix2 0 q) = _
  rw [shapeCast_self]
  refine (broadcastTo_apply _ broadcasts_S1x1_S1x8192 (ix2 0 q) (ix2 0 0) fun a => ?_).trans ?_
  · match a with
    | ⟨0, _⟩ => rfl
    | ⟨1, _⟩ => rfl
  refine (extractStridedSlice_apply off x2 h (ix2 0 0) (ix2 0 ⟨off 1, by omega⟩) fun a => ?_).trans (seq2_of_lt x2 ⟨off 1, by omega⟩).symm
  match a with
  | ⟨0, _⟩ => show 0 = off 0 + 0; omega
  | ⟨1, _⟩ => show off 1 = off 1 + 0; omega

theorem zeroOff : (![0, 0] : Fin 2 → Nat) = fun _ => 0 := funext fun a => by fin_cases a <;> rfl

/-- The payload at entry `q` of the block: the 31 taps of the block-and-halo sequence from `q` on, each times its weight. -/
theorem pay0_apply (x0 : Vec Ideal S1x8192 .f32) (x1 : Vec Ideal S1x128 .f32) (x2 : Vec Ideal S1x31 .f32) (q : Fin 8192) :
    pay0 x0 x1 x2 (ix2 0 q) = ∑ k ∈ Finset.range 31, cat x0 x1 (q.val + k) * seq2 x2 k := by
  unfold pay0
  simp only [View.ld_unit_zero (S := S1x8192) zeroOff, View.ld_unit_zero (S := S1x128) zeroOff, View.ld_unit_zero (S := S1x31) zeroOff]
  unfold k0_pay1 k0_pay6 k0_pay7 k0_pay4 k0_pay5
  simp only [addf_apply, mulf_apply, broadcast_apply, tap_apply, weight_apply, Ideal.ofBits_def, Ideal.ofBits_zero_f32,
    Matrix.cons_val_zero, Matrix.cons_val_one, Matrix.head_cons, Matrix.cons_val_fin_one,
    Finset.sum_range_succ, Finset.sum_range_zero, Nat.add_zero]

/-- The same at any index of the block. -/
theorem pay0_apply' (x0 : Vec Ideal S1x8192 .f32) (x1 : Vec Ideal S1x128 .f32) (x2 : Vec Ideal S1x31 .f32) (y : S1x8192.Idx) :
    pay0 x0 x1 x2 y = ∑ k ∈ Finset.range 31, cat x0 x1 ((y 1).val + k) * seq2 x2 k := by
  obtain ⟨p, q, rfl⟩ : ∃ (p : Fin 1) (q : Fin 8192), y = ix2 p q := ⟨y 0, y 1, eq_ix2 y⟩
  obtain rfl : p = 0 := Subsingleton.elim _ _
  exact pay0_apply x0 x1 x2 q

/-! ## From blocks to the row -/

/-- The output row as one function of the padded row `A` and the weights `W`: entry `j` is the 31-tap sum from `j` on. -/
def corrRow (A : S1x4194432.Idx → EReal) (W : S1x31.Idx → EReal) : S1x4194304.Idx → EReal :=
  fun j => ∑ k ∈ Finset.range 31, seq2 A ((j 1).val + k) * seq2 W k

/-- The printed index maps over the grid: at point `t` the block is block `t` of the padded row, the halo is block
    `64 (t + 1)` in blocks of 128 (the 128 entries after block `t`), the weights are whole, the output block is block `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = (t.val + 1) * 64
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- When the block holds entries `8192 T …` of a row `A` and the halo the 128 after them, the block-and-halo sequence
    is `A` from `8192 T` on. -/
theorem cat_of_blocks (x0 : Vec Ideal S1x8192 .f32) (x1 : Vec Ideal S1x128 .f32) (A : S1x4194432.Idx → EReal) (T : ℕ)
    (h0 : ∀ (p : ℕ) (hp : p < 8192), x0 (ix2 0 ⟨p, hp⟩) = seq2 A (8192 * T + p))
    (h1 : ∀ (r : ℕ) (hr : r < 128), x1 (ix2 0 ⟨r, hr⟩) = seq2 A (8192 * (T + 1) + r))
    (p : ℕ) (hp : p < 8320) : cat x0 x1 p = seq2 A (8192 * T + p) := by
  unfold cat
  by_cases hlt : p < 8192
  · rw [if_pos hlt]
    exact (seq2_of_lt x0 ⟨p, hlt⟩).trans (h0 p hlt)
  · rw [if_neg hlt]
    have hr : p - 8192 < 128 := by omega
    refine (seq2_of_lt x1 ⟨p - 8192, hr⟩).trans ((h1 (p - 8192) hr).trans ?_)
    exact congrArg (seq2 A) (by omega)

/-- Window 0's block at point `t` is entries `8192 t …` of the padded row. -/
theorem block_apply (V : (c : Dev nD) → (b : Ref sig .tc) → Buf (Elt Ideal) ((c : Thread nD τ).loc b)) (c : Dev nD) (t : Fin cfg0.N)
    (p : ℕ) (hp : p < 8192) : x0at V c t (ix2 0 ⟨p, hp⟩) = seq2 (V c main_v1) (8192 * t.val + p) := by
  obtain ⟨e0, e1, -⟩ := idx_facts t
  have ht : t.val < 512 := t.isLt
  have hm : win0_0.moved (grid0.coords t) (ix2 0 ⟨p, hp⟩) = true :=
    (win0_0.moved_iff _ _).mpr fun a => by
      have := ((ix2 0 ⟨p, hp⟩ : S1x8192.Idx) a).isLt; unfold Pipeline.Window.xsize; rw [clip0_0 t a]; exact this
  unfold x0at Pipeline.Window.fill
  rw [dif_pos hm]
  unfold iblk0
  rw [View.read_apply]
  refine Eq.trans ?_ (seq2_of_lt (V c main_v1) ⟨8192 * t.val + p, by omega⟩).symm
  show V c main_v1 _ = V c main_v1 _
  congr 1
  funext a; apply Fin.ext
  match a with
  | ⟨0, _⟩ => show win0_0.index t (0 : Fin 2) * 1 + 1 * 0 = 0; omega
  | ⟨1, _⟩ => show win0_0.index t (1 : Fin 2) * 8192 + 1 * p = 8192 * t.val + p; omega

/-- Window 1's block at point `t` is the 128 entries of the padded row after block `t`. -/
theorem halo_apply (V : (c : Dev nD) → (b : Ref sig .tc) → Buf (Elt Ideal) ((c : Thread nD τ).loc b)) (c : Dev nD) (t : Fin cfg0.N)
    (r : ℕ) (hr : r < 128) : (iblk0 V c 1 t : Vec Ideal S1x128 .f32) (ix2 0 ⟨r, hr⟩) = seq2 (V c main_v1) (8192 * (t.val + 1) + r) := by
  obtain ⟨-, -, e0, e1, -⟩ := idx_facts t
  have ht : t.val < 512 := t.isLt
  unfold iblk0
  rw [View.read_apply]
  refine Eq.trans ?_ (seq2_of_lt (V c main_v1) ⟨8192 * (t.val + 1) + r, by omega⟩).symm
  show V c main_v1 _ = V c main_v1 _
  congr 1
  funext a; apply Fin.ext
  match a with
  | ⟨0, _⟩ => show win0_1.index t (0 : Fin 2) * 1 + 1 * 0 = 0; omega
  | ⟨1, _⟩ => show win0_1.index t (1 : Fin 2) * 128 + 1 * r = 8192 * (t.val + 1) + r; omega

/-- Window 2's block at every point is the weights. -/
theorem weights_apply (V : (c : Dev nD) → (b : Ref sig .tc) → Buf (Elt Ideal) ((c : Thread nD τ).loc b)) (c : Dev nD) (t : Fin cfg0.N)
    (k : ℕ) : seq2 (iblk0 V c 2 t : Vec Ideal S1x31 .f32) k = seq2 (V c main_v2) k := by
  obtain ⟨-, -, -, -, e0, e1, -⟩ := idx_facts t
  unfold seq2
  by_cases hk : k < 31
  · rw [dif_pos hk, dif_pos hk]
    unfold iblk0
    rw [View.read_apply]
    show V c main_v2 _ = V c main_v2 _
    congr 1
    funext a; apply Fin.ext
    match a with
    | ⟨0, _⟩ => show win0_2.index t (0 : Fin 2) * 1 + 1 * 0 = 0; omega
    | ⟨1, _⟩ => show win0_2.index t (1 : Fin 2) * 31 + 1 * k = k; omega
  · rw [dif_neg hk, dif_neg hk]

/-- What point `t` writes back is block `t` of the row `corrRow` of the padded row and the weights as the region finds them. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (corrRow (V c main_v1) (V c main_v2)) := by
  obtain ⟨-, -, -, -, -, -, e0, e1⟩ := idx_facts t
  have ht : t.val < 512 := t.isLt
  show (cfg0.win 3).cut (grid0.coords t) ((dat0 V c).after 3 t) = _
  rw [after0_3]
  unfold out0_3
  rw [View.canon_unit_zero zeroOff]
  funext j
  rw [View.read_apply]
  have hj : (j 1).val < 8192 := (j 1).isLt
  have ej : ((((cfg0.win 3).blk t).view.emb j) 1).val = 8192 * t.val + (j 1).val := by
    show win0_3.index t (1 : Fin 2) * 8192 + 1 * (j 1).val = _
    omega
  refine (pay0_apply' (x0at V c t) (iblk0 V c 1 t) (iblk0 V c 2 t) ((cfg0.win 3).xinj (grid0.coords t) j)).trans ?_
  unfold corrRow
  refine Finset.sum_congr rfl fun k hk => ?_
  have hk' : k < 31 := Finset.mem_range.mp hk
  rw [weights_apply V c t k, ej]
  rw [cat_of_blocks (x0at V c t) (iblk0 V c 1 t) (V c main_v1) t.val (block_apply V c t) (halo_apply V c t) _
    (show (j 1).val + k < 8320 by omega)]
  exact congrArg (fun n => seq2 (V c main_v1) n * seq2 (V c main_v2) k) (by omega)

/-- An entry of the row is in point `t`'s block iff each coordinate is in the block's range on its axis. -/
theorem mem_blk (t : Fin cfg0.N) (i : S1x4194304.Idx) :
    i ∈ ((cfg0.win 3).blk t).view.set ↔ ∀ a : Fin 2, win0_3.index t a * S1x8192.size a ≤ (i a).val
      ∧ (i a).val < win0_3.index t a * S1x8192.size a + S1x8192.size a := by
  show i ∈ ((View.whole main_v3).slice (win0_3.rect t)).set ↔ _
  rw [View.set_slice_whole, Rect.mem_set_unit]
  exact Iff.rfl

/-- Every entry of the row is in the block of the point `entry / 8192`, which writes its block back. -/
theorem covered (i : S1x4194304.Idx) : ∃ t : Fin cfg0.N, (cfg0.win 3).flush t = true ∧ i ∈ ((cfg0.win 3).blk t).view.set := by
  have hi0 : (i 0).val < 1 := (i 0).isLt
  have hi1 : (i 1).val < 4194304 := (i 1).isLt
  refine ⟨⟨(i 1).val / 8192, by show (i 1).val / 8192 < 512; omega⟩, flush0_3 _, ?_⟩
  obtain ⟨-, -, -, -, -, -, e0, e1⟩ := idx_facts ⟨(i 1).val / 8192, by show (i 1).val / 8192 < 512; omega⟩
  rw [mem_blk]
  intro a
  match a with
  | ⟨0, _⟩ =>
    show win0_3.index _ (0 : Fin 2) * 1 ≤ (i 0).val ∧ (i 0).val < win0_3.index _ (0 : Fin 2) * 1 + 1
    rw [e0]; omega
  | ⟨1, _⟩ =>
    show win0_3.index _ (1 : Fin 2) * 8192 ≤ (i 1).val ∧ (i 1).val < win0_3.index _ (1 : Fin 2) * 8192 + 8192
    rw [e1]; show (i 1).val / 8192 * 8192 ≤ (i 1).val ∧ (i 1).val < (i 1).val / 8192 * 8192 + 8192; omega

/-- So the output row ends holding `corrRow` of the padded row and the weights. -/
theorem final (V : (c : Dev nD) → (b : Ref sig .tc) → Buf (Elt Ideal) ((c : Thread nD τ).loc b)) (c : Dev nD) :
    (dat0 (F := Ideal) V c).arrAt 3 cfg0.N = corrRow (V c main_v1) (V c main_v2) :=
  (dat0 (F := Ideal) V c).arrAt_eq_of_cover 3 (corrRow (V c main_v1) (V c main_v2)) (fun t _ => flushed_eq V c t) covered

end Corr

open Corr

/-- Region 0's output row after the run, entry by entry. -/
theorem corr_arr (V : (c : Dev nD) → (b : Ref sig .tc) → Buf (Elt Ideal) ((c : Thread nD τ).loc b)) (c : Dev nD)
    (i : ℕ) (hi : i < 4194304) :
    seq2 ((dat0 (F := Ideal) V c).arrAt 3 cfg0.N) i
      = ∑ k ∈ Finset.range 31, seq2 (V c main_v1) (i + k) * seq2 (V c main_v2) k := by
  refine (seq2_of_lt ((dat0 (F := Ideal) V c).arrAt 3 cfg0.N) ⟨i, hi⟩).trans ?_
  rw [final V c]
  rfl

end Cert.KernelIdeal.Hand

end
-- ==== Proof.KernelIdeal.Value1.lean ====
/-
  What region 1 leaves in its output array, at the ideal instance: entry `i` of the 1 × 4194304 row is the sum over the
  31 taps of the padded row's entry `i + k` times (reversed) weight `k`, times the multiplier row's entry `i`.  The block
  structure is region 0's: point `t` writes block `t`, the blocks tile the row, and the 31 shifted slices of the
  block-and-halo concatenation are the padded row's entries `i + k`.
-/
import proofs.«419612_j53841710022881_3_alg».proof.Proof.KernelIdeal.Region1
import proofs.«419612_j53841710022881_3_alg».proof.Proof.Bridge
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal.Gen Cert.Bridge
open Idealize.ShloMosaic Idealize.ShloMosaic.TcCoe Idealize.ShloMosaic.ValueIdx
open Idealize.SL Idealize.SL.Sem
open Idealize.ShloMosaic.Pipeline (Dat)

/-! ## The body's store at an index -/

theorem zeros1 : (![0, 0] : Fin 2 → Nat) = fun _ => 0 := funext fun a => by fin_cases a <;> rfl

/-- A block of 8192 entries and the 128 entries that follow it, laid end to end and read as one sequence. -/
def blockHalo1 (x0 : Vec Ideal S1x8192 .f32) (x1 : Vec Ideal S1x128 .f32) (n : ℕ) : EReal :=
  if n < 8192 then seq2 x0 n else seq2 x1 (n - 8192)

/-- The weights as loaded and cast are the weights. -/
theorem weights1_eq (x2 : Vec Ideal S1x31 .f32) : k1_pay1 (View.ld x2 rC1) = x2 := by
  unfold k1_pay1
  rw [shapeCast_self, View.ld_unit_zero (S := S1x31) zeros1]

/-- The concatenation of the loaded block and halo, read at an entry. -/
theorem concat1_apply (x0 : Vec Ideal S1x8192 .f32) (x1 : Vec Ideal S1x128 .f32) (n : Fin 8320) :
    k1_pay2 (View.ld x0 rA1) (View.ld x1 rB1) (ix2 0 n) = blockHalo1 x0 x1 n.val := by
  unfold k1_pay2
  rw [shapeCast_self, shapeCast_self, View.ld_unit_zero (S := S1x8192) zeros1, View.ld_unit_zero (S := S1x128) zeros1]
  unfold blockHalo1
  have left : ∀ m : Fin 8192, m.val = n.val →
      concatenate S1x8320 1 [⟨S1x8192, x0⟩, ⟨S1x128, x1⟩] concatenates_S1x8192_S1x128_S1x8320_d1 (ix2 0 n) = x0 (ix2 0 m) := by
    intro m hm
    refine concatenate_pair_apply_left 1 x0 x1 _ (ix2 0 n) rfl (ix2 0 m) fun b => ?_
    match b with
    | ⟨0, _⟩ => rfl
    | ⟨1, _⟩ => exact hm
  have right : ∀ m : Fin 128, m.val + 8192 = n.val →
      concatenate S1x8320 1 [⟨S1x8192, x0⟩, ⟨S1x128, x1⟩] concatenates_S1x8192_S1x128_S1x8320_d1 (ix2 0 n) = x1 (ix2 0 m) := by
    intro m hm
    refine concatenate_pair_apply_right 1 x0 x1 _ (ix2 0 n) rfl rfl (ix2 0 m) (fun b hb => ?_) hm
    match b, hb with
    | ⟨0, _⟩, _ => rfl
    | ⟨1, _⟩, hb => exact absurd rfl hb
  by_cases hn : n.val < 8192
  · rw [if_pos hn, left ⟨n.val, hn⟩ rfl]
    exact (seq2_of_lt x0 ⟨n.val, hn⟩).symm
  · rw [if_neg hn]
    have hlt : n.val - 8192 < 128 := by have := n.isLt; omega
    rw [right ⟨n.val - 8192, hlt⟩ (by show n.val - 8192 + 8192 = n.val; omega)]
    exact (seq2_of_lt x1 ⟨n.val - 8192, hlt⟩).symm

/-- One tap at an entry of the block: the concatenation's entry `q + k` times weight `k`. -/
theorem tap1_apply (x0 : Vec Ideal S1x8192 .f32) (x1 : Vec Ideal S1x128 .f32) (x2 : Vec Ideal S1x31 .f32) (k : ℕ)
    (h1 : S1x31.Slices ![0, k] S1x1) (h2 : S1x8320.Slices ![0, k] S1x8192) (hb : S1x1.Broadcasts S1x8192) (q : Fin 8192) :
    mulf (extractStridedSlice S1x8192 ![0, k] (k1_pay2 (View.ld x0 rA1) (View.ld x1 rB1)) h2)
        (broadcastTo S1x8192 (extractStridedSlice S1x1 ![0, k] (k1_pay1 (View.ld x2 rC1)) h1) hb) (ix2 0 q)
      = blockHalo1 x0 x1 (q.val + k) * seq2 x2 k := by
  have hk1 : k + 1 ≤ 31 := h1.2 1
  have hk : k < 31 := by omega
  have hk2 : q.val + k < 8320 := by have := q.isLt; omega
  rw [mulf_apply, weights1_eq]
  rw [slice2_axis1_apply k _ h2 0 q ⟨q.val + k, hk2⟩ (Nat.add_comm _ _), concat1_apply]
  rw [broadcastTo_apply _ hb (ix2 0 q) (ix2 0 0) (fun a => by match a with | ⟨0, _⟩ => rfl | ⟨1, _⟩ => rfl)]
  rw [slice2_axis1_apply k x2 h1 0 0 ⟨k, hk⟩ rfl, ← seq2_of_lt x2 ⟨k, hk⟩]

/-- The body's store at an entry of the block: the 31 taps summed in order, times the multiplier. -/
theorem store1_apply (x0 : Vec Ideal S1x8192 .f32) (x1 : Vec Ideal S1x128 .f32) (x2 : Vec Ideal S1x31 .f32)
    (x3 : Vec Ideal S1x8192 .f32) (q : Fin 8192) :
    pay1 x0 x1 x2 x3 (ix2 0 q)
      = (∑ k ∈ Finset.range 31, blockHalo1 x0 x1 (q.val + k) * seq2 x2 k) * x3 (ix2 0 q) := by
  unfold pay1 k1_pay7 k1_pay6 k1_pay5 k1_pay4 k1_pay3
  dsimp only
  rw [mulf_apply]
  simp only [addf_apply, broadcast_apply, tap1_apply]
  rw [shapeCast_self, View.ld_unit_zero (S := S1x8192) zeros1]
  simp only [Finset.sum_range_succ, Finset.sum_range_zero]
  have z : (FloatOps.ofBits FTy.f32 0#32 : Ideal .f32) = 0 := Ideal.ofBits_zero_f32
  rw [z]

/-! ## The blocks the body reads, as entries of the rows -/

section Blocks

variable (V : (c : Dev nD) → (b : Ref sig .tc) → Buf (Elt Ideal) ((c : Thread nD τ).loc b))

/-- The printed index maps over the grid: windows 0, 3 and 4 are at block `t` of 8192 entries, window 1 at the block
    of 128 entries that follows it, window 2 at its one block. -/
theorem index_facts1 : ∀ t : Fin cfg1.N,
    win1_0.index t (0 : Fin 2) = 0 ∧ win1_0.index t (1 : Fin 2) = t.val
    ∧ win1_1.index t (0 : Fin 2) = 0 ∧ win1_1.index t (1 : Fin 2) = (t.val + 1) * 64
    ∧ win1_2.index t (0 : Fin 2) = 0 ∧ win1_2.index t (1 : Fin 2) = 0
    ∧ win1_3.index t (0 : Fin 2) = 0 ∧ win1_3.index t (1 : Fin 2) = t.val
    ∧ win1_4.index t (0 : Fin 2) = 0 ∧ win1_4.index t (1 : Fin 2) = t.val :=
  (by decide +kernel : ∀ t : Fin grid1.N, _)

/-- Window 0's buffer at point `t`: entries `8192·t + q` of the padded row. -/
theorem main_block1 (c : Dev nD) (t : Fin cfg1.N) (q : Fin 8192) :
    y0at V c t (ix2 0 q) = seq2 (V c main_v17) (8192 * t.val + q.val) := by
  obtain ⟨e0, e1, -⟩ := index_facts1 t
  have ht : t.val < 512 := t.isLt
  have hlt : 8192 * t.val + q.val < 4194432 := by have := q.isLt; omega
  refine Eq.trans ?_ (seq2_of_lt (n := 4194432) (V c main_v17) ⟨8192 * t.val + q.val, hlt⟩).symm
  have hm : win1_0.moved (grid1.coords t) (ix2 0 q) = true :=
    (win1_0.moved_iff _ _).mpr fun a => by
      have hc : win1_0.clip (grid1.coords t) a = none := clip1_0 t a
      have := ((ix2 0 q : S1x8192.Idx) a).isLt
      unfold Pipeline.Window.xsize; rw [hc]; exact this
  unfold y0at Pipeline.Window.fill
  rw [dif_pos hm]
  unfold iblk1
  rw [View.read_apply]
  show V c main_v17 _ = V c main_v17 _
  congr 1
  funext a; apply Fin.ext
  match a with
  | ⟨0, _⟩ => show win1_0.index t (0 : Fin 2) * 1 + 1 * 0 = 0; omega
  | ⟨1, _⟩ => show win1_0.index t (1 : Fin 2) * 8192 + 1 * q.val = 8192 * t.val + q.val; omega

/-- Window 1's block at point `t`: the 128 entries of the padded row after block `t`. -/
theorem halo_block1 (c : Dev nD) (t : Fin cfg1.N) (r : Fin 128) :
    (iblk1 V c 1 t : Vec Ideal S1x128 .f32) (ix2 0 r) = seq2 (V c main_v17) (8192 * t.val + 8192 + r.val) := by
  obtain ⟨-, -, e0, e1, -⟩ := index_facts1 t
  have ht : t.val < 512 := t.isLt
  have hlt : 8192 * t.val + 8192 + r.val < 4194432 := by have := r.isLt; omega
  refine Eq.trans ?_ (seq2_of_lt (n := 4194432) (V c main_v17) ⟨8192 * t.val + 8192 + r.val, hlt⟩).symm
  unfold iblk1
  rw [View.read_apply]
  show V c main_v17 _ = V c main_v17 _
  congr 1
  funext a; apply Fin.ext
  match a with
  | ⟨0, _⟩ => show win1_1.index t (0 : Fin 2) * 1 + 1 * 0 = 0; omega
  | ⟨1, _⟩ => show win1_1.index t (1 : Fin 2) * 128 + 1 * r.val = 8192 * t.val + 8192 + r.val; omega

/-- Window 2's block is the weights' row. -/
theorem weights_block1 (c : Dev nD) (t : Fin cfg1.N) : (iblk1 V c 2 t : Vec Ideal S1x31 .f32) = V c main_v19 := by
  obtain ⟨-, -, -, -, e0, e1, -⟩ := index_facts1 t
  funext j
  unfold iblk1
  rw [View.read_apply]
  show V c main_v19 _ = V c main_v19 j
  congr 1
  funext a; apply Fin.ext
  match a with
  | ⟨0, _⟩ => show win1_2.index t (0 : Fin 2) * 1 + 1 * (j 0).val = (j 0).val; omega
  | ⟨1, _⟩ => show win1_2.index t (1 : Fin 2) * 31 + 1 * (j 1).val = (j 1).val; omega

/-- Window 3's block at point `t`: entries `8192·t + q` of the multiplier row. -/
theorem mult_block1 (c : Dev nD) (t : Fin cfg1.N) (q : Fin 8192) :
    (iblk1 V c 3 t : Vec Ideal S1x8192 .f32) (ix2 0 q) = seq2 (V c main_v20) (8192 * t.val + q.val) := by
  obtain ⟨-, -, -, -, -, -, e0, e1, -⟩ := index_facts1 t
  have ht : t.val < 512 := t.isLt
  have hlt : 8192 * t.val + q.val < 4194304 := by have := q.isLt; omega
  refine Eq.trans ?_ (seq2_of_lt (n := 4194304) (V c main_v20) ⟨8192 * t.val + q.val, hlt⟩).symm
  unfold iblk1
  rw [View.read_apply]
  show V c main_v20 _ = V c main_v20 _
  congr 1
  funext a; apply Fin.ext
  match a with
  | ⟨0, _⟩ => show win1_3.index t (0 : Fin 2) * 1 + 1 * 0 = 0; omega
  | ⟨1, _⟩ => show win1_3.index t (1 : Fin 2) * 8192 + 1 * q.val = 8192 * t.val + q.val; omega

/-- The block and its halo at point `t`, end to end, are the padded row from entry `8192·t` on. -/
theorem blockHalo1_eq (c : Dev nD) (t : Fin cfg1.N) (n : ℕ) (hn : n < 8320) :
    blockHalo1 (y0at V c t) (iblk1 V c 1 t) n = seq2 (V c main_v17) (8192 * t.val + n) := by
  unfold blockHalo1
  by_cases h : n < 8192
  · rw [if_pos h]
    exact (seq2_of_lt (n := 8192) (y0at V c t) ⟨n, h⟩).trans (main_block1 V c t ⟨n, h⟩)
  · rw [if_neg h]
    have h' : n - 8192 < 128 := by omega
    refine (seq2_of_lt (n := 128) (iblk1 V c 1 t) ⟨n - 8192, h'⟩).trans ((halo_block1 V c t ⟨n - 8192, h'⟩).trans ?_)
    refine congrArg (seq2 (V c main_v17)) ?_
    show 8192 * t.val + 8192 + (n - 8192) = 8192 * t.val + n
    omega

/-! ## From the blocks to the row -/

/-- The output row: entry `i` is the 31 taps of the padded row from `i` on, times the multiplier's entry `i`. -/
def convRow (c : Dev nD) : S1x4194304.Idx → EReal := fun i =>
  (∑ k ∈ Finset.range 31, seq2 (V c main_v17) ((i 1).val + k) * seq2 (V c main_v19) k) * seq2 (V c main_v20) (i 1).val

/-- The body's store at point `t`, entry `j` of the block, is the output row's entry `8192·t + j`. -/
theorem point1_eq (c : Dev nD) (t : Fin cfg1.N) (j : S1x8192.Idx) (k : S1x4194304.Idx)
    (hk : (k 1).val = 8192 * t.val + (j 1).val) :
    pay1 (y0at V c t) (iblk1 V c 1 t) (iblk1 V c 2 t) (iblk1 V c 3 t) j = convRow V c k := by
  obtain ⟨p, q, rfl⟩ : ∃ (p : Fin 1) (q : Fin 8192), j = ix2 p q := ⟨j 0, j 1, eq_ix2 j⟩
  obtain rfl : p = 0 := Subsingleton.elim _ _
  have hq : ((ix2 (0 : Fin 1) q : S1x8192.Idx) 1).val = q.val := rfl
  rw [hq] at hk
  rw [store1_apply, mult_block1, weights_block1]
  unfold convRow
  rw [hk]
  congr 1
  refine Finset.sum_congr rfl fun i hi => ?_
  have hi' : i < 31 := Finset.mem_range.mp hi
  rw [blockHalo1_eq V c t (q.val + i) (by have := q.isLt; omega), Nat.add_assoc]

/-- What point `t` writes back is block `t` of the output row. -/
theorem flushed1_eq (c : Dev nD) (t : Fin cfg1.N) :
    (dat1 V c).flushed 4 t = ((cfg1.win 4).blk t).view.read (Elt Ideal) (convRow V c) := by
  obtain ⟨-, -, -, -, -, -, -, -, e0, e1⟩ := index_facts1 t
  show (cfg1.win 4).cut (grid1.coords t) ((dat1 V c).after 4 t) = _
  rw [after1_4]
  unfold out1_4
  rw [View.canon_unit_zero zeros1]
  funext j
  show pay1 (y0at V c t) (iblk1 V c 1 t) (iblk1 V c 2 t) (iblk1 V c 3 t) j = convRow V c (((cfg1.win 4).blk t).view.emb j)
  refine point1_eq V c t j _ ?_
  show win1_4.index t (1 : Fin 2) * 8192 + 1 * (j 1).val = 8192 * t.val + (j 1).val
  omega

/-- An entry of the row is in point `t`'s block iff each coordinate is in the block's range. -/
theorem mem_blk1 (t : Fin cfg1.N) (i : S1x4194304.Idx) :
    i ∈ ((cfg1.win 4).blk t).view.set ↔ ∀ a : Fin 2, win1_4.index t a * S1x8192.size a ≤ (i a).val
      ∧ (i a).val < win1_4.index t a * S1x8192.size a + S1x8192.size a := by
  show i ∈ ((View.whole main_v21).slice (win1_4.rect t)).set ↔ _
  rw [View.set_slice_whole, Rect.mem_set_unit]
  exact Iff.rfl

/-- Every entry of the row is in the block of the point `i / 8192`. -/
theorem covered1 (i : S1x4194304.Idx) :
    ∃ t : Fin cfg1.N, (cfg1.win 4).flush t = true ∧ i ∈ ((cfg1.win 4).blk t).view.set := by
  have h0 : (i 0).val < 1 := (i 0).isLt
  have h1 : (i 1).val < 4194304 := (i 1).isLt
  have ht : (i 1).val / 8192 < 512 := by omega
  obtain ⟨-, -, -, -, -, -, -, -, e0, e1⟩ := index_facts1 ⟨(i 1).val / 8192, ht⟩
  refine ⟨⟨(i 1).val / 8192, ht⟩, flush1_4 _, ?_⟩
  rw [mem_blk1]
  intro a
  match a with
  | ⟨0, _⟩ =>
    show win1_4.index ⟨(i 1).val / 8192, ht⟩ (0 : Fin 2) * 1 ≤ (i 0).val
      ∧ (i 0).val < win1_4.index ⟨(i 1).val / 8192, ht⟩ (0 : Fin 2) * 1 + 1
    rw [e0]; omega
  | ⟨1, _⟩ =>
    show win1_4.index ⟨(i 1).val / 8192, ht⟩ (1 : Fin 2) * 8192 ≤ (i 1).val
      ∧ (i 1).val < win1_4.index ⟨(i 1).val / 8192, ht⟩ (1 : Fin 2) * 8192 + 8192
    rw [e1]
    show (i 1).val / 8192 * 8192 ≤ (i 1).val ∧ (i 1).val < (i 1).val / 8192 * 8192 + 8192
    omega

/-- The output array after the run is the output row. -/
theorem final1 (c : Dev nD) : (dat1 V c).arrAt 4 cfg1.N = convRow V c :=
  (dat1 V c).arrAt_eq_of_cover 4 (convRow V c) (fun t _ => flushed1_eq V c t) covered1

end Blocks

/-- Region 1's output row after the run, entry by entry. -/
theorem conv_arr (V : (c : Dev nD) → (b : Ref sig .tc) → Buf (Elt Ideal) ((c : Thread nD τ).loc b)) (c : Dev nD)
    (i : ℕ) (hi : i < 4194304) :
    seq2 ((dat1 (F := Ideal) V c).arrAt 4 cfg1.N) i
      = (∑ k ∈ Finset.range 31, seq2 (V c main_v17) (i + k) * seq2 (V c main_v19) k) * seq2 (V c main_v20) i := by
  rw [final1 V c]
  exact seq2_of_lt (n := 4194304) (convRow V c) ⟨i, hi⟩

end Cert.KernelIdeal.Hand

end
-- ==== Proof.KernelIdeal.HostScatter.lean ====
/-
  The kernel side's scatter-add, read at an index: adding each centre's update into a zero row at the centre's position
  leaves, at position `j`, the sum of the updates of the centres sitting at `j` — every centre lands inside the row when
  the centres are in range.
-/
import proofs.«419612_j53841710022881_3_alg».proof.Proof.Gen.KernelIdeal
import proofs.«419612_j53841710022881_3_alg».proof.Proof.Bridge
import Idealize.ShloMosaic.Lib.Pipeline.Value
import Idealize.ShloMosaic.PureOps.Ideal.Laws

noncomputable section

namespace Cert.KernelIdeal.Hand

open Cert.KernelIdeal.Gen Cert.Bridge
open Idealize.ShloMosaic Idealize.ShloMosaic.TcCoe Idealize.ShloMosaic.ValueIdx

/-! ### The scatter-add and a rank-1 index set, for any shapes -/

/-- At the ideal instance the host's scatter-add is the exact one. -/
theorem scatterAdd_eq {s si su : Shape} {φ : FTy} {w : Nat} (d : ScatterDims s si su) (x : FVec Ideal s φ)
    (idx : IVec si w) (upd : FVec Ideal su φ) :
    Host.scatterAdd (F := Ideal) d x idx upd = Ideal.hostScatterAdd d x idx upd := rfl

/-- The ideal scatter-add read at an index: the operand's entry plus every update that lands there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j, if d.resultIdx? j idx = some i then upd j else 0 := by
  unfold Ideal.hostScatterAdd
  rw [Finset.sum_filter]

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ### Where centre `c`'s update lands -/

/-- The index array at `(c, 0)` is the centre's word. -/
theorem idx_at (x3 : IVec S1048576 32) (c : Fin 1048576) (z : Fin 1) :
    (broadcastInDim S1048576x1 ![0] bcast_S1048576_S1048576x1_0 x3) (ix2 c z) = x3 (ix1 c) := by
  refine broadcastInDim_apply _ bcast_S1048576_S1048576x1_0 x3 (ix2 c z) (ix1 c) (fun a => ?_)
  match a with
  | ⟨0, _⟩ =>
    show c.val = if (1048576 : Nat) = 1 then 0 else c.val
    rw [if_neg (by decide)]

/-- The start of centre `c`'s update: its word read signed. -/
theorem start_at (x3 : IVec S1048576 32) (c : Fin 1048576) (a : Fin 1) :
    scatter_S4194304_S1048576x1_S1048576_n_0_0_1.start (ix1 c) (broadcastInDim S1048576x1 ![0] bcast_S1048576_S1048576x1_0 x3) a = (x3 (ix1 c)).toInt := by
  obtain rfl : a = 0 := Subsingleton.elim _ _
  unfold ScatterDims.start
  rw [dif_pos (show (0 : Fin 1) ∈ scatter_S4194304_S1048576x1_S1048576_n_0_0_1.scatterDimsToOperandDims from List.mem_singleton.mpr rfl)]
  have hsi : scatter_S4194304_S1048576x1_S1048576_n_0_0_1.siIdx (ix1 c)
      ⟨List.idxOf (0 : Fin 1) scatter_S4194304_S1048576x1_S1048576_n_0_0_1.scatterDimsToOperandDims,
        List.idxOf_lt_length_iff.2 (List.mem_singleton.mpr rfl)⟩ = ix2 c (0 : Fin 1) := by
    funext b; refine Fin.ext ?_
    match b with
    | ⟨0, _⟩ => rfl
    | ⟨1, _⟩ => rfl
  rw [hsi, idx_at]

/-- There is no window coordinate: the row's one axis is an inserted one. -/
theorem window_at (c : Fin 1048576) (a : Fin 1) : scatter_S4194304_S1048576x1_S1048576_n_0_0_1.window (ix1 c) a = 0 := by
  obtain rfl : a = 0 := Subsingleton.elim _ _
  unfold ScatterDims.window
  rw [dif_neg (by decide)]

/-- The row's one extent. -/
theorem size_row (a : Fin 1) : S4194304.size a = 4194304 := by
  obtain rfl : a = 0 := Subsingleton.elim _ _
  rfl

/-- Centre `c`'s update lands on `i'` exactly when the centre sits at `i'`: a centre in range is inside the row. -/
theorem lands_iff (x3 : IVec S1048576 32) (h3 : InRange x3) (c : Fin 1048576) (i' : S4194304.Idx) :
    scatter_S4194304_S1048576x1_S1048576_n_0_0_1.resultIdx? (ix1 c) (broadcastInDim S1048576x1 ![0] bcast_S1048576_S1048576x1_0 x3) = some i' ↔ nseq x3 c.val = (i' 0).val := by
  have h0 := (h3 c).1
  have h1 := (h3 c).2
  have hn := toNat_of_inRange x3 h3 c
  have hns := nseq_of_lt x3 c
  have hall : ∀ a : Fin S4194304.rank,
      0 ≤ scatter_S4194304_S1048576x1_S1048576_n_0_0_1.start (ix1 c) (broadcastInDim S1048576x1 ![0] bcast_S1048576_S1048576x1_0 x3) a + scatter_S4194304_S1048576x1_S1048576_n_0_0_1.window (ix1 c) a
      ∧ scatter_S4194304_S1048576x1_S1048576_n_0_0_1.start (ix1 c) (broadcastInDim S1048576x1 ![0] bcast_S1048576_S1048576x1_0 x3) a + scatter_S4194304_S1048576x1_S1048576_n_0_0_1.window (ix1 c) a < S4194304.size a := by
    intro a
    rw [start_at x3 c a, window_at c a, size_row a]
    omega
  unfold ScatterDims.resultIdx?
  rw [dif_pos hall, Option.some_inj]
  constructor
  · intro h
    have h' : ((scatter_S4194304_S1048576x1_S1048576_n_0_0_1.start (ix1 c) (broadcastInDim S1048576x1 ![0] bcast_S1048576_S1048576x1_0 x3) 0 + scatter_S4194304_S1048576x1_S1048576_n_0_0_1.window (ix1 c) 0).toNat) = (i' 0).val :=
      congrArg (fun f : S4194304.Idx => (f 0).val) h
    rw [start_at x3 c 0, window_at c 0] at h'
    omega
  · intro h
    funext a
    obtain rfl : a = 0 := Subsingleton.elim _ _
    refine Fin.ext ?_
    show (scatter_S4194304_S1048576x1_S1048576_n_0_0_1.start (ix1 c) (broadcastInDim S1048576x1 ![0] bcast_S1048576_S1048576x1_0 x3) 0 + scatter_S4194304_S1048576x1_S1048576_n_0_0_1.window (ix1 c) 0).toNat = (i' 0).val
    rw [start_at x3 c 0, window_at c 0]
    omega

/-- The segment sums: the scatter-add of the updates `upd` at the centres `x3` into a zero row, at position `j`. -/
theorem scatter_at (x3 : IVec S1048576 32) (h3 : InRange x3) (upd : FVec Ideal S1048576 .f32) (j : Fin 4194304) :
    Host.scatterAdd (F := Ideal) scatter_S4194304_S1048576x1_S1048576_n_0_0_1
        (broadcastInDim S4194304 ![] bcast_S_S4194304 (constant (F := Ideal) S_ .f32 0x00000000#32))
        (broadcastInDim S1048576x1 ![0] bcast_S1048576_S1048576x1_0 x3) upd (ix1 j)
      = ∑ c ∈ Finset.range 1048576, if nseq x3 c = j.val then seq upd c else 0 := by
  have hz : broadcastInDim S4194304 ![] bcast_S_S4194304 (constant (F := Ideal) S_ .f32 0x00000000#32) (ix1 j) = 0 := by
    show Ideal.ofBits .f32 0x00000000#32 = 0
    exact Ideal.ofBits_zero_f32
  rw [scatterAdd_eq, hostScatterAdd_apply, hz, zero_add, sum_idx1, Finset.sum_range]
  refine Finset.sum_congr rfl fun c _ => ?_
  rw [seq_of_lt upd c]
  refine if_congr ?_ rfl rfl
  exact lands_iff x3 h3 c (ix1 j)

end Cert.KernelIdeal.Hand

end
-- ==== Proof.KernelIdeal.Host.lean ====
/-
  The host operations around the two regions, read at an index at the ideal instance.  Given what the regions leave in
  their output rows (`h0`, `h1`) and the centres in range, the program's result at position `i` is the specification's
  `outK`: the padded sequence row is `pad15` of the sequence; region 0's row is then `corr`; the gather reads it at each
  centre (in range: no wrap-around, no clamping), the division gives `quot`, the scatter-add into zeros gives `seg` (every
  centre lands inside); its padded row is `pad15 seg`; the reversed weights are `p (30 - k)`; region 1's row is `outK`.
-/
import proofs.«419612_j53841710022881_3_alg».proof.Proof.Gen.KernelIdeal.Regions
import proofs.«419612_j53841710022881_3_alg».proof.Proof.Bridge
import proofs.«419612_j53841710022881_3_alg».proof.Proof.KernelIdeal.HostScatter
import Idealize.ShloMosaic.Lib.Pipeline.Value
import Idealize.ShloMosaic.Lib.ValueLayout
import Idealize.ShloMosaic.Lib.KernelVsHost
import Idealize.ShloMosaic.Lib.StableHlo.Run
import Idealize.ShloMosaic.Lib.StableHlo.Predicate
import Idealize.ShloMosaic.PureOps.Ideal.Laws

set_option maxRecDepth 16384

noncomputable section

namespace Cert.KernelIdeal.Hand

open Cert.KernelIdeal.Gen Cert.Bridge
open Idealize.ShloMosaic Idealize.ShloMosaic.TcCoe Idealize.ShloMosaic.ValueIdx
open Idealize.SL Idealize.SL.Sem
open Idealize.ShloMosaic.Pipeline (Dat)

/-! ## The layout operations, read at an index -/

/-- The scalar both paddings fill with: the integer zero, converted. -/
abbrev zeroS : S_.Idx → EReal := sitofp (F := Ideal) .f32 (constantI S_ 32 0#32)

theorem zeroS_apply (i : S_.Idx) : zeroS i = 0 := by
  show (((0#32 : BitVec 32).toInt : ℝ) : EReal) = 0
  simp

/-- A sequence padded with 15 zeros in front and 113 behind, as a row: `pad15` of the sequence. -/
theorem padRow_read (x : S4194304.Idx → EReal) (q : ℕ) :
    seq2 (shapeCast S1x4194432 (pad S4194432 ![15] ![113] ![0] x zeroS pads_S4194304_S4194432_151130 h_S_)
        shapeCasts_S4194432_S1x4194432) q
      = Cert.Spec.pad15 (seq x) q := by
  unfold seq2 Cert.Spec.pad15
  split
  · rename_i hq
    refine (shapeCast_apply _ _ (ix2 0 ⟨q, hq⟩) (ix1 ⟨q, hq⟩) ?_).trans ?_
    · rw [Shape.rowMajor_val_one, Shape.rowMajor_val_two]
      show q = 0 * 4194432 + q
      omega
    · by_cases h : 15 ≤ q ∧ q < Cert.Spec.L + 15
      · rw [if_pos h]
        have hlt : q - 15 < 4194304 := by unfold Cert.Spec.L at h; omega
        refine (pad_apply_of_inside _ _ _ _ _ _ _ (ix1 ⟨q, hq⟩) (ix1 ⟨q - 15, hlt⟩) ?_).trans ?_
        · intro a
          match a with
          | ⟨0, _⟩ =>
            show q = 15 + (q - 15) * (0 + 1)
            omega
        · exact (seq_of_lt x ⟨q - 15, hlt⟩).symm
      · rw [if_neg h]
        refine (pad_apply_of_not_inside _ _ _ _ _ _ _ (ix1 ⟨q, hq⟩) 0 ?_).trans (zeroS_apply _)
        show ¬ (15 ≤ q ∧ (q - 15) % (0 + 1) = 0 ∧ (q - 15) / (0 + 1) < 4194304)
        unfold Cert.Spec.L at h
        omega
  · rename_i hq
    rw [if_neg]
    unfold Cert.Spec.L
    omega

/-- A sequence laid out as a one-row matrix reads the sequence. -/
theorem row_read {n : ℕ} (x : (⟨1, ![n]⟩ : Shape).Idx → EReal) (h : (⟨1, ![n]⟩ : Shape).ShapeCasts ⟨2, ![1, n]⟩) (q : ℕ) :
    seq2 (shapeCast ⟨2, ![1, n]⟩ x h) q = seq x q := by
  unfold seq2 seq
  split
  · rename_i hq
    refine shapeCast_apply _ _ (ix2 0 ⟨q, hq⟩) (ix1 ⟨q, hq⟩) ?_
    rw [Shape.rowMajor_val_one, Shape.rowMajor_val_two]
    show q = 0 * n + q
    omega
  · rfl

/-- A one-row matrix laid out as a sequence reads the row. -/
theorem unrow_apply {n : ℕ} (x : (⟨2, ![1, n]⟩ : Shape).Idx → EReal) (h : (⟨2, ![1, n]⟩ : Shape).ShapeCasts ⟨1, ![n]⟩)
    (i : Fin n) : shapeCast ⟨1, ![n]⟩ x h (ix1 i) = seq2 x i.val := by
  rw [seq2_of_lt]
  refine shapeCast_apply _ _ (ix1 i) (ix2 0 i) ?_
  rw [Shape.rowMajor_val_one, Shape.rowMajor_val_two]
  show 0 * n + i.val = i.val
  omega

/-- The same, as sequences. -/
theorem unrow_read {n : ℕ} (x : (⟨2, ![1, n]⟩ : Shape).Idx → EReal) (h : (⟨2, ![1, n]⟩ : Shape).ShapeCasts ⟨1, ![n]⟩)
    (q : ℕ) : seq (shapeCast ⟨1, ![n]⟩ x h) q = seq2 x q := by
  by_cases hq : q < n
  · rw [seq_of_lt _ ⟨q, hq⟩]
    exact unrow_apply x h ⟨q, hq⟩
  · unfold seq seq2
    rw [dif_neg hq, dif_neg hq]

/-- The reversed weights: entry `k` is entry `30 - k`. -/
theorem reverse_read (x : S31.Idx → EReal) (k : ℕ) (hk : k < 31) : seq (Host.reverse [0] x) k = seq x (30 - k) := by
  have hk' : 30 - k < 31 := by omega
  rw [seq_of_lt _ ⟨k, hk⟩, seq_of_lt x ⟨30 - k, hk'⟩]
  unfold Host.reverse
  refine congrArg x (funext fun a => ?_)
  have ha : a = (0 : Fin 1) := Subsingleton.elim _ _
  subst ha
  rw [if_pos (List.mem_singleton.mpr rfl)]
  refine Fin.ext ?_
  show 31 - (k + 1) = 30 - k
  omega

/-! ## The buffers before region 0 -/

section Buffers

variable (m : (ℓ : Loc nD τ sig) → Buf (Elt Ideal) ℓ) (outs : Outs (F := Ideal)) (c : Dev nD)

/-- Region 0's weights row, as the operations make it. -/
theorem v2_eq : (V3 m c main_v2 : S1x31.Idx → EReal)
    = shapeCast S1x31 (V2 m c main_arg0) shapeCasts_S31_S1x31 := by
  show StableHlo.after hostOps0_2 (V2 m c) (Proc.devRef .tc main_v2) = _
  generalize V2 m c = W
  after_results
  rfl

/-- Region 0's padded row is the padded array, as a row. -/
theorem v1_eq : (V3 m c main_v1 : S1x4194432.Idx → EReal)
    = shapeCast S1x4194432 (V2 m c main_v0) shapeCasts_S4194432_S1x4194432 := by
  show StableHlo.after hostOps0_2 (V2 m c) (Proc.devRef .tc main_v1) = _
  generalize V2 m c = W
  after_results
  rfl

/-- The padded array: the sequence padded with the converted zero constant. -/
theorem v0_eq : (V2 m c main_v0 : S4194432.Idx → EReal)
    = pad S4194432 ![15] ![113] ![0] (V1 m c main_arg1) (sitofp (F := Ideal) .f32 (V1 m c main_c))
        pads_S4194304_S4194432_151130 h_S_ := by
  show StableHlo.after hostOps0_1 (V1 m c) (Proc.devRef .tc main_v0) = _
  generalize V1 m c = W
  after_results
  rfl

/-- The zero constant. -/
theorem c_eq : (V1 m c main_c : S_.Idx → BitVec 32)
    = constantI S_ 32 0#32 := by
  show StableHlo.after hostOps0 (V0 m c) (Proc.devRef .tc main_c) = _
  generalize V0 m c = W
  after_results

end Buffers

/-! ## The index words, the gather and the scatter-add, read at an index -/

/-- A select on "the word is negative" keeps a word that is not. -/
theorem wrap_keep (a p : BitVec 32) (h : 0 ≤ a.toInt) : Scalar.select (IntOp.cmpi .slt a 0#32) p a = a := by
  have hlt : a.slt 0#32 = false := by
    simp only [BitVec.slt, BitVec.toInt_zero, decide_eq_false_iff_not, not_lt]
    exact h
  show (if BitVec.ofBool (a.slt 0#32) = 1 then p else a) = a
  rw [hlt]
  exact if_neg (by decide)

/-- The centres with the negative ones moved up by the sequence length. -/
abbrev wrapIdx (a3 : IVec S1048576 32) : IVec S1048576 32 :=
  select (cmpi .slt a3 (broadcastInDim S1048576 ![] bcast_S_S1048576 (constantI S_ 32 0#32)))
    (addi a3 (broadcastInDim S1048576 ![] bcast_S_S1048576 (constantI S_ 32 4194304#32))) a3

/-- In range no centre is negative: nothing moves. -/
theorem wrapIdx_apply (a3 : IVec S1048576 32) (h3 : InRange a3) (c' : Fin 1048576) :
    wrapIdx a3 (ix1 c') = a3 (ix1 c') := by
  show Scalar.select (IntOp.cmpi .slt (a3 (ix1 c')) 0#32) (IntOp.addi (a3 (ix1 c')) 4194304#32) (a3 (ix1 c')) = a3 (ix1 c')
  exact wrap_keep _ _ (h3 c').1

/-- The rank-1 index at a coordinate, in its two spellings. -/
theorem ofFin_eq_ix1 {n : ℕ} (p : Fin n) : (Shape.Idx.ofFin p : (⟨1, ![n]⟩ : Shape).Idx) = ix1 p := by
  funext a
  have ha : a = (0 : Fin 1) := Subsingleton.elim _ _
  subst ha
  exact Fin.ext rfl

/-- A column of words read at a row: the word of that row. -/
theorem col_apply (v : IVec S1048576 32) (c' : Fin 1048576) :
    broadcastInDim S1048576x1 ![0] bcast_S1048576_S1048576x1_0 v (StableHlo.Predicate.ixP c') = v (ix1 c') := by
  rw [StableHlo.Predicate.bcast_col1, ofFin_eq_ix1]

/-- The gather at centre `c'`: the row at the centre's position (in range: read where told, no clamping). -/
theorem gather_read (row : S4194304.Idx → EReal) (a3 : IVec S1048576 32) (h3 : InRange a3) (c' : Fin 1048576) :
    Host.gather gather_S4194304_S1048576x1_S1048576_n_0_n_n_0_1_1 row
        (broadcastInDim S1048576x1 ![0] bcast_S1048576_S1048576x1_0 (wrapIdx a3)) (ix1 c')
      = seq row (nseq a3 c'.val) := by
  have hg := StableHlo.Predicate.gather_take gather_S4194304_S1048576x1_S1048576_n_0_n_n_0_1_1 rfl rfl rfl rfl row
    (broadcastInDim S1048576x1 ![0] bcast_S1048576_S1048576x1_0 (wrapIdx a3)) c' (by omega)
  rw [ofFin_eq_ix1, ofFin_eq_ix1] at hg
  rw [hg]
  have hn : nseq a3 c'.val < 4194304 := nseq_lt a3 h3 c'.val c'.isLt
  rw [seq_of_lt row ⟨nseq a3 c'.val, hn⟩]
  refine congrArg row (congrArg ix1 (Fin.ext ?_))
  show min (broadcastInDim S1048576x1 ![0] bcast_S1048576_S1048576x1_0 (wrapIdx a3) (StableHlo.Predicate.ixP c')).toInt.toNat
    (4194304 - 1) = nseq a3 c'.val
  rw [col_apply, wrapIdx_apply a3 h3, nseq_of_lt a3 c', ← toNat_of_inRange a3 h3 c', Int.toNat_natCast]
  have h1 := (h3 c').2
  have e := toNat_of_inRange a3 h3 c'
  omega

/-- The quotients, scattered: the operations from region 0's row to the segment sums, over any inputs. -/
abbrev segArr (a2 : S1048576.Idx → EReal) (row : S4194304.Idx → EReal) (a3 : IVec S1048576 32) : S4194304.Idx → EReal :=
  Host.scatterAdd scatter_S4194304_S1048576x1_S1048576_n_0_0_1
    (broadcastInDim S4194304 ![] bcast_S_S4194304 (constant (F := Ideal) S_ .f32 0x00000000#32))
    (broadcastInDim S1048576x1 ![0] bcast_S1048576_S1048576x1_0 a3)
    (Host.divf a2 (Host.gather gather_S4194304_S1048576x1_S1048576_n_0_n_n_0_1_1 row
      (broadcastInDim S1048576x1 ![0] bcast_S1048576_S1048576x1_0 (wrapIdx a3))))

/-- At position `j`: each centre sitting at `j` contributes its weight over the row's entry at its position. -/
theorem segArr_read (a2 : S1048576.Idx → EReal) (row : S4194304.Idx → EReal) (a3 : IVec S1048576 32) (h3 : InRange a3)
    (j : Fin 4194304) :
    segArr a2 row a3 (ix1 j)
      = ∑ c' ∈ Finset.range 1048576, if nseq a3 c' = j.val then Ideal.div (seq a2 c') (seq row (nseq a3 c')) else 0 := by
  unfold segArr
  rw [scatter_at a3 h3 _ j]
  refine Finset.sum_congr rfl fun c' hc => ?_
  have hc' : c' < 1048576 := Finset.mem_range.mp hc
  refine if_congr Iff.rfl ?_ rfl
  rw [seq_of_lt _ ⟨c', hc'⟩, seq_of_lt a2 ⟨c', hc'⟩]
  show Ideal.div (a2 (ix1 ⟨c', hc'⟩)) (Host.gather gather_S4194304_S1048576x1_S1048576_n_0_n_n_0_1_1 row
      (broadcastInDim S1048576x1 ![0] bcast_S1048576_S1048576x1_0 (wrapIdx a3)) (ix1 ⟨c', hc'⟩)) = _
  rw [gather_read row a3 h3 ⟨c', hc'⟩]

/-! ## The buffers, item by item -/

section Items

variable (m : (ℓ : Loc nD τ sig) → Buf (Elt Ideal) ℓ) (outs : Outs (F := Ideal)) (c : Dev nD)

/-! ### The arguments reach every item as launched -/

theorem V1_arg1 : V1 m c main_arg1 = m ((c : Thread nD τ).loc main_arg1) :=
  (V1_of m c main_arg1 (by decide)).trans rfl
theorem V2_arg0 : V2 m c main_arg0 = m ((c : Thread nD τ).loc main_arg0) :=
  (V2_of m c main_arg0 (by decide)).trans <| (V1_of m c main_arg0 (by decide)).trans rfl
theorem V4_arg2 : V4 m outs c main_arg2 = m ((c : Thread nD τ).loc main_arg2) :=
  (V4_of m outs c main_arg2 (by decide)).trans <| (V3_of m c main_arg2 (by decide)).trans <|
    (V2_of m c main_arg2 (by decide)).trans <| (V1_of m c main_arg2 (by decide)).trans rfl
theorem V4_arg3 : V4 m outs c main_arg3 = m ((c : Thread nD τ).loc main_arg3) :=
  (V4_of m outs c main_arg3 (by decide)).trans <| (V3_of m c main_arg3 (by decide)).trans <|
    (V2_of m c main_arg3 (by decide)).trans <| (V1_of m c main_arg3 (by decide)).trans rfl
theorem V6_arg0 : V6 m outs c main_arg0 = m ((c : Thread nD τ).loc main_arg0) :=
  (V6_of m outs c main_arg0 (by decide)).trans <| (V5_of m outs c main_arg0 (by decide)).trans <|
    (V4_of m outs c main_arg0 (by decide)).trans <| (V3_of m c main_arg0 (by decide)).trans <|
    (V2_of m c main_arg0 (by decide)).trans <| (V1_of m c main_arg0 (by decide)).trans rfl
theorem V6_arg1 : V6 m outs c main_arg1 = m ((c : Thread nD τ).loc main_arg1) :=
  (V6_of m outs c main_arg1 (by decide)).trans <| (V5_of m outs c main_arg1 (by decide)).trans <|
    (V4_of m outs c main_arg1 (by decide)).trans <| (V3_of m c main_arg1 (by decide)).trans <|
    (V2_of m c main_arg1 (by decide)).trans <| (V1_of m c main_arg1 (by decide)).trans rfl
/-- Region 0's output row holds what region 0 leaves. -/
theorem V4_v3 : V4 m outs c main_v3 = outs 4 main_v3 c := Function.update_self _ _ _
/-- Region 1's output row holds what region 1 leaves. -/
theorem V8_v21 : V8 m outs c main_v21 = outs 8 main_v21 c := Function.update_self _ _ _

/-! ### Region 0's inputs -/

/-- The padded sequence row. -/
theorem v1_read (q : ℕ) :
    seq2 (V3 m c main_v1) q = Cert.Spec.pad15 (seq (m ((c : Thread nD τ).loc main_arg1))) q := by
  rw [v1_eq, v0_eq, c_eq, V1_arg1]
  exact padRow_read _ q

/-- The weights row. -/
theorem v2_read (k : ℕ) : seq2 (V3 m c main_v2) k = seq (m ((c : Thread nD τ).loc main_arg0)) k := by
  rw [v2_eq, V2_arg0]
  exact row_read _ _ k

end Items

section Items2

variable (m : (ℓ : Loc nD τ sig) → Buf (Elt Ideal) ℓ) (outs : Outs (F := Ideal)) (c : Dev nD)

/-! ### Between the regions -/

/-- The scattered quotients, as the operations between the regions make them from region 0's row. -/
theorem v15_eq : (V5 m outs c main_v15 : S4194304.Idx → EReal)
    = segArr (V4 m outs c main_arg2)
        (shapeCast S4194304 (V4 m outs c main_v3) shapeCasts_S1x4194304_S4194304) (V4 m outs c main_arg3) := by
  show StableHlo.after hostOps1 (V4 m outs c) (Proc.devRef .tc main_v15) = _
  generalize V4 m outs c = W
  after_results
  rfl

/-- The stretch's last constant. -/
theorem c2_eq : (V5 m outs c main_c_2 : S_.Idx → BitVec 32)
    = constantI S_ 32 0#32 := by
  show StableHlo.after hostOps1 (V4 m outs c) (Proc.devRef .tc main_c_2) = _
  generalize V4 m outs c = W
  after_results

/-- The padded array of scattered quotients. -/
theorem v16_eq : (V6 m outs c main_v16 : S4194432.Idx → EReal)
    = pad S4194432 ![15] ![113] ![0] (V5 m outs c main_v15) (sitofp (F := Ideal) .f32 (V5 m outs c main_c_2))
        pads_S4194304_S4194432_151130 h_S_ := by
  show StableHlo.after hostOps1_1 (V5 m outs c) (Proc.devRef .tc main_v16) = _
  generalize V5 m outs c = W
  after_results
  rfl

/-! ### Region 1's inputs -/

/-- The padded row. -/
theorem v17_eq : (V7 m outs c main_v17 : S1x4194432.Idx → EReal)
    = shapeCast S1x4194432 (V6 m outs c main_v16) shapeCasts_S4194432_S1x4194432 := by
  show StableHlo.after hostOps1_2 (V6 m outs c) (Proc.devRef .tc main_v17) = _
  generalize V6 m outs c = W
  after_results
  rfl

/-- The reversed weights, as a row. -/
theorem v19_eq : (V7 m outs c main_v19 : S1x31.Idx → EReal)
    = shapeCast S1x31 (Host.reverse [0] (V6 m outs c main_arg0)) shapeCasts_S31_S1x31 := by
  show StableHlo.after hostOps1_2 (V6 m outs c) (Proc.devRef .tc main_v19) = _
  generalize V6 m outs c = W
  after_results
  rfl

/-- The sequence, as a row. -/
theorem v20_eq : (V7 m outs c main_v20 : S1x4194304.Idx → EReal)
    = shapeCast S1x4194304 (V6 m outs c main_arg1) shapeCasts_S4194304_S1x4194304 := by
  show StableHlo.after hostOps1_2 (V6 m outs c) (Proc.devRef .tc main_v20) = _
  generalize V6 m outs c = W
  after_results
  rfl

/-! ### After region 1 -/

/-- The result: region 1's row, as a sequence. -/
theorem v22_eq : (V9 m outs c main_v22 : S4194304.Idx → EReal)
    = shapeCast S4194304 (V8 m outs c main_v21) shapeCasts_S1x4194304_S4194304 := by
  show StableHlo.after hostOps2 (V8 m outs c) (Proc.devRef .tc main_v22) = _
  generalize V8 m outs c = W
  after_results
  rfl

end Items2

/-! ## The specification's quantities, buffer by buffer -/

section Reads

variable (m : (ℓ : Loc nD τ sig) → Buf (Elt Ideal) ℓ) (outs : Outs (F := Ideal)) (c : Dev nD)
variable (h0 : ∀ i, i < 4194304 → seq2 (outs 4 main_v3 c) i
      = ∑ k ∈ Finset.range 31, seq2 (V3 m c main_v1) (i + k) * seq2 (V3 m c main_v2) k)
variable (h3 : InRange (m ((c : Thread nD τ).loc main_arg3)))

include h0 in
/-- Region 0's row, as a sequence: the window sums. -/
theorem corr_read (j : ℕ) (hj : j < 4194304) :
    seq (shapeCast S4194304 (V4 m outs c main_v3) shapeCasts_S1x4194304_S4194304) j
      = Cert.Spec.corr (seq (m ((c : Thread nD τ).loc main_arg0))) (seq (m ((c : Thread nD τ).loc main_arg1))) j := by
  rw [unrow_read, V4_v3, h0 j hj]
  unfold Cert.Spec.corr
  refine Finset.sum_congr rfl fun k _ => ?_
  rw [v1_read, v2_read]

include h0 h3 in
/-- The scattered quotients: the segment sums. -/
theorem v15_read (j : ℕ) (hj : j < 4194304) :
    seq (V5 m outs c main_v15) j
      = Cert.Spec.seg (seq (m ((c : Thread nD τ).loc main_arg0))) (seq (m ((c : Thread nD τ).loc main_arg1)))
          (seq (m ((c : Thread nD τ).loc main_arg2))) (nseq (m ((c : Thread nD τ).loc main_arg3))) j := by
  rw [seq_of_lt _ ⟨j, hj⟩, v15_eq, V4_arg2, V4_arg3, segArr_read _ _ _ h3 ⟨j, hj⟩]
  unfold Cert.Spec.seg Cert.Spec.quot
  refine Finset.sum_congr rfl fun c' hc => ?_
  have hc' : c' < 1048576 := Finset.mem_range.mp hc
  refine if_congr Iff.rfl ?_ rfl
  rw [corr_read m outs c h0 _ (nseq_lt _ h3 c' hc')]

include h0 h3 in
/-- Region 1's padded row. -/
theorem v17_read (q : ℕ) :
    seq2 (V7 m outs c main_v17) q
      = Cert.Spec.pad15 (Cert.Spec.seg (seq (m ((c : Thread nD τ).loc main_arg0))) (seq (m ((c : Thread nD τ).loc main_arg1)))
          (seq (m ((c : Thread nD τ).loc main_arg2))) (nseq (m ((c : Thread nD τ).loc main_arg3)))) q := by
  rw [v17_eq, v16_eq, c2_eq]
  refine (padRow_read _ q).trans ?_
  unfold Cert.Spec.pad15
  split
  · rename_i h
    have hlt : q - 15 < 4194304 := by unfold Cert.Spec.L at h; omega
    exact v15_read m outs c h0 h3 (q - 15) hlt
  · rfl

/-- Region 1's weights row: the weights reversed. -/
theorem v19_read (k : ℕ) (hk : k < 31) :
    seq2 (V7 m outs c main_v19) k = seq (m ((c : Thread nD τ).loc main_arg0)) (30 - k) := by
  rw [v19_eq, V6_arg0, row_read, reverse_read _ k hk]

/-- Region 1's sequence row. -/
theorem v20_read (q : ℕ) : seq2 (V7 m outs c main_v20) q = seq (m ((c : Thread nD τ).loc main_arg1)) q := by
  rw [v20_eq, V6_arg1, row_read]

end Reads

/-- The program's result, entry by entry, from what the two regions leave. -/
theorem host_out (m : (ℓ : Loc nD τ sig) → Buf (Elt Ideal) ℓ) (outs : Outs (F := Ideal)) (c : Dev nD)
    (h0 : ∀ i, i < 4194304 → seq2 (outs 4 main_v3 c) i
      = ∑ k ∈ Finset.range 31, seq2 (V3 m c main_v1) (i + k) * seq2 (V3 m c main_v2) k)
    (h1 : ∀ i, i < 4194304 → seq2 (outs 8 main_v21 c) i
      = (∑ k ∈ Finset.range 31, seq2 (V7 m outs c main_v17) (i + k) * seq2 (V7 m outs c main_v19) k) * seq2 (V7 m outs c main_v20) i)
    (h3 : InRange (m ((c : Thread nD τ).loc main_arg3)))
    (i : Fin 4194304) :
    V9 m outs c main_v22 (ix1 i)
      = Cert.Spec.outK (seq (m ((c : Thread nD τ).loc main_arg0))) (seq (m ((c : Thread nD τ).loc main_arg1)))
          (seq (m ((c : Thread nD τ).loc main_arg2))) (nseq (m ((c : Thread nD τ).loc main_arg3))) i.val := by
  show @Eq EReal _ _
  rw [v22_eq, unrow_apply, V8_v21, h1 i.val i.isLt]
  unfold Cert.Spec.outK
  refine congrArg₂ (· * ·) (Finset.sum_congr rfl fun k hk => ?_) (v20_read m outs c i.val)
  rw [v17_read m outs c h0 h3, v19_read m outs c k (Finset.mem_range.mp hk)]

end Cert.KernelIdeal.Hand

end
-- ==== Proof.RefValue.lean ====
/-
  The reference's result, read at an index: its window sum at a centre is the specification's `corr` at the centre's
  position, and its output at position `i` is the specification's `outR` — the scatter-add's sum over the (centre, tap)
  pairs whose padded position is `i + 15`, each pair's update the weighted window entry times the centre's quotient.
  Both need the centres in range: then no index is negative (the reference's wrap-around of negative indices does
  nothing), the gather reads where it is told (no clamping), and every update lands inside the padded array.
-/
import proofs.«419612_j53841710022881_3_alg».proof.Proof.Gen.ReferenceIdeal.Read
import proofs.«419612_j53841710022881_3_alg».proof.Proof.Bridge
import Idealize.ShloMosaic.Lib.KernelVsHost
import Idealize.ShloMosaic.Lib.WordArith

noncomputable section

namespace Cert.RefValue

open Idealize.ShloMosaic Idealize.ShloMosaic.ValueIdx Idealize.ShloMosaic.WordArith
open Cert.ReferenceIdeal Cert.ReferenceIdeal.Read Cert.Bridge

/-! ### The index words

At centre `c` and tap `k` the index word is the centre's word plus `k`. With the centre in `[0, 4194304)` and
`k ≤ 30` the sum does not overflow and is not negative, so the wrap-around of negative indices leaves it alone. -/

/-- The sum word at `(c, k)`: the centre's word plus the tap's number. -/
theorem v6_at (x3 : IVec S1048576 32) (c : Fin 1048576) (k : Fin 31) :
    val_main_v6 (F := Ideal) x3 (ix2 c k) = x3 (ix1 c) + BitVec.ofNat 32 k.val := by
  rw [val_main_v6_apply, val_main_v4_apply, val_main_v1_apply, val_main_v5_apply, val_main_v3_apply,
    val_main_v2_apply]
  have e : idx_main_v1 (idx_main_v4 (ix2 c k)) = ix1 c := by
    funext a; match a with | ⟨0, _⟩ => rfl
  rw [e]; rfl

/-- Read signed, that word is the centre's position plus `k`. -/
theorem v6_toInt (x3 : IVec S1048576 32) (h3 : InRange x3) (c : Fin 1048576) (k : Fin 31) :
    (val_main_v6 (F := Ideal) x3 (ix2 c k)).toInt = (((x3 (ix1 c)).toNat + k.val : ℕ) : Int) := by
  rw [v6_at]
  have hk : (BitVec.ofNat 32 k.val).toInt = (k.val : Int) :=
    toInt_ofNat_small k.val (by have := k.isLt; omega)
  have h0 := (h3 c).1
  have h1 := (h3 c).2
  have hn := toNat_of_inRange x3 h3 c
  have hkl := k.isLt
  rw [toInt_add_of_bounds _ _ (by rw [hk]; omega) (by rw [hk]; omega), hk]
  omega

/-- A select on "the word is negative" keeps a non-negative word. -/
theorem wrap_of_nonneg (a p : BitVec 32) (h : 0 ≤ a.toInt) :
    Scalar.select (IntOp.cmpi .slt a 0#32) p a = a := by
  have hlt : a.slt 0#32 = false := by
    simp only [BitVec.slt, BitVec.toInt_zero, decide_eq_false_iff_not, Int.not_lt]
    exact h
  show (if BitVec.ofBool (a.slt 0#32) = 1 then p else a) = a
  rw [hlt]
  exact if_neg (by decide)

/-- The gather's index word at `(c, k)` is the sum word. -/
theorem v11_at (x3 : IVec S1048576 32) (h3 : InRange x3) (c : Fin 1048576) (k : Fin 31) :
    val_main_v11 (F := Ideal) x3 (ix2 c k) = val_main_v6 (F := Ideal) x3 (ix2 c k) := by
  rw [val_main_v11_apply, val_main_v8_apply, val_main_v7_apply, val_main_c_0_apply]
  exact wrap_of_nonneg _ _ (by rw [v6_toInt x3 h3]; omega)

/-- The scatter's index word at `(c, k)` is the sum word. -/
theorem v27_at (x3 : IVec S1048576 32) (h3 : InRange x3) (c : Fin 1048576) (k : Fin 31) :
    val_main_v27 (F := Ideal) x3 (ix2 c k) = val_main_v6 (F := Ideal) x3 (ix2 c k) := by
  rw [val_main_v27_apply, val_main_v24_apply, val_main_v23_apply, val_main_c_3_apply]
  exact wrap_of_nonneg _ _ (by rw [v6_toInt x3 h3]; omega)

/-! ### The padded sequence -/

/-- The padded array at `q` is the specification's `pad15` of the sequence. -/
theorem v0_at (x1 : FVec Ideal S4194304 .f32) (q : ℕ) (hq : q < 4194334) :
    val_main_v0 (F := Ideal) x1 (ix1 ⟨q, hq⟩) = Cert.Spec.pad15 (seq x1) q := by
  unfold val_main_v0 Cert.Spec.pad15
  by_cases h : 15 ≤ q ∧ q < Cert.Spec.L + 15
  · rw [if_pos h]
    have hq' : q - 15 < 4194304 := by unfold Cert.Spec.L at h; omega
    rw [pad_apply_of_inside _ _ _ _ _ _ _ (ix1 ⟨q, hq⟩) (ix1 ⟨q - 15, hq'⟩) (fun a => by
      match a with
      | ⟨0, _⟩ => show q = 15 + (q - 15) * (0 + 1); omega)]
    exact (seq_of_lt x1 ⟨q - 15, hq'⟩).symm
  · rw [if_neg h]
    rw [pad_apply_of_not_inside _ _ _ _ _ _ _ (ix1 ⟨q, hq⟩) ⟨0, Nat.one_pos⟩ (by
      show ¬(15 ≤ q ∧ (q - 15) % (0 + 1) = 0 ∧ (q - 15) / (0 + 1) < 4194304)
      unfold Cert.Spec.L at h; omega)]
    show (((0#32 : BitVec 32).toInt : ℝ) : EReal) = 0
    simp

/-- The same, at an index given with its value. -/
theorem v0_at' (x1 : FVec Ideal S4194304 .f32) (i : Fin 4194334) (q : ℕ) (h : i.val = q) :
    val_main_v0 (F := Ideal) x1 (ix1 i) = Cert.Spec.pad15 (seq x1) q := by
  subst h; exact v0_at x1 i.val i.isLt

/-! ### The window -/

/-- The gathered entry at `(c, k)`: the padded sequence at the centre's position plus `k`. -/
theorem v13_at (x1 : FVec Ideal S4194304 .f32) (x3 : IVec S1048576 32) (h3 : InRange x3) (c : Fin 1048576) (k : Fin 31) :
    val_main_v13 (F := Ideal) x1 x3 (ix2 c k) = Cert.Spec.pad15 (seq x1) (nseq x3 c.val + k.val) := by
  unfold val_main_v13
  have hd : gather_S4194334_S1048576x31x1_S1048576x31_n_0_n_n_0_2_1
      = takeDims 4194334 1048576 31 Facts₀.gather_S4194334_S1048576x31x1_S1048576x31_n_0_n_n_0_2_1_wf := rfl
  rw [hd, gather_take_apply (by omega)]
  refine v0_at' x1 _ _ ?_
  have e12 : val_main_v12 (F := Ideal) x3 (takeIdx (ix2 c k)) = val_main_v6 (F := Ideal) x3 (ix2 c k) := by
    rw [val_main_v12_apply]
    have e : idx_main_v12 (takeIdx (ix2 c k)) = ix2 c k := by
      funext a; match a with | ⟨0, _⟩ => rfl | ⟨1, _⟩ => rfl
    rw [e, v11_at x3 h3]
  show min (val_main_v12 (F := Ideal) x3 (takeIdx (ix2 c k))).toInt.toNat (4194334 - 1) = _
  rw [e12, v6_toInt x3 h3, Int.toNat_natCast, nseq_of_lt x3 c]
  have h1 := (h3 c).2
  have hn := toNat_of_inRange x3 h3 c
  have hkl := k.isLt
  omega

/-- The profile's entry at `(c, k)`. -/
theorem v15_at (x0 : FVec Ideal S31 .f32) (c : Fin 1048576) (k : Fin 31) :
    val_main_v15 (F := Ideal) x0 (ix2 c k) = seq x0 k.val := by
  rw [val_main_v15_apply, val_main_v14_apply, seq_of_lt x0 k]
  exact congrArg x0 (funext fun a => by match a with | ⟨0, _⟩ => rfl)

/-- The weighted window entry at `(c, k)`. -/
theorem v16_at (x0 : FVec Ideal S31 .f32) (x1 : FVec Ideal S4194304 .f32) (x3 : IVec S1048576 32) (h3 : InRange x3)
    (c : Fin 1048576) (k : Fin 31) :
    val_main_v16 (F := Ideal) x0 x1 x3 (ix2 c k)
      = Cert.Spec.pad15 (seq x1) (nseq x3 c.val + k.val) * seq x0 k.val := by
  rw [val_main_v16_apply, v13_at x1 x3 h3, v15_at]
  rfl

/-- The reference's window sum at centre `c` is the specification's `corr` at the centre's position. -/
theorem rowsum_eq (x0 : FVec Ideal S31 .f32) (x1 : FVec Ideal S4194304 .f32) (x3 : IVec S1048576 32) (h3 : InRange x3)
    (c : Fin 1048576) :
    val_main_v17 (F := Ideal) x0 x1 x3 (ix1 c) = Cert.Spec.corr (seq x0) (seq x1) (nseq x3 c.val) := by
  rw [val_main_v17_apply, val_main_cst_apply, Ideal.ofBits_def, Ideal.ofBits_zero_f32, zero_add]
  unfold Cert.Spec.corr
  rw [Finset.sum_range]
  refine Finset.sum_congr rfl fun k _ => ?_
  have e : idx_main_v17 (ix1 c) k = ix2 c k := by
    funext a; match a with | ⟨0, _⟩ => rfl | ⟨1, _⟩ => rfl
  rw [e, v16_at x0 x1 x3 h3]

/-! ### The scatter-add -/

/-- The ideal scatter-add read at an index: the operand's entry plus every update that lands there. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j, if d.resultIdx? j idx = some i then upd j else 0 := by
  unfold Ideal.hostScatterAdd
  rw [Finset.sum_filter]

/-- The reference's scatter is the ideal scatter-add of the updates into the zero array. -/
theorem v29_eq (x0 : FVec Ideal S31 .f32) (x1 : FVec Ideal S4194304 .f32) (x2 : FVec Ideal S1048576 .f32) (x3 : IVec S1048576 32) :
    val_main_v29 (F := Ideal) x0 x1 x2 x3
      = Ideal.hostScatterAdd scatter_S4194334_S1048576x31x1_S1048576x31_n_0_0_2 (val_main_v22 (F := Ideal))
          (val_main_v28 (F := Ideal) x3) (val_main_v21 (F := Ideal) x0 x1 x2 x3) := rfl

/-- The scatter's start at `(c, k)`: the index word read signed, the centre's position plus `k`. -/
theorem start_at (x3 : IVec S1048576 32) (h3 : InRange x3) (c : Fin 1048576) (k : Fin 31) (a : Fin 1) :
    scatter_S4194334_S1048576x31x1_S1048576x31_n_0_0_2.start (ix2 c k) (val_main_v28 (F := Ideal) x3) a
      = ((nseq x3 c.val + k.val : ℕ) : Int) := by
  obtain rfl : a = 0 := Subsingleton.elim _ _
  unfold ScatterDims.start
  rw [dif_pos (show (0 : Fin 1) ∈ scatter_S4194334_S1048576x31x1_S1048576x31_n_0_0_2.scatterDimsToOperandDims from
    List.mem_singleton.mpr rfl)]
  have hsi : scatter_S4194334_S1048576x31x1_S1048576x31_n_0_0_2.siIdx (ix2 c k)
      ⟨List.idxOf (0 : Fin 1) scatter_S4194334_S1048576x31x1_S1048576x31_n_0_0_2.scatterDimsToOperandDims,
        List.idxOf_lt_length_iff.2 (List.mem_singleton.mpr rfl)⟩ = takeIdx (ix2 c k) := by
    funext b; refine Fin.ext ?_
    match b with
    | ⟨0, _⟩ => rfl
    | ⟨1, _⟩ => rfl
    | ⟨2, _⟩ => rfl
  rw [hsi, val_main_v28_apply]
  have e : idx_main_v28 (takeIdx (ix2 c k)) = ix2 c k := by
    funext a; match a with | ⟨0, _⟩ => rfl | ⟨1, _⟩ => rfl
  rw [e, v27_at x3 h3, v6_toInt x3 h3, nseq_of_lt x3 c]

/-- The scatter has no window coordinate: its one operand axis is an inserted one. -/
theorem window_at (c : Fin 1048576) (k : Fin 31) (a : Fin 1) :
    scatter_S4194334_S1048576x31x1_S1048576x31_n_0_0_2.window (ix2 c k) a = 0 := by
  obtain rfl : a = 0 := Subsingleton.elim _ _
  unfold ScatterDims.window
  rw [dif_neg (by decide)]

/-- The padded array's one extent. -/
theorem size_pad (a : Fin 1) : S4194334.size a = 4194334 := by
  obtain rfl : a = 0 := Subsingleton.elim _ _
  rfl

/-- The update at `(c, k)` lands on `i'` exactly when the centre's position plus `k` is `i'`: the start is the
    index word read signed, there is no window coordinate, and the sum is inside the padded array. -/
theorem lands_iff (x3 : IVec S1048576 32) (h3 : InRange x3) (c : Fin 1048576) (k : Fin 31) (i' : S4194334.Idx) :
    scatter_S4194334_S1048576x31x1_S1048576x31_n_0_0_2.resultIdx? (ix2 c k) (val_main_v28 (F := Ideal) x3) = some i'
      ↔ nseq x3 c.val + k.val = (i' 0).val := by
  have h1 := (h3 c).2
  have hn := toNat_of_inRange x3 h3 c
  have hkl := k.isLt
  have hns := nseq_of_lt x3 c
  have hq : nseq x3 c.val + k.val < 4194334 := by omega
  have hall : ∀ a : Fin S4194334.rank,
      0 ≤ scatter_S4194334_S1048576x31x1_S1048576x31_n_0_0_2.start (ix2 c k) (val_main_v28 (F := Ideal) x3) a
          + scatter_S4194334_S1048576x31x1_S1048576x31_n_0_0_2.window (ix2 c k) a
      ∧ scatter_S4194334_S1048576x31x1_S1048576x31_n_0_0_2.start (ix2 c k) (val_main_v28 (F := Ideal) x3) a
          + scatter_S4194334_S1048576x31x1_S1048576x31_n_0_0_2.window (ix2 c k) a < S4194334.size a := by
    intro a
    rw [start_at x3 h3 c k a, window_at c k a, size_pad a]
    omega
  unfold ScatterDims.resultIdx?
  rw [dif_pos hall, Option.some_inj]
  constructor
  · intro h
    have h' : ((scatter_S4194334_S1048576x31x1_S1048576x31_n_0_0_2.start (ix2 c k) (val_main_v28 (F := Ideal) x3) 0
        + scatter_S4194334_S1048576x31x1_S1048576x31_n_0_0_2.window (ix2 c k) 0).toNat) = (i' 0).val :=
      congrArg (fun f : S4194334.Idx => (f 0).val) h
    rw [start_at x3 h3 c k 0, window_at c k 0] at h'
    omega
  · intro h
    funext a
    obtain rfl : a = 0 := Subsingleton.elim _ _
    refine Fin.ext ?_
    show (scatter_S4194334_S1048576x31x1_S1048576x31_n_0_0_2.start (ix2 c k) (val_main_v28 (F := Ideal) x3) 0
      + scatter_S4194334_S1048576x31x1_S1048576x31_n_0_0_2.window (ix2 c k) 0).toNat = (i' 0).val
    rw [start_at x3 h3 c k 0, window_at c k 0]
    omega

/-- The centre's quotient, broadcast along the taps. -/
theorem v20_at (x0 : FVec Ideal S31 .f32) (x1 : FVec Ideal S4194304 .f32) (x2 : FVec Ideal S1048576 .f32) (x3 : IVec S1048576 32)
    (h3 : InRange x3) (c : Fin 1048576) (k : Fin 31) :
    val_main_v20 (F := Ideal) x0 x1 x2 x3 (ix2 c k)
      = Cert.Spec.quot (seq x0) (seq x1) (seq x2) (nseq x3) c.val := by
  rw [val_main_v20_apply, val_main_v19_apply]
  have e : idx_main_v19 (idx_main_v20 (ix2 c k)) = ix1 c := by
    funext a; match a with | ⟨0, _⟩ => rfl
  rw [e, val_main_v18_apply, Ideal.hostDivf_def, rowsum_eq x0 x1 x3 h3, ← seq_of_lt x2 c]
  unfold Cert.Spec.quot
  rfl

/-- The update at `(c, k)`: the weighted window entry times the centre's quotient. -/
theorem v21_at (x0 : FVec Ideal S31 .f32) (x1 : FVec Ideal S4194304 .f32) (x2 : FVec Ideal S1048576 .f32) (x3 : IVec S1048576 32)
    (h3 : InRange x3) (c : Fin 1048576) (k : Fin 31) :
    val_main_v21 (F := Ideal) x0 x1 x2 x3 (ix2 c k)
      = (Cert.Spec.pad15 (seq x1) (nseq x3 c.val + k.val) * seq x0 k.val)
        * Cert.Spec.quot (seq x0) (seq x1) (seq x2) (nseq x3) c.val := by
  rw [val_main_v21_apply, v16_at x0 x1 x3 h3, v20_at x0 x1 x2 x3 h3, Ideal.mulf_def]

/-- The reference's result at position `i` is the specification's `outR`. -/
theorem out_eq (x0 : FVec Ideal S31 .f32) (x1 : FVec Ideal S4194304 .f32) (x2 : FVec Ideal S1048576 .f32) (x3 : IVec S1048576 32)
    (h3 : InRange x3) (i : Fin 4194304) :
    val_main_v30 (F := Ideal) x0 x1 x2 x3 (ix1 i) = Cert.Spec.outR (seq x0) (seq x1) (seq x2) (nseq x3) i.val := by
  rw [val_main_v30_apply, v29_eq, hostScatterAdd_apply, val_main_v22_apply, val_main_cst_2_apply, Ideal.ofBits_def,
    Ideal.ofBits_zero_f32, zero_add, sum_idx2]
  unfold Cert.Spec.outR
  rw [Finset.sum_range]
  refine Finset.sum_congr rfl fun c _ => ?_
  rw [Finset.sum_range]
  refine Finset.sum_congr rfl fun k _ => ?_
  rw [v21_at x0 x1 x2 x3 h3]
  refine if_congr ?_ rfl rfl
  rw [lands_iff x3 h3]
  show nseq x3 c.val + k.val = 15 + i.val ↔ _
  omega

end Cert.RefValue

end
-- ==== Proof.PreFacts.lean ====
/-
  What the precondition says, decoded: every float input is a real number at every index, every centre lies inside the
  sequence, and the window sum at every centre is nonzero.
-/
import proofs.«419612_j53841710022881_3_alg».proof.Pre_finite_inputs
import proofs.«419612_j53841710022881_3_alg».proof.Proof.RefValue
import Idealize.ShloMosaic.Lib.ReduceAll
import Idealize.ShloMosaic.Lib.StableHlo.Predicate

noncomputable section

namespace Cert.PreFacts

open Idealize.ShloMosaic Idealize.ShloMosaic.ValueIdx
open Cert.Bridge

/-- The scalar shape has one index. -/
instance : Subsingleton Cert.Pre_finite_inputs.S_.Idx := ⟨fun a b => funext fun d => d.elim0⟩

/-- An extended real whose absolute value is below `+∞` is a real number. -/
theorem real_of_abs_lt_top (a : EReal) (h : max a (-a) < ⊤) : ∃ r : ℝ, a = (r : EReal) := by
  induction a using EReal.rec with
  | bot => simp at h
  | top => simp at h
  | coe r => exact ⟨r, rfl⟩

/-- One entry of the mask `|x| < +∞`: where it is set, the entry of `x` is a real number. -/
theorem real_of_mask {s : Shape} (hb : Cert.Pre_finite_inputs.S_.BroadcastsInDim s (![] : Fin 0 → Fin s.rank))
    (x : FVec Ideal s .f32) (i : s.Idx)
    (e : cmpf .olt (Host.absf x)
      (broadcastInDim s ![] hb (constant (F := Ideal) Cert.Pre_finite_inputs.S_ .f32 0x7F800000#32)) i = 1#1) :
    ∃ r : ℝ, x i = (r : EReal) := by
  have e' : Ideal.cmp .olt (max (x i) (-(x i))) (Ideal.ofBits .f32 0x7F800000#32) = 1#1 := e
  have ht : Ideal.ofBits .f32 0x7F800000#32 = ⊤ := by simp [Ideal.ofBits, Ideal.ieee]
  rw [ht] at e'
  simp only [Ideal.cmp, StableHlo.Predicate.ofBool_eq_one_iff, decide_eq_true_eq] at e'
  exact real_of_abs_lt_top (x i) e'

/-- The reference pads with the integer zero converted to a float: the float zero, as the precondition's pad. -/
theorem pad_value :
    Cert.ReferenceIdeal.Read.val_main_call0_v0 (F := Ideal)
      = constant (F := Ideal) Cert.ReferenceIdeal.S_ .f32 0x00000000#32 := by
  funext i
  show ((((0#32 : BitVec 32).toInt : ℤ) : ℝ) : EReal) = Ideal.ofBits .f32 0x00000000#32
  rw [Ideal.ofBits_zero_f32]
  simp

/-- The reference's window sums, its last three operations written out and its pad value the float zero. -/
theorem ref_rowsum (x0 : FVec Ideal Cert.ReferenceIdeal.S31 .f32) (x1 : FVec Ideal Cert.ReferenceIdeal.S4194304 .f32)
    (x3 : IVec Cert.ReferenceIdeal.S1048576 32) :
    Cert.ReferenceIdeal.Read.val_main_v17 (F := Ideal) x0 x1 x3
      = Host.reduceAdd
          (mulf
            (Host.gather Cert.ReferenceIdeal.gather_S4194334_S1048576x31x1_S1048576x31_n_0_n_n_0_2_1
              (pad Cert.ReferenceIdeal.S4194334 ![15] ![15] ![0] x1
                (constant (F := Ideal) Cert.ReferenceIdeal.S_ .f32 0x00000000#32)
                Cert.ReferenceIdeal.Facts₀.pads_S4194304_S4194334_15150 Cert.ReferenceIdeal.Facts₀.h_S_)
              (Cert.ReferenceIdeal.Read.val_main_v12 (F := Ideal) x3))
            (Cert.ReferenceIdeal.Read.val_main_v15 (F := Ideal) x0))
          (Cert.ReferenceIdeal.Read.val_main_cst (F := Ideal))
          Cert.ReferenceIdeal.Facts₀.reducesTo_S1048576x31_S1048576_d1 Cert.ReferenceIdeal.Facts₀.h_S_ := by
  unfold Cert.ReferenceIdeal.Read.val_main_v17 Cert.ReferenceIdeal.Read.val_main_v16
    Cert.ReferenceIdeal.Read.val_main_v13 Cert.ReferenceIdeal.Read.val_main_v0
  rw [pad_value]

/-- One entry of the mask `y ≠ 0`: where it is set, the entry of `y` is not zero. -/
theorem ne_zero_of_mask {s : Shape} (hb : Cert.Pre_finite_inputs.S_.BroadcastsInDim s (![] : Fin 0 → Fin s.rank))
    (y : FVec Ideal s .f32) (i : s.Idx)
    (e : cmpf .une y
      (broadcastInDim s ![] hb (constant (F := Ideal) Cert.Pre_finite_inputs.S_ .f32 0x00000000#32)) i = 1#1) :
    y i ≠ 0 := by
  have e' : Ideal.cmp .une (y i) (Ideal.ofBits .f32 0x00000000#32) = 1#1 := e
  rw [Ideal.ofBits_zero_f32] at e'
  simpa only [Ideal.cmp, StableHlo.Predicate.ofBool_eq_one_iff, decide_eq_true_eq] using e'

/-- The precondition, at the ideal instance, unpacked. -/
theorem of_pre [Cert.Pre_finite_inputs.Facts] (x0 : FVec Ideal Cert.Pre_finite_inputs.S31 .f32) (x1 : FVec Ideal Cert.Pre_finite_inputs.S4194304 .f32)
    (x2 : FVec Ideal Cert.Pre_finite_inputs.S1048576 .f32) (x3 : IVec Cert.Pre_finite_inputs.S1048576 32)
    (h : Cert.Pre_finite_inputs.fn (F := Ideal) x0 x1 x2 x3 = (fun _ => 1#1)) :
    Finite x0 ∧ Finite x1 ∧ Finite x2 ∧ InRange x3
      ∧ ∀ c : Fin 1048576, Cert.Spec.corr (seq x0) (seq x1) (nseq x3 c.val) ≠ 0 := by
  have e : Cert.Pre_finite_inputs.fn (F := Ideal) x0 x1 x2 x3 ix0 = 1#1 := congrFun h ix0
  unfold Cert.Pre_finite_inputs.fn Cert.Pre_finite_inputs.fn_part1 Cert.Pre_finite_inputs.fn_part2 at e
  dsimp only at e
  -- the five conjuncts, each a reduction by `and` over a mask
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have f1 := Host.reduce_andi_all _ _ _ _ _ e1
  have f2 := Host.reduce_andi_all _ _ _ _ _ e2
  have f3 := Host.reduce_andi_all _ _ _ _ _ e3
  have f4 := Host.reduce_andi_all _ _ _ _ _ e4
  have f5 := Host.reduce_andi_all _ _ _ _ _ e5
  -- every centre in range: the two signed comparisons against 0 and 4194304
  have hR : InRange x3 := by
    intro c
    obtain ⟨ha, hb⟩ := IntOp.andi_eq_one.1 (f4 (ix1 c))
    have ha' : IntOp.cmpi .sge (x3 (ix1 c)) 0#32 = 1#1 := ha
    have hb' : IntOp.cmpi .slt (x3 (ix1 c)) 4194304#32 = 1#1 := hb
    rw [IntOp.cmpi_sge] at ha'
    rw [IntOp.cmpi_slt] at hb'
    have z0 : (0#32 : BitVec 32).toInt = 0 := by decide
    have z1 : (4194304#32 : BitVec 32).toInt = 4194304 := by decide
    rw [z0] at ha'
    rw [z1] at hb'
    exact ⟨ha', hb'⟩
  refine ⟨fun i => real_of_mask _ x0 i (f1 i), fun i => real_of_mask _ x1 i (f2 i),
    fun i => real_of_mask _ x2 i (f3 i), hR, ?_⟩
  -- the window sum the precondition tests is the reference's, and that is the specification's `corr`
  intro c
  have g := ne_zero_of_mask _ _ (ix1 c) (f5 (ix1 c))
  rw [← Cert.RefValue.rowsum_eq x0 x1 x3 hR c, ref_rowsum]
  convert g using 5
  · rfl
  · rfl
  · rfl
  · rfl

end Cert.PreFacts

end
-- ==== Proof.Agree.lean ====
/-
  The two programs' results are one array.  Under the precondition every float input is real, every centre lies inside
  the sequence and every centre's window sum is nonzero; then the reference's result at position `i` is the
  specification's `outR`, the kernel side's — what the last reshape makes of region 1's row — is its `outK`, and the two
  groupings of the same products agree.
-/
import proofs.«419612_j53841710022881_3_alg».proof.Defs
import proofs.«419612_j53841710022881_3_alg».proof.Proof.KernelIdeal.Run
import proofs.«419612_j53841710022881_3_alg».proof.Proof.KernelIdeal.Value0
import proofs.«419612_j53841710022881_3_alg».proof.Proof.KernelIdeal.Value1
import proofs.«419612_j53841710022881_3_alg».proof.Proof.KernelIdeal.Host
import proofs.«419612_j53841710022881_3_alg».proof.Proof.PreFacts

noncomputable section

namespace Cert.Agree

open Idealize.ShloMosaic Idealize.ShloMosaic.TcCoe Idealize.ShloMosaic.ValueIdx Idealize.SL.Sem
open Cert.Bridge

/-- The reference's result is what the kernel side ends with in its result row. -/
theorem results_agree [hPre_finite_inputs : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    Cert.ReferenceIdeal.Value.res_main_v30 (F := Ideal) m' c = Cert.KernelIdeal.Gen.V9 m (Cert.KernelIdeal.Hand.outs m) c Cert.KernelIdeal.main_v22 := by
  -- the precondition, decoded at the kernel side's arguments
  obtain ⟨hf0, hf1, hf2, hR, hne⟩ := Cert.PreFacts.of_pre _ _ _ _ (hpre c)
  obtain ⟨a0, a1, a2, a3⟩ := hagree c
  funext j
  obtain ⟨i, rfl⟩ : ∃ i : Fin 4194304, j = ix1 i := ⟨j 0, eq_ix1 j⟩
  -- the reference's result at `i` is `outR`
  rw [Cert.ReferenceIdeal.Read.val_main_v30_eq m' c, a0, a1, a2, a3]
  refine (Cert.RefValue.out_eq _ _ _ _ hR i).trans ?_
  -- the kernel side's is `outK`, from what the two regions leave in their rows
  have h0 : ∀ i, i < 4194304 → seq2 (Cert.KernelIdeal.Hand.outs m 4 Cert.KernelIdeal.main_v3 c) i
      = ∑ k ∈ Finset.range 31, seq2 (Cert.KernelIdeal.Gen.V3 m c Cert.KernelIdeal.main_v1) (i + k)
          * seq2 (Cert.KernelIdeal.Gen.V3 m c Cert.KernelIdeal.main_v2) k := by
    intro i hi
    rw [Cert.KernelIdeal.Hand.outs_v3_eq m c]
    exact Cert.KernelIdeal.Hand.corr_arr (fun c b => Cert.KernelIdeal.Gen.V3 m c b) c i hi
  have h1 : ∀ i, i < 4194304 → seq2 (Cert.KernelIdeal.Hand.outs m 8 Cert.KernelIdeal.main_v21 c) i
      = (∑ k ∈ Finset.range 31,
            seq2 (Cert.KernelIdeal.Gen.V7 m (Cert.KernelIdeal.Hand.outs m) c Cert.KernelIdeal.main_v17) (i + k)
              * seq2 (Cert.KernelIdeal.Gen.V7 m (Cert.KernelIdeal.Hand.outs m) c Cert.KernelIdeal.main_v19) k)
          * seq2 (Cert.KernelIdeal.Gen.V7 m (Cert.KernelIdeal.Hand.outs m) c Cert.KernelIdeal.main_v20) i := by
    intro i hi
    rw [Cert.KernelIdeal.Hand.outs_v21_eq m c]
    exact Cert.KernelIdeal.Hand.conv_arr
      (fun c b => Cert.KernelIdeal.Gen.V7 m (Cert.KernelIdeal.Hand.outs m) c b) c i hi
  refine Eq.trans ?_ (Cert.KernelIdeal.Hand.host_out m (Cert.KernelIdeal.Hand.outs m) c h0 h1 hR i).symm
  -- the two groupings of the same products agree
  exact (Cert.Spec.outK_eq_outR _ _ _ _ (seq_finite _ hf0) (seq_finite _ hf1) (seq_finite _ hf2)
    (nseq_lt _ hR) (fun c' hc' => hne ⟨c', hc'⟩) i.val i.isLt).symm

end Cert.Agree

end
-- ==== Proof.lean ====
/-
  The certificate's claim, assembled.

  The two programs compute, at every position `i` of the sequence, the sum over the (centre, tap) pairs landing on `i` of
  the tap-weighted sequence entry times the centre's weight over its window sum.  The reference forms one product per
  pair and adds them; the kernel first adds the quotients of the centres sitting at each position, then takes the window
  sum of those against the reversed profile and multiplies by the sequence entry once.  The two agree by the distributive
  law, which on the extended reals needs every term real: the precondition says every float input is finite, every centre
  lies inside the sequence, and no centre's window sum is zero.

  * the frames of the two kernel programs: the run of @main's nine items — host stretches over the held buffers, the two
    regions with the padded row's buffer split between the two windows that read it — at either float instance;
  * the reference's frame: its run, with the result dropped;
  * nothing was rewritten by the idealization;
  * the two results: the kernel side's run names its result row, and that row is the reference's result array.
-/
import proofs.«419612_j53841710022881_3_alg».proof.Defs
import proofs.«419612_j53841710022881_3_alg».proof.Proof.Gen.Kernel
import proofs.«419612_j53841710022881_3_alg».proof.Proof.Gen.KernelIdeal
import proofs.«419612_j53841710022881_3_alg».proof.Proof.Gen.ReferenceIdeal
import proofs.«419612_j53841710022881_3_alg».proof.Proof.Gen.Pre_finite_inputs
import proofs.«419612_j53841710022881_3_alg».proof.Proof.Gen.ReferenceIdeal.Run
import proofs.«419612_j53841710022881_3_alg».proof.Proof.Kernel.Run
import proofs.«419612_j53841710022881_3_alg».proof.Proof.KernelIdeal.Run
import proofs.«419612_j53841710022881_3_alg».proof.Proof.Agree
import Idealize.ShloMosaic.Adequacy
import Idealize.ShloMosaic.Init

noncomputable section

namespace Cert.Proof

open Idealize.ShloMosaic Idealize.ShloMosaic.TcCoe Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run Cert.ReferenceIdeal.defs _ _).mono (fun _ h c => (h c).2) (Cert.ReferenceIdeal.Value.run (F := Ideal) m ρ),
    trivial,
    fun m ρ m' ρ' hpre hagree =>
      ⟨fun c => Cert.KernelIdeal.Gen.V9 m (Cert.KernelIdeal.Hand.outs m) c Cert.KernelIdeal.main_v22,
        Cert.KernelIdeal.Hand.run_value m ρ,
        (θ_run Cert.ReferenceIdeal.defs _ _).mono
          (fun _ h c => ⟨(h c).1.trans (Cert.Agree.results_agree m m' hpre hagree c), (h c).2⟩)
          (Cert.ReferenceIdeal.Value.run (F := Ideal) m' ρ')⟩⟩

end Cert.Proof

end
